-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2096 : Shape := ⟨2, ![1024, 2096]⟩
abbrev S6x2096 : Shape := ⟨2, ![6, 2096]⟩
abbrev S6x2096x2096 : Shape := ⟨3, ![6, 2096, 2096]⟩
abbrev S1024 : Shape := ⟨1, ![1024]⟩
abbrev S_ : Shape := ⟨0, ![]⟩

class Facts : Prop where
  bcast_S_S1024x2096 : S_.BroadcastsInDim S1024x2096 (![] : Fin 0 → Fin S1024x2096.rank)
  reducesTo_S1024x2096_S_d0_1 : S1024x2096.ReducesTo [0, 1] S_
  h_S_ : 0 < S_.numel
  bcast_S_S6x2096 : S_.BroadcastsInDim S6x2096 (![] : Fin 0 → Fin S6x2096.rank)
  reducesTo_S6x2096_S_d0_1 : S6x2096.ReducesTo [0, 1] S_
  bcast_S_S6x2096x2096 : S_.BroadcastsInDim S6x2096x2096 (![] : Fin 0 → Fin S6x2096x2096.rank)
  reducesTo_S6x2096x2096_S_d0_1_2 : S6x2096x2096.ReducesTo [0, 1, 2] S_

variable [Facts]

def fn {F : FTy → Type} [FloatOps F] (main_arg0 : FVec F S1024x2096 .f32) (main_arg1 : FVec F S6x2096 .f32) (main_arg2 : FVec F S6x2096x2096 .f32) (main_arg3 : IVec S1024 32) : IVec S_ 1 :=
  let main_v0 : FVec F S1024x2096 .f32 := Host.absf main_arg0
  let main_cst : FVec F S_ .f32 := constant S_ .f32 0x7F800000#32
  let main_v1 : FVec F S1024x2096 .f32 := broadcastInDim S1024x2096 ![] bcast_S_S1024x2096 main_cst
  let main_v2 : IVec S1024x2096 1 := cmpf .olt main_v0 main_v1
  let main_c : IVec S_ 1 := constantI S_ 1 1#1
  let main_v3 : IVec S_ 1 := (fun x v => Host.reduce IntOp.andi x v reducesTo_S1024x2096_S_d0_1 h_S_) main_v2 main_c
  let main_v4 : FVec F S6x2096 .f32 := Host.absf main_arg1
  let main_cst_0 : FVec F S_ .f32 := constant S_ .f32 0x7F800000#32
  let main_v5 : FVec F S6x2096 .f32 := broadcastInDim S6x2096 ![] bcast_S_S6x2096 main_cst_0
  let main_v6 : IVec S6x2096 1 := cmpf .olt main_v4 main_v5
  let main_c_1 : IVec S_ 1 := constantI S_ 1 1#1
  let main_v7 : IVec S_ 1 := (fun x v => Host.reduce IntOp.andi x v reducesTo_S6x2096_S_d0_1 h_S_) main_v6 main_c_1
  let main_v8 : IVec S_ 1 := andi main_v3 main_v7
  let main_v9 : FVec F S6x2096x2096 .f32 := Host.absf main_arg2
  let main_cst_2 : FVec F S_ .f32 := constant S_ .f32 0x7F800000#32
  let main_v10 : FVec F S6x2096x2096 .f32 := broadcastInDim S6x2096x2096 ![] bcast_S_S6x2096x2096 main_cst_2
  let main_v11 : IVec S6x2096x2096 1 := cmpf .olt main_v9 main_v10
  let main_c_3 : IVec S_ 1 := constantI S_ 1 1#1
  let main_v12 : IVec S_ 1 := (fun x v => Host.reduce IntOp.andi x v reducesTo_S6x2096x2096_S_d0_1_2 h_S_) main_v11 main_c_3
  let main_v13 : IVec S_ 1 := andi main_v8 main_v12
  main_v13
-- ==== Kernel.lean ====
abbrev S1024x2096 : Shape := ⟨2, ![1024, 2096]⟩
abbrev S6x2096 : Shape := ⟨2, ![6, 2096]⟩
abbrev S6x2096x2096 : Shape := ⟨3, ![6, 2096, 2096]⟩
abbrev S1024 : Shape := ⟨1, ![1024]⟩
abbrev S_ : Shape := ⟨0, ![]⟩
abbrev S1024x2304 : Shape := ⟨2, ![1024, 2304]⟩
abbrev S6x2304 : Shape := ⟨2, ![6, 2304]⟩
abbrev S6x2304x2304 : Shape := ⟨3, ![6, 2304, 2304]⟩
abbrev S6x1024 : Shape := ⟨2, ![6, 1024]⟩
abbrev S256x384 : Shape := ⟨2, ![256, 384]⟩
abbrev S6x384 : Shape := ⟨2, ![6, 384]⟩
abbrev S6x384x384 : Shape := ⟨3, ![6, 384, 384]⟩
abbrev S6x256 : Shape := ⟨2, ![6, 256]⟩
abbrev S6x256x384 : Shape := ⟨3, ![6, 256, 384]⟩
abbrev S1x256x384 : Shape := ⟨3, ![1, 256, 384]⟩
abbrev S6x1x384 : Shape := ⟨3, ![6, 1, 384]⟩
abbrev S1024x1 : Shape := ⟨2, ![1024, 1]⟩
abbrev S1024x2 : Shape := ⟨2, ![1024, 2]⟩

abbrev nBuf : Space → Nat
  | .hbm => 33
  | .vmem => 14
  | .smem => 0
  | _ => 0

abbrev bufTy : (tb : Table) → Fin (tcTables nBuf tb) → BufTy
  | .hbm, ⟨0, _⟩ => ⟨S1024x2096, .f32⟩
  | .hbm, ⟨1, _⟩ => ⟨S6x2096, .f32⟩
  | .hbm, ⟨2, _⟩ => ⟨S6x2096x2096, .f32⟩
  | .hbm, ⟨3, _⟩ => ⟨S1024, .i32⟩
  | .hbm, ⟨4, _⟩ => ⟨S_, .i32⟩
  | .hbm, ⟨5, _⟩ => ⟨S_, .f32⟩
  | .hbm, ⟨6, _⟩ => ⟨S1024x2304, .f32⟩
  | .hbm, ⟨7, _⟩ => ⟨S_, .i32⟩
  | .hbm, ⟨8, _⟩ => ⟨S_, .f32⟩
  | .hbm, ⟨9, _⟩ => ⟨S6x2304, .f32⟩
  | .hbm, ⟨10, _⟩ => ⟨S_, .i32⟩
  | .hbm, ⟨11, _⟩ => ⟨S_, .f32⟩
  | .hbm, ⟨12, _⟩ => ⟨S6x2304x2304, .f32⟩
  | .hbm, ⟨13, _⟩ => ⟨S6x1024, .f32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1024x1, .i32⟩
  | .hbm, ⟨31, _⟩ => ⟨S1024x2, .i32⟩
  | .hbm, ⟨32, _⟩ => ⟨S1024, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S6x384, .f32⟩
  | .local _ .vmem, ⟨5, _⟩ => ⟨S6x384, .f32⟩
  | .local _ .vmem, ⟨6, _⟩ => ⟨S6x384, .f32⟩
  | .local _ .vmem, ⟨7, _⟩ => ⟨S6x384, .f32⟩
  | .local _ .vmem, ⟨8, _⟩ => ⟨S6x384x384, .f32⟩
  | .local _ .vmem, ⟨9, _⟩ => ⟨S6x384x384, .f32⟩
  | .local _ .vmem, ⟨10, _⟩ => ⟨S6x256, .f32⟩
  | .local _ .vmem, ⟨11, _⟩ => ⟨S6x256, .f32⟩
  | .local _ .vmem, ⟨12, _⟩ => ⟨S6x256x384, .f32⟩
  | .local _ .vmem, ⟨13, _⟩ => ⟨S6x256, .f32⟩
  | _, _ => ⟨S1024x2096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 6, 6], ![false, false, false]⟩

def k0_cond4 (i : grid0.Coords) : BitVec 1 :=
  let arg1 : BitVec 32 := BitVec.ofNat 32 (i 1).val
  let c5_i32_17 : BitVec 32 := 5#32
  let v30 : BitVec 1 := Scalar.cmpi .eq arg1 c5_i32_17
  let arg2 : BitVec 32 := BitVec.ofNat 32 (i 2).val
  let c5_i32_18 : BitVec 32 := 5#32
  let v31 : BitVec 1 := Scalar.cmpi .eq arg2 c5_i32_18
  let v32 : BitVec 1 := Scalar.andi v30 v31
  let v33 : BitVec 32 := Scalar.extui v32
  let c0_i32_19 : BitVec 32 := 0#32
  let v34 : BitVec 1 := Scalar.cmpi .ne v33 c0_i32_19
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S6x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S6x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S6x384x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S6x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  pads_S1024x2096_S1024x2304_000_02080 : S1024x2096.Pads (![0, 0] : Fin 2 → Nat) ![0, 208] ![0, 0] S1024x2304
  h_S_ : 0 < S_.numel
  pads_S6x2096_S6x2304_000_02080 : S6x2096.Pads (![0, 0] : Fin 2 → Nat) ![0, 208] ![0, 0] S6x2304
  pads_S6x2096x2096_S6x2304x2304_000_02080_02080 : S6x2096x2096.Pads (![0, 0, 0] : Fin 3 → Nat) ![0, 208, 208] ![0, 0, 0] S6x2304x2304
  inb_S6x256_S6x256_0_0 : ∀ a, (![0, 0] : Fin 2 → Nat) a + S6x256.size a ≤ S6x256.size a
  h_S6x256 : 0 < S6x256.numel
  shapeCasts_S6x256_S6x256 : S6x256.ShapeCasts S6x256
  inb_S6x256x384_S6x256x384_0_0_0 : ∀ a, (![0, 0, 0] : Fin 3 → Nat) a + S6x256x384.size a ≤ S6x256x384.size a
  h_S6x256x384 : 0 < S6x256x384.numel
  shapeCasts_S6x256x384_S6x256x384 : S6x256x384.ShapeCasts S6x256x384
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S6x384_S6x384_0_0 : ∀ a, (![0, 0] : Fin 2 → Nat) a + S6x384.size a ≤ S6x384.size a
  h_S6x384 : 0 < S6x384.numel
  shapeCasts_S6x384_S6x384 : S6x384.ShapeCasts S6x384
  shapeCasts_S256x384_S1x256x384 : S256x384.ShapeCasts S1x256x384
  shapeCasts_S6x384_S6x1x384 : S6x384.ShapeCasts S6x1x384
  broadcasts_S1x256x384_S6x256x384 : S1x256x384.Broadcasts S6x256x384
  broadcasts_S6x1x384_S6x256x384 : S6x1x384.Broadcasts S6x256x384
  bitsLt_bf16_f32 : FTy.bits .bf16 < FTy.bits .f32
  inb_S6x384x384_S6x384x384_0_0_0 : ∀ a, (![0, 0, 0] : Fin 3 → Nat) a + S6x384x384.size a ≤ S6x384x384.size a
  h_S6x384x384 : 0 < S6x384x384.numel
  shapeCasts_S6x384x384_S6x384x384 : S6x384x384.ShapeCasts S6x384x384
  reduces_S6x256x384_S6x256 : S6x256x384.Reduces [2] S6x256
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  dot_S6x256x384_S6x384x384_S6x256x384_2_1_1_2_0_0_wf : DotDims.WF S6x256x384 S6x384x384 S6x256x384 [2] [1] [1] [2] [0] [0]
  gather_S6x1024_S1024x2_S1024_n_01_n_n_01_1_11_wf : GatherDims.WF S6x1024 S1024x2 S1024 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x384.size a ≤ S1024x2304.size a
  hwx0_0 : ∀ i : grid0.Coords, EltTy.bits .f32 = 32 ∨ (Rect.block (s := S1024x2304) S256x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S1024x2304.size a
  hwx0_1 : ∀ i : grid0.Coords, EltTy.bits .f32 = 32 ∨ (Rect.block (s := S1024x2304) S256x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x384.size a ≤ S6x2304.size a
  hwx0_2 : ∀ i : grid0.Coords, EltTy.bits .f32 = 32 ∨ (Rect.block (s := S6x2304) S6x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6x384.size a ≤ S6x2304.size a
  hwx0_3 : ∀ i : grid0.Coords, EltTy.bits .f32 = 32 ∨ (Rect.block (s := S6x2304) S6x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6x384x384.size a ≤ S6x2304x2304.size a
  hwx0_4 : ∀ i : grid0.Coords, EltTy.bits .f32 = 32 ∨ (Rect.block (s := S6x2304x2304) S6x384x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6x256.size a ≤ S6x1024.size a
  hwx0_5 : ∀ i : grid0.Coords, EltTy.bits .f32 = 32 ∨ (Rect.block (s := S6x1024) S6x256.size (cc0_transform_5 i) (hinb0_5 i)).WholeWords (EltTy.packing .f32)

variable [Facts₀]

def dot_S6x256x384_S6x384x384_S6x256x384_2_1_1_2_0_0 : DotDims S6x256x384 S6x384x384 S6x256x384 where
  lhsContracting := [2]
  rhsContracting := [1]
  lhsNonContracting := [1]
  rhsNonContracting := [2]
  lhsBatch := [0]
  rhsBatch := [0]
  wf := dot_S6x256x384_S6x384x384_S6x256x384_2_1_1_2_0_0_wf
def gather_S6x1024_S1024x2_S1024_n_01_n_n_01_1_11 : GatherDims S6x1024 S1024x2 S1024 where
  offsetDims := []
  collapsedSliceDims := [0, 1]
  operandBatchingDims := []
  startIndicesBatchingDims := []
  startIndexMap := [0, 1]
  indexVectorDim := 1
  sliceSizes := ![1, 1]
  wf := gather_S6x1024_S1024x2_S1024_n_01_n_n_01_1_11_wf

abbrev win0_0 : Pipeline.Window sig grid0 :=
  Pipeline.Window.ofSpec (Memref.whole main_v0) S256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S6x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S6x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S6x384x384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S6x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S1024x2096 : Shape := ⟨2, ![1024, 2096]⟩
abbrev S6x2096 : Shape := ⟨2, ![6, 2096]⟩
abbrev S6x2096x2096 : Shape := ⟨3, ![6, 2096, 2096]⟩
abbrev S1024 : Shape := ⟨1, ![1024]⟩
abbrev S1x1024x2096 : Shape := ⟨3, ![1, 1024, 2096]⟩
abbrev S6x1x2096 : Shape := ⟨3, ![6, 1, 2096]⟩
abbrev S6x1024x2096 : Shape := ⟨3, ![6, 1024, 2096]⟩
abbrev S_ : Shape := ⟨0, ![]⟩
abbrev S6x1024 : Shape := ⟨2, ![6, 1024]⟩
abbrev S1024x1 : Shape := ⟨2, ![1024, 1]⟩
abbrev S1024x2 : Shape := ⟨2, ![1024, 2]⟩

abbrev nBuf : Space → Nat
  | .hbm => 32
  | .vmem => 0
  | .smem => 0
  | _ => 0

abbrev bufTy : (tb : Table) → Fin (tcTables nBuf tb) → BufTy
  | .hbm, ⟨0, _⟩ => ⟨S1024x2096, .f32⟩
  | .hbm, ⟨1, _⟩ => ⟨S6x2096, .f32⟩
  | .hbm, ⟨2, _⟩ => ⟨S6x2096x2096, .f32⟩
  | .hbm, ⟨3, _⟩ => ⟨S1024, .i32⟩
  | .hbm, ⟨4, _⟩ => ⟨S1x1024x2096, .f32⟩
  | .hbm, ⟨5, _⟩ => ⟨S6x1x2096, .f32⟩
  | .hbm, ⟨6, _⟩ => ⟨S6x1024x2096, .f32⟩
  | .hbm, ⟨7, _⟩ => ⟨S6x1024x2096, .f32⟩
  | .hbm, ⟨8, _⟩ => ⟨S6x1024x2096, .f32⟩
  | .hbm, ⟨9, _⟩ => ⟨S6x1024x2096, .f32⟩
  | .hbm, ⟨10, _⟩ => ⟨S6x1024x2096, .f32⟩
  | .hbm, ⟨11, _⟩ => ⟨S_, .f32⟩
  | .hbm, ⟨12, _⟩ => ⟨S6x1024, .f32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x1, .i32⟩
  | .hbm, ⟨30, _⟩ => ⟨S1024x2, .i32⟩
  | .hbm, ⟨31, _⟩ => ⟨S1024, .f32⟩
  | _, _ => ⟨S1024x2096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S1024x2096_S1x1024x2096_1_2 : S1024x2096.BroadcastsInDim S1x1024x2096 (![1, 2] : Fin 2 → Fin S1x1024x2096.rank)
  bcast_S6x2096_S6x1x2096_0_2 : S6x2096.BroadcastsInDim S6x1x2096 (![0, 2] : Fin 2 → Fin S6x1x2096.rank)
  bcast_S1x1024x2096_S6x1024x2096_0_1_2 : S1x1024x2096.BroadcastsInDim S6x1024x2096 (![0, 1, 2] : Fin 3 → Fin S6x1024x2096.rank)
  bcast_S6x1x2096_S6x1024x2096_0_1_2 : S6x1x2096.BroadcastsInDim S6x1024x2096 (![0, 1, 2] : Fin 3 → Fin S6x1024x2096.rank)
  reducesTo_S6x1024x2096_S6x1024_d2 : S6x1024x2096.ReducesTo [2] S6x1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  dot_S6x1024x2096_S6x2096x2096_S6x1024x2096_2_1_1_2_0_0_wf : DotDims.WF S6x1024x2096 S6x2096x2096 S6x1024x2096 [2] [1] [1] [2] [0] [0]
  gather_S6x1024_S1024x2_S1024_n_01_n_n_01_1_11_wf : GatherDims.WF S6x1024 S1024x2 S1024 [] [0, 1] [] [0, 1] [] 1 ![1, 1]

variable [Facts₀]

def dot_S6x1024x2096_S6x2096x2096_S6x1024x2096_2_1_1_2_0_0 : DotDims S6x1024x2096 S6x2096x2096 S6x1024x2096 where
  lhsContracting := [2]
  rhsContracting := [1]
  lhsNonContracting := [1]
  rhsNonContracting := [2]
  lhsBatch := [0]
  rhsBatch := [0]
  wf := dot_S6x1024x2096_S6x2096x2096_S6x1024x2096_2_1_1_2_0_0_wf
def gather_S6x1024_S1024x2_S1024_n_01_n_n_01_1_11 : GatherDims S6x1024 S1024x2 S1024 where
  offsetDims := []
  collapsedSliceDims := [0, 1]
  operandBatchingDims := []
  startIndicesBatchingDims := []
  startIndexMap := [0, 1]
  indexVectorDim := 1
  sliceSizes := ![1, 1]
  wf := gather_S6x1024_S1024x2_S1024_n_01_n_n_01_1_11_wf

class Facts : Prop extends Facts₀ where

variable [Facts]
-- ==== Proof.Bits.Grid.lean ====
/-
  The grid of the quadratic-form kernel: 4 × 6 × 6 = 144 points, the point at position t = 36·b + 6·n + k working on
  batch tile b, on column tile n of the precision matrices and on row tile k of them. The body has four conditionals on
  (n, k): the row sums q are reset at n = k = 0, the partial products t at k = 0, q is added to at k = 5, and written
  out at n = k = 5. Here: those conditions in closed form over the positions, where the result window is idle, the
  memrefs the body is called with, the kernel's scratch as the region invariant holds it, and each input window's
  block at a point read off the padded arrays as the region finds them.
-/
import proofs.«171433_j4939212390990_1_alg».proof.Proof.Gen.Kernel.Launch
import proofs.«171433_j4939212390990_1_alg».proof.Proof.Gen.Kernel.Skeleton
import proofs.«171433_j4939212390990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, decided over the grid -/

/-- "column tile 0 and row tile 0": the row sums are reset. -/
abbrev cond0_0 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
theorem hcond0_0 : ∀ t : Fin cfg0.N, cond0_0 (grid0.coords t) ↔ t.val % 36 = 0 :=
  (by decide +kernel : ∀ t : Fin grid0.N, cond0_0 (grid0.coords t) ↔ t.val % 36 = 0)

/-- "row tile 0": the partial products are reset. -/
abbrev cond0_1 (i : grid0.Coords) : Prop :=
  Scalar.cmpi .ne (Scalar.extui (Scalar.cmpi .eq (BitVec.ofNat 32 (i 2).val) 0#32)) 0#32 = 1#1
theorem hcond0_1 : ∀ t : Fin cfg0.N, cond0_1 (grid0.coords t) ↔ t.val % 6 = 0 :=
  (by decide +kernel : ∀ t : Fin grid0.N, cond0_1 (grid0.coords t) ↔ t.val % 6 = 0)

/-- "row tile 5": the column tile's products are complete and join the row sums. -/
abbrev cond0_2 (i : grid0.Coords) : Prop :=
  Scalar.cmpi .ne (Scalar.extui (Scalar.cmpi .eq (BitVec.ofNat 32 (i 2).val) 5#32)) 0#32 = 1#1
theorem hcond0_2 : ∀ t : Fin cfg0.N, cond0_2 (grid0.coords t) ↔ t.val % 6 = 5 :=
  (by decide +kernel : ∀ t : Fin grid0.N, cond0_2 (grid0.coords t) ↔ t.val % 6 = 5)

/-- "column tile 5 and row tile 5": the batch tile's row sums are complete and written out. -/
abbrev cond0_3 (i : grid0.Coords) : Prop := k0_cond4 i = 1#1
theorem hcond0_3 : ∀ t : Fin cfg0.N, cond0_3 (grid0.coords t) ↔ t.val % 36 = 35 :=
  (by decide +kernel : ∀ t : Fin grid0.N, cond0_3 (grid0.coords t) ↔ t.val % 36 = 35)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The result window is stored into only where the row sums are written out; elsewhere it is idle -/
theorem idleAt0_5 : ∀ t : Fin cfg0.N, ¬cond0_3 (grid0.coords t) → cfg0.idle 5 (grid0.coords t) = true := by decide +kernel
/-- and not written back; -/
theorem noFlush0_5 : ∀ t : Fin cfg0.N, ¬cond0_3 (grid0.coords t) → (cfg0.win 5).flush t = false := by decide +kernel
/-- there it is live. -/
theorem liveAt0_5 : ∀ t : Fin cfg0.N, cond0_3 (grid0.coords t) → cfg0.idle 5 (grid0.coords t) = false := by decide +kernel

/-! ## The memrefs the body is called with -/

abbrev ms0_0 (t : Fin cfg0.N) : Memref sig .tc .vmem S256x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x384x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x256 .f32 := win0_5.stage (cfg0.slots t 5)
abbrev hs0_5 (t : Fin cfg0.N) : (ms0_5 t).IsWhole := hstage0_5 ((cfg0.slots t 5).cast nbuf0_5)
/-- The partial products t (6 × 256 × 384) and the row sums q (6 × 256): the kernel's two scratch buffers. -/
abbrev scM0_0 : Memref sig .tc .vmem S6x256x384 .f32 := Memref.whole cc0_scratch0
abbrev scM0_1 : Memref sig .tc .vmem S6x256 .f32 := Memref.whole cc0_scratch1
/-- The views through which the contents of the result window's buffer and of the two scratch buffers are stated. -/
abbrev VO0_5 : View sig .tc .vmem S6x256 .f32 := (Memref.whole cc0_stg5_0 : Memref sig .tc .vmem S6x256 .f32).view
abbrev VS0_0 : View sig .tc .vmem S6x256x384 .f32 := scM0_0.view
abbrev VS0_1 : View sig .tc .vmem S6x256 .f32 := scM0_1.view

/-- The region invariant of a kernel that describes nothing of its scratch: both scratch buffers at some contents,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The windows' blocks, at the contents the region is entered with -/

section Blocks
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Blocks

end Cert.Kernel.Hand

end
-- ==== Proof.Bits.RunA.lean ====
/-
  The body at a point with column tile 0 and row tile 0 (the first point of a batch tile): the row sums and the partial products are reset to zero, then the row tile's product is added to the partial products.
-/
import proofs.«171433_j4939212390990_1_alg».proof.Proof.Bits.Grid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) :
    Σ' (LS0 : List (View.Piece (Elt F) S6x256x384 .f32)), { LS1 : List (View.Piece (Elt F) S6x256 .f32) //
      ∀ (xo : Vec F S6x256 .f32) (xs0 : Vec F S6x256x384 .f32) (xs1 : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, ?_, fun xo xs0 xs1 E K => ?run⟩
  case run =>
    haveI : Fact (cond0_0 i) := ⟨hc0⟩
    haveI : Fact (cond0_1 i) := ⟨hc1⟩
    haveI : Fact (¬cond0_2 i) := ⟨hc2⟩
    haveI : Fact (¬cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    isplitl [HS0]
    · iexists _; iexact HS0
    iexists _; iexact HS1

end Cert.Kernel.Hand

end
-- ==== Proof.Bits.RunB.lean ====
/-
  The body at a point with row tile 0 of a later column tile: the partial products are reset to zero, then the row tile's product is added to them; the row sums are left as they were.
-/
import proofs.«171433_j4939212390990_1_alg».proof.Proof.Bits.Grid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) :
    { LS0 : List (View.Piece (Elt F) S6x256x384 .f32) //
      ∀ (xo : Vec F S6x256 .f32) (xs0 : Vec F S6x256x384 .f32) (xs1 : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, fun xo xs0 xs1 E K => ?run⟩
  case run =>
    haveI : Fact (¬cond0_0 i) := ⟨hc0⟩
    haveI : Fact (cond0_1 i) := ⟨hc1⟩
    haveI : Fact (¬cond0_2 i) := ⟨hc2⟩
    haveI : Fact (¬cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    isplitl [HS0]
    · iexists _; iexact HS0
    iexists _; isplitr; · ipureintro; exact harg10.read_unread _
    iexact HS1

end Cert.Kernel.Hand

end
-- ==== Proof.Bits.RunC.lean ====
/-
  The body at a point with row tile 0 < k < 5: the row tile's product is added to the partial products, nothing else is stored.
-/
import proofs.«171433_j4939212390990_1_alg».proof.Proof.Bits.Grid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) :
    { LS0 : List (View.Piece (Elt F) S6x256x384 .f32) //
      ∀ (xo : Vec F S6x256 .f32) (xs1 : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, fun xo xs1 E K => ?run⟩
  case run =>
    haveI : Fact (¬cond0_0 i) := ⟨hc0⟩
    haveI : Fact (¬cond0_1 i) := ⟨hc1⟩
    haveI : Fact (¬cond0_2 i) := ⟨hc2⟩
    haveI : Fact (¬cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    isplitl [HS0]
    · iexists _; iexact HS0
    iexists _; isplitr; · ipureintro; exact harg10.read_unread _
    iexact HS1

end Cert.Kernel.Hand

end
-- ==== Proof.Bits.RunD.lean ====
/-
  The body at a point with row tile 5 of a column tile before the last: the last row tile's product is added to the partial products, which are then multiplied by the column tile's deviations, summed along the columns and added to the row sums.
-/
import proofs.«171433_j4939212390990_1_alg».proof.Proof.Bits.Grid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_D (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) :
    Σ' (LS0 : List (View.Piece (Elt F) S6x256x384 .f32)), { LS1 : List (View.Piece (Elt F) S6x256 .f32) //
      ∀ (xo : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, ?_, fun xo E K => ?run⟩
  case run =>
    haveI : Fact (¬cond0_0 i) := ⟨hc0⟩
    haveI : Fact (¬cond0_1 i) := ⟨hc1⟩
    haveI : Fact (cond0_2 i) := ⟨hc2⟩
    haveI : Fact (¬cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    isplitl [HS0]
    · iexists _; iexact HS0
    iexists _; iexact HS1

end Cert.Kernel.Hand

end
-- ==== Proof.Bits.RunE.lean ====
/-
  The body at the last point of a batch tile (column tile 5, row tile 5): as at the other points with row tile 5, and then the completed row sums are stored into the result window.
-/
import proofs.«171433_j4939212390990_1_alg».proof.Proof.Bits.Grid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_E (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) :
    Σ' (L5 : List (View.Piece (Elt F) S6x256 .f32)) (LS0 : List (View.Piece (Elt F) S6x256x384 .f32)), { LS1 : List (View.Piece (Elt F) S6x256 .f32) //
      ∀ (xo : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, ?_, ?_, fun xo E K => ?run⟩
  case run =>
    haveI : Fact (¬cond0_0 i) := ⟨hc0⟩
    haveI : Fact (¬cond0_1 i) := ⟨hc1⟩
    haveI : Fact (cond0_2 i) := ⟨hc2⟩
    haveI : Fact (cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; iexact HO
    isplitl [HS0]
    · iexists _; iexact HS0
    iexists _; iexact HS1

end Cert.Kernel.Hand

end
-- ==== Proof.Bits.Outs.lean ====
/-
  What the result window's buffer and the two scratch buffers hold after each grid point. Each of the five cases of
  the body leaves, in the buffers it stores into, the pieces its run found, read back; a buffer it does not store into
  keeps what the point before left. The state after position n is defined by recursion on n (the case chosen by n
  modulo 36 and modulo 6), and the region invariant carries the two scratch buffers at that state.
-/
import proofs.«171433_j4939212390990_1_alg».proof.Proof.Bits.RunA
import proofs.«171433_j4939212390990_1_alg».proof.Proof.Bits.RunB
import proofs.«171433_j4939212390990_1_alg».proof.Proof.Bits.RunC
import proofs.«171433_j4939212390990_1_alg».proof.Proof.Bits.RunD
import proofs.«171433_j4939212390990_1_alg».proof.Proof.Bits.RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: its pieces cover the buffer, and are read back -/

theorem scover0_A_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (y : S6x256x384.Idx) :
    ∃ pc ∈ (kernelRun0_A c i arg3 harg3 arg4 harg4 arg5 harg5 arg6 harg6 arg7 harg7 arg8 harg8 arg9 harg9 arg10 harg10 hc0 hc1 hc2 hc3 x0 x1 x2 x3 x4).1, y ∈ pc.1.set :=
  View.cover_of_tiledL (kernelRun0_A c i arg3 harg3 arg4 harg4 arg5 harg5 arg6 harg6 arg7 harg7 arg8 harg8 arg9 harg9 arg10 harg10 hc0 hc1 hc2 hc3 x0 x1 x2 x3 x4).1 S6x256x384.size (by sl_kernel_rfl) y

def sout0_A_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) : Vec F S6x256x384 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 hc2 hc3 x0 x1 x2 x3 x4).1)

theorem scover0_A_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (y : S6x256.Idx) :
    ∃ pc ∈ (kernelRun0_A c i arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 hc2 hc3 x0 x1 x2 x3 x4).2.1 S6x256.size (by sl_kernel_rfl) y

def sout0_A_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) : Vec F S6x256 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 hc2 hc3 x0 x1 x2 x3 x4).2.1)

theorem scover0_B_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (y : S6x256x384.Idx) :
    ∃ pc ∈ (kernelRun0_B c i arg3 harg3 arg4 harg4 arg5 harg5 arg6 harg6 arg7 harg7 arg8 harg8 arg9 harg9 arg10 harg10 hc0 hc1 hc2 hc3 x0 x1 x2 x3 x4).1, y ∈ pc.1.set :=
  View.cover_of_tiledL (kernelRun0_B c i arg3 harg3 arg4 harg4 arg5 harg5 arg6 harg6 arg7 harg7 arg8 harg8 arg9 harg9 arg10 harg10 hc0 hc1 hc2 hc3 x0 x1 x2 x3 x4).1 S6x256x384.size (by sl_kernel_rfl) y

def sout0_B_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) : Vec F S6x256x384 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 hc2 hc3 x0 x1 x2 x3 x4).1)

theorem scover0_C_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (y : S6x256x384.Idx) :
    ∃ pc ∈ (kernelRun0_C c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (kernelRun0_C c i arg3 harg3 arg4 harg4 arg5 harg5 arg6 harg6 arg7 harg7 arg8 harg8 arg9 harg9 arg10 harg10 hc0 hc1 hc2 hc3 x0 x1 x2 x3 x4 xs0).1 S6x256x384.size (by sl_kernel_rfl) y

def sout0_C_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) : Vec F S6x256x384 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 hc2 hc3 x0 x1 x2 x3 x4 xs0).1)

theorem scover0_D_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256x384.Idx) :
    ∃ pc ∈ (kernelRun0_D c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (kernelRun0_D c i arg3 harg3 arg4 harg4 arg5 harg5 arg6 harg6 arg7 harg7 arg8 harg8 arg9 harg9 arg10 harg10 hc0 hc1 hc2 hc3 x0 x1 x2 x3 x4 xs0 xs1).1 S6x256x384.size (by sl_kernel_rfl) y

def sout0_D_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256x384 .f32 :=
  VS0_0.read (Elt F) (VS0_0.writes (Elt F) VS0_0.junk (kernelRun0_D c i arg3 harg3 arg4 harg4 arg5 harg5 arg6 harg6 arg7 harg7 arg8 harg8 arg9 harg9 arg10 harg10 hc0 hc1 hc2 hc3 x0 x1 x2 x3 x4 xs0 xs1).1)

theorem scover0_D_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256.Idx) :
    ∃ pc ∈ (kernelRun0_D c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (kernelRun0_D c i arg3 harg3 arg4 harg4 arg5 harg5 arg6 harg6 arg7 harg7 arg8 harg8 arg9 harg9 arg10 harg10 hc0 hc1 hc2 hc3 x0 x1 x2 x3 x4 xs0 xs1).2.1 S6x256.size (by sl_kernel_rfl) y

def sout0_D_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256 .f32 :=
  VS0_1.read (Elt F) (VS0_1.writes (Elt F) VS0_1.junk (kernelRun0_D c i arg3 harg3 arg4 harg4 arg5 harg5 arg6 harg6 arg7 harg7 arg8 harg8 arg9 harg9 arg10 harg10 hc0 hc1 hc2 hc3 x0 x1 x2 x3 x4 xs0 xs1).2.1)

theorem cover0_E_5 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256.Idx) :
    ∃ pc ∈ (kernelRun0_E c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (kernelRun0_E c i arg3 harg3 arg4 harg4 arg5 harg5 arg6 harg6 arg7 harg7 arg8 harg8 arg9 harg9 arg10 harg10 hc0 hc1 hc2 hc3 x0 x1 x2 x3 x4 xs0 xs1).1 S6x256.size (by sl_kernel_rfl) y

def out0_E_5 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256 .f32 :=
  VO0_5.read (Elt F) (VO0_5.writes (Elt F) VO0_5.junk (kernelRun0_E c i arg3 harg3 arg4 harg4 arg5 harg5 arg6 harg6 arg7 harg7 arg8 harg8 arg9 harg9 arg10 harg10 hc0 hc1 hc2 hc3 x0 x1 x2 x3 x4 xs0 xs1).1)

theorem scover0_E_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256x384.Idx) :
    ∃ pc ∈ (kernelRun0_E c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (kernelRun0_E c i arg3 harg3 arg4 harg4 arg5 harg5 arg6 harg6 arg7 harg7 arg8 harg8 arg9 harg9 arg10 harg10 hc0 hc1 hc2 hc3 x0 x1 x2 x3 x4 xs0 xs1).2.1 S6x256x384.size (by sl_kernel_rfl) y

def sout0_E_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256x384 .f32 :=
  VS0_0.read (Elt F) (VS0_0.writes (Elt F) VS0_0.junk (kernelRun0_E c i arg3 harg3 arg4 harg4 arg5 harg5 arg6 harg6 arg7 harg7 arg8 harg8 arg9 harg9 arg10 harg10 hc0 hc1 hc2 hc3 x0 x1 x2 x3 x4 xs0 xs1).2.1)

theorem scover0_E_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256.Idx) :
    ∃ pc ∈ (kernelRun0_E c i arg3 harg3 arg4 harg4 arg5 harg5 arg6 harg6 arg7 harg7 arg8 harg8 arg9 harg9 arg10 harg10 hc0 hc1 hc2 hc3 x0 x1 x2 x3 x4 xs0 xs1).2.2.1, y ∈ pc.1.set :=
  View.cover_of_tiledL (kernelRun0_E c i arg3 harg3 arg4 harg4 arg5 harg5 arg6 harg6 arg7 harg7 arg8 harg8 arg9 harg9 arg10 harg10 hc0 hc1 hc2 hc3 x0 x1 x2 x3 x4 xs0 xs1).2.2.1 S6x256.size (by sl_kernel_rfl) y

def sout0_E_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256 .f32 :=
  VS0_1.read (Elt F) (VS0_1.writes (Elt F) VS0_1.junk (kernelRun0_E c i arg3 harg3 arg4 harg4 arg5 harg5 arg6 harg6 arg7 harg7 arg8 harg8 arg9 harg9 arg10 harg10 hc0 hc1 hc2 hc3 x0 x1 x2 x3 x4 xs0 xs1).2.2.1)

/-! ## The cases' conditions from the position -/

theorem condsA (t : Fin cfg0.N) (h : t.val % 36 = 0) :
    cond0_0 (grid0.coords t) ∧ cond0_1 (grid0.coords t) ∧ ¬cond0_2 (grid0.coords t) ∧ ¬cond0_3 (grid0.coords t) :=
  ⟨(hcond0_0 t).mpr h, (hcond0_1 t).mpr (by omega), fun h' => by have := (hcond0_2 t).mp h'; omega, fun h' => by have := (hcond0_3 t).mp h'; omega⟩
theorem condsB (t : Fin cfg0.N) (h0 : ¬t.val % 36 = 0) (h1 : t.val % 6 = 0) :
    ¬cond0_0 (grid0.coords t) ∧ cond0_1 (grid0.coords t) ∧ ¬cond0_2 (grid0.coords t) ∧ ¬cond0_3 (grid0.coords t) :=
  ⟨fun h' => h0 ((hcond0_0 t).mp h'), (hcond0_1 t).mpr h1, fun h' => by have := (hcond0_2 t).mp h'; omega, fun h' => by have := (hcond0_3 t).mp h'; omega⟩
theorem condsC (t : Fin cfg0.N) (h1 : ¬t.val % 6 = 0) (h2 : ¬t.val % 6 = 5) :
    ¬cond0_0 (grid0.coords t) ∧ ¬cond0_1 (grid0.coords t) ∧ ¬cond0_2 (grid0.coords t) ∧ ¬cond0_3 (grid0.coords t) :=
  ⟨fun h' => by have := (hcond0_0 t).mp h'; omega, fun h' => h1 ((hcond0_1 t).mp h'), fun h' => h2 ((hcond0_2 t).mp h'), fun h' => by have := (hcond0_3 t).mp h'; omega⟩
theorem condsD (t : Fin cfg0.N) (h2 : t.val % 6 = 5) (h3 : ¬t.val % 36 = 35) :
    ¬cond0_0 (grid0.coords t) ∧ ¬cond0_1 (grid0.coords t) ∧ cond0_2 (grid0.coords t) ∧ ¬cond0_3 (grid0.coords t) :=
  ⟨fun h' => by have := (hcond0_0 t).mp h'; omega, fun h' => by have := (hcond0_1 t).mp h'; omega, (hcond0_2 t).mpr h2, fun h' => h3 ((hcond0_3 t).mp h')⟩
theorem condsE (t : Fin cfg0.N) (h3 : t.val % 36 = 35) :
    ¬cond0_0 (grid0.coords t) ∧ ¬cond0_1 (grid0.coords t) ∧ cond0_2 (grid0.coords t) ∧ cond0_3 (grid0.coords t) :=
  ⟨fun h' => by have := (hcond0_0 t).mp h'; omega, fun h' => by have := (hcond0_1 t).mp h'; omega, (hcond0_2 t).mpr (by omega), (hcond0_3 t).mpr h3⟩

/-! ## The state after each point -/

section State
variable (V : (c : Dev nD) → (b : Ref sig .tc) → Buf (Elt F) ((c : Thread nD τ).loc b))

/-- The result window's buffer, the partial products, the row sums. -/
abbrev St (F : FTy → Type) [FloatOps F] : Type := Vec F S6x256 .f32 × Vec F S6x256x384 .f32 × Vec F S6x256 .f32

/-- After a first point of a batch tile: both scratch buffers reset, the first row tile's product in the partial
    products. (The result window's buffer is not stored into: its component is not consulted.) -/
def stA (c : Dev nD) (t : Fin cfg0.N) (h : t.val % 36 = 0) : St F :=
  (VO0_5.read (Elt F) VO0_5.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsA t h).1 (condsA t h).2.1 (condsA t h).2.2.1 (condsA t h).2.2.2 (iblk V c 0 t) (iblk V c 1 t) (iblk V c 2 t) (iblk V c 3 t) (iblk V c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsA t h).1 (condsA t h).2.1 (condsA t h).2.2.1 (condsA t h).2.2.2 (iblk V c 0 t) (iblk V c 1 t) (iblk V c 2 t) (iblk V c 3 t) (iblk V c 4 t))
/-- After a first row tile of a later column tile: the partial products reset and started again, the row sums kept. -/
def stB (c : Dev nD) (t : Fin cfg0.N) (h0 : ¬t.val % 36 = 0) (h1 : t.val % 6 = 0) (prev : St F) : St F :=
  (VO0_5.read (Elt F) VO0_5.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsB t h0 h1).1 (condsB t h0 h1).2.1 (condsB t h0 h1).2.2.1 (condsB t h0 h1).2.2.2 (iblk V c 0 t) (iblk V c 1 t) (iblk V c 2 t) (iblk V c 3 t) (iblk V c 4 t),
   prev.2.2)
/-- After a middle row tile: its product added to the partial products. -/
def stC (c : Dev nD) (t : Fin cfg0.N) (h1 : ¬t.val % 6 = 0) (h2 : ¬t.val % 6 = 5) (prev : St F) : St F :=
  (VO0_5.read (Elt F) VO0_5.junk,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsC t h1 h2).1 (condsC t h1 h2).2.1 (condsC t h1 h2).2.2.1 (condsC t h1 h2).2.2.2 (iblk V c 0 t) (iblk V c 1 t) (iblk V c 2 t) (iblk V c 3 t) (iblk V c 4 t) prev.2.1,
   prev.2.2)
/-- After the last row tile of a column tile before the last: the column tile's contribution added to the row sums. -/
def stD (c : Dev nD) (t : Fin cfg0.N) (h2 : t.val % 6 = 5) (h3 : ¬t.val % 36 = 35) (prev : St F) : St F :=
  (VO0_5.read (Elt F) VO0_5.junk,
   sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsD t h2 h3).1 (condsD t h2 h3).2.1 (condsD t h2 h3).2.2.1 (condsD t h2 h3).2.2.2 (iblk V c 0 t) (iblk V c 1 t) (iblk V c 2 t) (iblk V c 3 t) (iblk V c 4 t) prev.2.1 prev.2.2,
   sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsD t h2 h3).1 (condsD t h2 h3).2.1 (condsD t h2 h3).2.2.1 (condsD t h2 h3).2.2.2 (iblk V c 0 t) (iblk V c 1 t) (iblk V c 2 t) (iblk V c 3 t) (iblk V c 4 t) prev.2.1 prev.2.2)
/-- After the last point of a batch tile: as before, and the row sums stored into the result window's buffer. -/
def stE (c : Dev nD) (t : Fin cfg0.N) (h3 : t.val % 36 = 35) (prev : St F) : St F :=
  (out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsE t h3).1 (condsE t h3).2.1 (condsE t h3).2.2.1 (condsE t h3).2.2.2 (iblk V c 0 t) (iblk V c 1 t) (iblk V c 2 t) (iblk V c 3 t) (iblk V c 4 t) prev.2.1 prev.2.2,
   sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsE t h3).1 (condsE t h3).2.1 (condsE t h3).2.2.1 (condsE t h3).2.2.2 (iblk V c 0 t) (iblk V c 1 t) (iblk V c 2 t) (iblk V c 3 t) (iblk V c 4 t) prev.2.1 prev.2.2,
   sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsE t h3).1 (condsE t h3).2.1 (condsE t h3).2.2.1 (condsE t h3).2.2.2 (iblk V c 0 t) (iblk V c 1 t) (iblk V c 2 t) (iblk V c 3 t) (iblk V c 4 t) prev.2.1 prev.2.2)

/-- The state after the body at position `n`. -/
def outsAt0 (c : Dev nD) : (n : ℕ) → n < cfg0.N → St F
  | 0, hn => stA V c ⟨0, hn⟩ (Nat.zero_mod _)
  | n + 1, hn =>
    if h0 : (n + 1) % 36 = 0 then stA V c ⟨n + 1, hn⟩ h0
    else if h1 : (n + 1) % 6 = 0 then stB V c ⟨n + 1, hn⟩ h0 h1 (outsAt0 c n (Nat.lt_of_succ_lt hn))
    else if h2 : (n + 1) % 6 = 5 then
      if h3 : (n + 1) % 36 = 35 then stE V c ⟨n + 1, hn⟩ h3 (outsAt0 c n (Nat.lt_of_succ_lt hn))
      else stD V c ⟨n + 1, hn⟩ h2 h3 (outsAt0 c n (Nat.lt_of_succ_lt hn))
    else stC V c ⟨n + 1, hn⟩ h1 h2 (outsAt0 c n (Nat.lt_of_succ_lt hn))

theorem outsAt0_A (c : Dev nD) (t : Fin cfg0.N) (h : t.val % 36 = 0) : outsAt0 V c t.val t.isLt = stA V c t h := by
  obtain ⟨n, hn⟩ := t
  cases n with
  | zero => rfl
  | succ n => exact dif_pos h
theorem outsAt0_B (c : Dev nD) (t : Fin cfg0.N) (h0 : ¬t.val % 36 = 0) (h1 : t.val % 6 = 0) :
    outsAt0 V c t.val t.isLt = stB V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)
theorem outsAt0_C (c : Dev nD) (t : Fin cfg0.N) (h1 : ¬t.val % 6 = 0) (h2 : ¬t.val % 6 = 5) :
    outsAt0 V c t.val t.isLt = stC V c t h1 h2 (outsAt0 V c (t.val - 1) (Nat.lt_of_le_of_lt (Nat.sub_le _ _) t.isLt)) := by
  obtain ⟨n, hn⟩ := t
  cases n with
  | zero => exact absurd (Nat.zero_mod _) h1
  | succ n =>
    have h0 : ¬(n + 1) % 36 = 0 := fun h => h1 (by dsimp only at h ⊢; omega)
    exact (dif_neg h0).trans ((dif_neg h1).trans (dif_neg h2))
theorem outsAt0_D (c : Dev nD) (t : Fin cfg0.N) (h2 : t.val % 6 = 5) (h3 : ¬t.val % 36 = 35) :
    outsAt0 V c t.val t.isLt = stD V c t h2 h3 (outsAt0 V c (t.val - 1) (Nat.lt_of_le_of_lt (Nat.sub_le _ _) t.isLt)) := by
  obtain ⟨n, hn⟩ := t
  cases n with
  | zero => exfalso; dsimp only at h2; omega
  | succ n =>
    have h0 : ¬(n + 1) % 36 = 0 := fun h => by dsimp only at h h2; omega
    have h1 : ¬(n + 1) % 6 = 0 := fun h => by dsimp only at h h2; omega
    exact (dif_neg h0).trans ((dif_neg h1).trans ((dif_pos h2).trans (dif_neg h3)))
theorem outsAt0_E (c : Dev nD) (t : Fin cfg0.N) (h3 : t.val % 36 = 35) :
    outsAt0 V c t.val t.isLt = stE V c t h3 (outsAt0 V c (t.val - 1) (Nat.lt_of_le_of_lt (Nat.sub_le _ _) t.isLt)) := by
  obtain ⟨n, hn⟩ := t
  cases n with
  | zero => exfalso; dsimp only at h3; omega
  | succ n =>
    have h0 : ¬(n + 1) % 36 = 0 := fun h => by dsimp only at h h3; omega
    have h1 : ¬(n + 1) % 6 = 0 := fun h => by dsimp only at h h3; omega
    have h2 : (n + 1) % 6 = 5 := by dsimp only at h3; omega
    exact (dif_neg h0).trans ((dif_neg h1).trans ((dif_pos h2).trans (dif_pos h3)))

/-! ## The region invariant: the scratch at the state the point before left -/

/-- Before the first point both scratch buffers hold anything; afterwards what the point before left in them. The
    generator register rides along. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (outsAt0 V c n hn).2.1 ∗ owns (c : Thread nD τ) scM0_1 fullShare (outsAt0 V c n hn).2.2) ∗ (∃ r, prngReg c r)) := rfl
theorem PhiS_pos (c : Dev nD) (n : ℕ) (h : n ≤ cfg0.N) (hz : n ≠ 0) :
    PhiS V c n h = iprop(iprop(owns (c : Thread nD τ) scM0_0 fullShare (outsAt0 V c (n - 1) (by omega)).2.1 ∗ owns (c : Thread nD τ) scM0_1 fullShare (outsAt0 V c (n - 1) (by omega)).2.2) ∗ (∃ r, prngReg c r)) := by
  cases n with
  | zero => exact absurd rfl hz
  | succ n => rfl

end State

end Cert.Kernel.Hand

end
-- ==== Proof.Bits.Body.lean ====
/-
  The proof data of the pipeline and its body obligation. After the body at a point each input window's buffer still
  holds its block, the result window's buffer and the scratch hold the state of that point; the invariant between
  points is the scratch at that state. Two pairs of windows read one array each (the padded samples and the padded
  class means are each handed to the kernel twice, once by row tile and once by column tile): each window of a pair
  holds half of its array's share.
-/
import proofs.«171433_j4939212390990_1_alg».proof.Proof.Bits.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats V c).A w = V c (Pipeline.arrRef spec0 w) := by
  dsimp only [dats]

theorem PhiS_castSucc (c : Dev nD) (t : Fin cfg0.N) :
    (dats V c).Φ t.castSucc = PhiS V c t.val (Nat.le_of_lt t.isLt) := by
  dsimp only [dats]; simp only [Fin.coe_castSucc]

theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = iblk V c 4 t := by dsimp only [dats]
theorem after0_5 (c : Dev nD) (t : Fin cfg0.N) : (dats V c).after 5 t = (outsAt0 V c t.val t.isLt).1 := by dsimp only [dats]

theorem before0_0 (c : Dev nD) (t : Fin cfg0.N) (d) : (dats V c).before 0 t d = iblk V c 0 t :=
  before0_0_of V (dats V c) (A_eq V c 0) (after0_0 V c) t d
theorem before0_1 (c : Dev nD) (t : Fin cfg0.N) (d) : (dats V c).before 1 t d = iblk V c 1 t :=
  before0_1_of V (dats V c) (A_eq V c 1) (after0_1 V c) t d
theorem before0_2 (c : Dev nD) (t : Fin cfg0.N) (d) : (dats V c).before 2 t d = iblk V c 2 t :=
  before0_2_of V (dats V c) (A_eq V c 2) (after0_2 V c) t d
theorem before0_3 (c : Dev nD) (t : Fin cfg0.N) (d) : (dats V c).before 3 t d = iblk V c 3 t :=
  before0_3_of V (dats V c) (A_eq V c 3) (after0_3 V c) t d
theorem before0_4 (c : Dev nD) (t : Fin cfg0.N) (d) : (dats V c).before 4 t d = iblk V c 4 t :=
  before0_4_of V (dats V c) (A_eq V c 4) (after0_4 V c) t d

/-! ## The body obligation, at a generic point -/

def bodyPre (c : Dev nD) (t : Fin cfg0.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d)))

def bodyPost (c : Dev nD) (t : Fin cfg0.N) : sProp 𝕄 :=
  iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t
    ∗ (dats V c).leavesExact 5 t)

set_option maxHeartbeats 8000000 in
/-- The body at any point: the inputs' buffers hold their blocks; the position says which case the point is in; the
    invariant hands the body the scratch at what the point before left (anything at the first point) and takes it back
    at this point's state; the result window's buffer is handed back untouched except at a batch tile's last point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dats V c).owesAt () t.succ = (dats V c).owesAt () t.castSucc from rfl]
  rw [show (dats V c).Φ t.succ = PhiS V c (t.val + 1) t.isLt from rfl, PhiS_succ]
  rw [show (dats V c).leavesExact 0 t = owns (c : Thread nD τ) (ms0_0 t) fullShare ((dats V c).after 0 t) from by
    unfold Dat.leavesExact; rw [liveAt0_0 t], after0_0]
  rw [show (dats V c).leavesExact 1 t = owns (c : Thread nD τ) (ms0_1 t) fullShare ((dats V c).after 1 t) from by
    unfold Dat.leavesExact; rw [liveAt0_1 t], after0_1]
  rw [show (dats V c).leavesExact 2 t = owns (c : Thread nD τ) (ms0_2 t) fullShare ((dats V c).after 2 t) from by
    unfold Dat.leavesExact; rw [liveAt0_2 t], after0_2]
  rw [show (dats V c).leavesExact 3 t = owns (c : Thread nD τ) (ms0_3 t) fullShare ((dats V c).after 3 t) from by
    unfold Dat.leavesExact; rw [liveAt0_3 t], after0_3]
  rw [show (dats V c).leavesExact 4 t = owns (c : Thread nD τ) (ms0_4 t) fullShare ((dats V c).after 4 t) from by
    unfold Dat.leavesExact; rw [liveAt0_4 t], after0_4]
  have hN : t.val < 144 := lt_of_lt_of_eq t.isLt (show cfg0.N = 144 from N_0)
  by_cases h0 : t.val % 36 = 0
  · have hcs := condsA t h0
    rw [Dat.leavesExact_idle (dats V c) 5 t (idleAt0_5 t hcs.2.2.2) (noFlush0_5 t hcs.2.2.2)]
    rw [outsAt0_A V c t h0]
    unfold stA sout0_A_0 sout0_A_1; (try dsimp only)
    by_cases hz : t.val = 0
    · rw [PhiS_castSucc V c t, PhiS_zero V c _ _ hz, PhiA0_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t)).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t)).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  by_cases h1 : t.val % 6 = 0
  · have hcs := condsB t h0 h1
    rw [Dat.leavesExact_idle (dats V c) 5 t (idleAt0_5 t hcs.2.2.2) (noFlush0_5 t hcs.2.2.2)]
    rw [outsAt0_B V c t h0 h1]
    unfold stB sout0_B_0; (try dsimp only)
    by_cases hz : t.val = 0
    · exfalso; omega
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          · iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  by_cases h2 : t.val % 6 = 5
  · by_cases h3 : t.val % 36 = 35
    · have hcs := condsE t h3
      rw [show (dats V c).leavesExact 5 t = owns (c : Thread nD τ) (ms0_5 t) fullShare ((dats V c).after 5 t) from by
        unfold Dat.leavesExact; rw [liveAt0_5 t hcs.2.2.2], after0_5]
      rw [outsAt0_E V c t h3]
      unfold stE out0_E_5 sout0_E_0 sout0_E_1; (try dsimp only)
      by_cases hz : t.val = 0
      · exfalso; omega
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_E c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_E_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_E_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_E_5 c _ _ _ _ _ _ _ _ _ _ _ _ _ _ _ _ _ _ _ _ _ _ _ _ _ _ _ _)
    · have hcs := condsD t h2 h3
      rw [Dat.leavesExact_idle (dats V c) 5 t (idleAt0_5 t hcs.2.2.2) (noFlush0_5 t hcs.2.2.2)]
      rw [outsAt0_D V c t h2 h3]
      unfold stD sout0_D_0 sout0_D_1; (try dsimp only)
      by_cases hz : t.val = 0
      · exfalso; omega
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_D c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_D_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hcs := condsC t h1 h2
    rw [Dat.leavesExact_idle (dats V c) 5 t (idleAt0_5 t hcs.2.2.2) (noFlush0_5 t hcs.2.2.2)]
    rw [outsAt0_C V c t h1 h2]
    unfold stC sout0_C_0; (try dsimp only)
    by_cases hz : t.val = 0
    · exfalso; omega
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _)
          · iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dats V c).Φ 0 := by
  rw [show (dats V c).Φ 0 = PhiS V c 0 (Nat.zero_le _) from rfl, PhiS_zero V c 0 _ rfl]
  try exact Idealize.SL.BI.Entails.refl _

/-- After any point but the first the invariant gives the scratch back, its contents forgotten. -/
theorem Phi_out (c : Dev nD) (t : Fin (cfg0.N + 1)) (ht : t.val ≠ 0) : (dats V c).Φ t ⊢ Pipeline.ΦA spec0 c := by
  rw [show (dats V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats V c).Φ (Fin.last cfg0.N) ⊢ Pipeline.ΦA spec0 c :=
  Phi_out V c _ (by rw [Fin.val_last]; have : cfg0.N = 144 := N_0; omega)

end Body

end Cert.Kernel.Hand

end
-- ==== Proof.Bits.Shares.lean ====
/-
  The pipeline's arrays when two pairs of windows read one array each. The launch hands the region four distinct
  buffers whole (the padded samples, the padded class means, the padded precision matrices, the result); the proof
  data holds six windows' arrays: the padded samples twice and the padded class means twice, each time at half the
  share, the other two at the full share. At the region's entry a shared buffer is split in two halves along its
  share; at the exit the halves, still at the entry contents (an input array is never written), are joined again,
  and the result's buffer is the one that changed.
-/
import proofs.«171433_j4939212390990_1_alg».proof.Proof.Bits.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares
variable (V : (c : Dev nD) → (b : Ref sig .tc) → Buf (Elt F) ((c : Thread nD τ).loc b))

/-- The six windows' arrays, one by one, each at its share. -/
theorem arrays_chain (c : Dev nD) (G : (w : Fin cfg0.W) → Buf (Elt F) ((cfg0.win w).arr.view.loc (c.tc : Thread nD τ))) :
    ((dats V c).arrays G : sProp 𝕄)
      = iprop(((cfg0.win 0).arr.view.loc (c.tc : Thread nD τ) ↦{fullShare.left} G 0)
          ∗ ((cfg0.win 1).arr.view.loc (c.tc : Thread nD τ) ↦{fullShare.right} G 1)
          ∗ ((cfg0.win 2).arr.view.loc (c.tc : Thread nD τ) ↦{fullShare.left} G 2)
          ∗ ((cfg0.win 3).arr.view.loc (c.tc : Thread nD τ) ↦{fullShare.right} G 3)
          ∗ ((cfg0.win 4).arr.view.loc (c.tc : Thread nD τ) ↦{fullShare} G 4)
          ∗ ((cfg0.win 5).arr.view.loc (c.tc : Thread nD τ) ↦{fullShare} G 5)) := by
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h4 : (cfg0.win 4).arr.view.set = Finset.univ := (arr_whole0 4).set_eq_univ
  have h5 : (cfg0.win 5).arr.view.set = Finset.univ := (arr_whole0 5).set_eq_univ
  rw [h0, h2, h4, h5]
  rfl

/-- The four buffers behind them, one by one, whole. -/
theorem arrBufs_chain (c : Dev nD) (V' : (b : Ref sig .tc) → Buf (Elt F) ((c : Thread nD τ).loc b)) :
    (Pipeline.arrBufs spec0 c V' : sProp 𝕄)
      = iprop((((c : Thread nD τ).loc main_v0) ↦{fullShare} V' main_v0) ∗ (((c : Thread nD τ).loc main_v1) ↦{fullShare} V' main_v1)
          ∗ (((c : Thread nD τ).loc main_v2) ↦{fullShare} V' main_v2) ∗ (((c : Thread nD τ).loc main_v3) ↦{fullShare} V' main_v3)) := by
  unfold Pipeline.arrBufs
  rw [bigSep_eq_bigSepL_of_eq [main_v0, main_v1, main_v2, main_v3] (by decide) (by decide)]
  rfl

/-- ENTRY: the core's unscoped buffers at the entry contents are the six windows' arrays at the proof data's entry
    contents and the buffers that bypass the region. -/
theorem entry_split (c : Dev nD) :
    (unscopedBufs c (V c) : sProp 𝕄) ⊢ iprop((dats V c).arrays ((dats V c).arrAt · 0) ∗ Pipeline.unscopedRest spec0 c (V c)) := by
  rw [Pipeline.unscopedBufs_split₀ cfgs (0 : Fin 1) winFacts₀0.arr_unscoped c (V c)]
  refine sep_mono ?_ .rfl
  rw [arrBufs_chain c (V c), arrays_chain V c]
  iintro ⟨H0, H1, H2, H3⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  isplitl [H2]; · iexact H2
  iexact H3

/-- EXIT: the six windows' arrays at their final contents and the bypassing buffers are the core's unscoped buffers
    at any valuation that has the result's buffer at what the write-backs left and agrees with the entry contents
    everywhere else. -/
theorem exit_join (c : Dev nD) (V' : (b : Ref sig .tc) → Buf (Elt F) ((c : Thread nD τ).loc b))
    (h3 : V' main_v3 = (dats V c).arrAt 5 cfg0.N) (hrest : ∀ b, b ≠ main_v3 → V' b = V c b) :
    iprop((dats V c).arrays ((dats V c).arrAt · cfg0.N) ∗ Pipeline.unscopedRest spec0 c (V c)) ⊢ (unscopedBufs c V' : sProp 𝕄) := by
  rw [Pipeline.unscopedBufs_split₀ cfgs (0 : Fin 1) winFacts₀0.arr_unscoped c V']
  refine sep_mono ?_ (Entails.of_eq ?_)
  · rw [arrBufs_chain c V', arrays_chain V c]
    rw [(dats V c).arrAt_in 0 rfl cfg0.N, (dats V c).arrAt_in 1 rfl cfg0.N, (dats V c).arrAt_in 2 rfl cfg0.N,
      (dats V c).arrAt_in 3 rfl cfg0.N, (dats V c).arrAt_in 4 rfl cfg0.N]
    rw [hrest main_v0 (by decide), hrest main_v1 (by decide), hrest main_v2 (by decide), h3]
    iintro ⟨H0a, H0b, H1a, H1b, H2, H3⟩
    isplitl [H0a H0b]
    · iapply (pointsTo_share (PosShare.mem_left_op_right fullShare)).2
      isplitl [H0a]; · iexact H0a
      iexact H0b
    isplitl [H1a H1b]
    · iapply (pointsTo_share (PosShare.mem_left_op_right fullShare)).2
      isplitl [H1a]; · iexact H1a
      iexact H1b
    isplitl [H2]; · iexact H2
    iexact H3
  · unfold Pipeline.unscopedRest
    exact bigSep_congr fun b hb => by
      rw [hrest b (fun e => (Finset.mem_sdiff.mp hb).2 (e ▸ Finset.mem_image.mpr ⟨(5 : Fin 6), Finset.mem_univ _, rfl⟩))]

end Shares

end Cert.Kernel.Hand

end
-- ==== Proof.Bits.Launch.lean ====
/-
  The launch. @main is six stretches of host operations (three zero constants, each converted to a float and used to
  pad one argument array along its feature axes), the kernel region, and a last stretch (the gather of each sample's
  own class out of the 6 × 1024 result). Between two items the core holds every unscoped buffer whole at a valuation:
  the launch memory, then each stretch's operations applied, then — after the region — the result's buffer at what the
  pipeline's write-backs left. The region is entered by splitting its arrays out of those buffers and left by joining
  them back. At the end every unscoped buffer is read off the last valuation.
-/
import proofs.«171433_j4939212390990_1_alg».proof.Proof.Bits.Shares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## What the host stretches write -/

theorem hostOps0_fresh : (hostOps0 : List (HloOp τ sig (Elt F))).Forall fun op => op.fresh = ∅ := by
  simp only [List.Forall]; repeat' constructor
abbrev hostOps0_W : List (Ref sig .tc) := [main_c]
theorem hostOps0_writes : (hostOps0 : List (HloOp τ sig (Elt F))).Forall fun op => op.writes ⊆ (hostOps0_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_1_fresh : (hostOps0_1 : List (HloOp τ sig (Elt F))).Forall fun op => op.fresh = ∅ := by
  simp only [List.Forall]; repeat' constructor
abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_2_fresh : (hostOps0_2 : List (HloOp τ sig (Elt F))).Forall fun op => op.fresh = ∅ := by
  simp only [List.Forall]; repeat' constructor
abbrev hostOps0_2_W : List (Ref sig .tc) := [main_c_0]
theorem hostOps0_2_writes : (hostOps0_2 : List (HloOp τ sig (Elt F))).Forall fun op => op.writes ⊆ (hostOps0_2_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_3_fresh : (hostOps0_3 : List (HloOp τ sig (Elt F))).Forall fun op => op.fresh = ∅ := by
  simp only [List.Forall]; repeat' constructor
abbrev hostOps0_3_W : List (Ref sig .tc) := [main_call1_v0, main_v1]
theorem hostOps0_3_writes : (hostOps0_3 : List (HloOp τ sig (Elt F))).Forall fun op => op.writes ⊆ (hostOps0_3_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_4_fresh : (hostOps0_4 : List (HloOp τ sig (Elt F))).Forall fun op => op.fresh = ∅ := by
  simp only [List.Forall]; repeat' constructor
abbrev hostOps0_4_W : List (Ref sig .tc) := [main_c_1]
theorem hostOps0_4_writes : (hostOps0_4 : List (HloOp τ sig (Elt F))).Forall fun op => op.writes ⊆ (hostOps0_4_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_5_fresh : (hostOps0_5 : List (HloOp τ sig (Elt F))).Forall fun op => op.fresh = ∅ := by
  simp only [List.Forall]; repeat' constructor
abbrev hostOps0_5_W : List (Ref sig .tc) := [main_call2_v0, main_v2]
theorem hostOps0_5_writes : (hostOps0_5 : List (HloOp τ sig (Elt F))).Forall fun op => op.writes ⊆ (hostOps0_5_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps1_fresh : (hostOps1 : List (HloOp τ sig (Elt F))).Forall fun op => op.fresh = ∅ := by
  simp only [List.Forall]; repeat' constructor
abbrev hostOps1_W : List (Ref sig .tc) := [main_v4, main_c_2, main_v5, main_v6, main_c_3, main_v7, main_v8, main_v9, main_c_4, main_v10, main_v11, main_c_5, main_v12, main_v13, main_v14, main_v15, main_v16, main_v17, main_v18]
theorem hostOps1_writes : (hostOps1 : List (HloOp τ sig (Elt F))).Forall fun op => op.writes ⊆ (hostOps1_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)

section Launch
variable (m : (ℓ : Loc nD τ sig) → Buf (Elt F) ℓ) (ρ : Dev nD → PrngReg)

/-! ## The buffers' contents between items -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- When the region is entered: the three padded arrays are in place. -/
abbrev W6 : Dev nD → Valuation τ sig (Elt F) := fun c => StableHlo.after hostOps0_5 (W5 m c)
/-- The same read at the TensorCore's references: what the pipeline's proof data take. -/
abbrev Vin : (c : Dev nD) → (b : Ref sig .tc) → Buf (Elt F) ((c : Thread nD τ).loc b) := fun c b => W6 m c b
/-- When the region is left: the result's buffer at what the write-backs left, every other buffer as entered. -/
def W7 (c : Dev nD) : Valuation τ sig (Elt F) := Function.update (W6 m c) main_v3 ((dats (Vin m) c).arrAt 5 cfg0.N)
/-- At the end. -/
abbrev W8 : Dev nD → Valuation τ sig (Elt F) := fun c => StableHlo.after hostOps1 (W7 m c)

theorem W7_v3 (c : Dev nD) : W7 m c main_v3 = (dats (Vin m) c).arrAt 5 cfg0.N := by
  unfold W7; exact Function.update_self ..
theorem W7_of_ne (c : Dev nD) (b : Ref sig .tc) (h : b ≠ main_v3) : W7 m c b = W6 m c b := by
  unfold W7; exact Function.update_of_ne (StableHlo.devRef_ne_of_ne h) _ _

theorem W1_of (c : Dev nD) (r : Ref sig .tc) (h : r ∉ hostOps0_W) : W1 m c r = W0 m c r := StableHlo.after_of_writes_sub hostOps0 _ hostOps0_writes h
theorem W2_of (c : Dev nD) (r : Ref sig .tc) (h : r ∉ hostOps0_1_W) : W2 m c r = W1 m c r := StableHlo.after_of_writes_sub hostOps0_1 _ hostOps0_1_writes h
theorem W3_of (c : Dev nD) (r : Ref sig .tc) (h : r ∉ hostOps0_2_W) : W3 m c r = W2 m c r := StableHlo.after_of_writes_sub hostOps0_2 _ hostOps0_2_writes h
theorem W4_of (c : Dev nD) (r : Ref sig .tc) (h : r ∉ hostOps0_3_W) : W4 m c r = W3 m c r := StableHlo.after_of_writes_sub hostOps0_3 _ hostOps0_3_writes h
theorem W5_of (c : Dev nD) (r : Ref sig .tc) (h : r ∉ hostOps0_4_W) : W5 m c r = W4 m c r := StableHlo.after_of_writes_sub hostOps0_4 _ hostOps0_4_writes h
theorem W6_of (c : Dev nD) (r : Ref sig .tc) (h : r ∉ hostOps0_5_W) : W6 m c r = W5 m c r := StableHlo.after_of_writes_sub hostOps0_5 _ hostOps0_5_writes h
theorem W8_of (c : Dev nD) (r : Ref sig .tc) (h : r ∉ hostOps1_W) : W8 m c r = W7 m c r := StableHlo.after_of_writes_sub hostOps1 _ hostOps1_writes h

/-- No item writes an argument: each reaches the end as launched. -/
theorem W8_arg (c : Dev nD) (r : Ref sig .tc) (h8 : r ∉ hostOps1_W) (h7 : r ≠ main_v3) (h6 : r ∉ hostOps0_5_W) (h5 : r ∉ hostOps0_4_W)
    (h4 : r ∉ hostOps0_3_W) (h3 : r ∉ hostOps0_2_W) (h2 : r ∉ hostOps0_1_W) (h1 : r ∉ hostOps0_W) :
    W8 m c r = m ((c : Thread nD τ).loc r) :=
  (W8_of m c r h8).trans <| (W7_of_ne m c r h7).trans <| (W6_of m c r h6).trans <| (W5_of m c r h5).trans <| (W4_of m c r h4).trans <|
    (W3_of m c r h3).trans <| (W2_of m c r h2).trans <| (W1_of m c r h1).trans rfl
theorem W8_main_arg0 (c : Dev nD) : W8 m c main_arg0 = m ((c : Thread nD τ).loc main_arg0) :=
  W8_arg m c main_arg0 (by decide) (by decide) (by decide) (by decide) (by decide) (by decide) (by decide) (by decide)
theorem W8_main_arg1 (c : Dev nD) : W8 m c main_arg1 = m ((c : Thread nD τ).loc main_arg1) :=
  W8_arg m c main_arg1 (by decide) (by decide) (by decide) (by decide) (by decide) (by decide) (by decide) (by decide)
theorem W8_main_arg2 (c : Dev nD) : W8 m c main_arg2 = m ((c : Thread nD τ).loc main_arg2) :=
  W8_arg m c main_arg2 (by decide) (by decide) (by decide) (by decide) (by decide) (by decide) (by decide) (by decide)
theorem W8_main_arg3 (c : Dev nD) : W8 m c main_arg3 = m ((c : Thread nD τ).loc main_arg3) :=
  W8_arg m c main_arg3 (by decide) (by decide) (by decide) (by decide) (by decide) (by decide) (by decide) (by decide)

/-! ## The proof data family and the thread state -/

abbrev adm : (p : Fin 1) → (pcfgs (F := F) p).Adm := fun p => (cfgs p).toPCfg_adm
/-- The one pipeline's proof data at its region's entry contents (a literal match, so that the pinned configuration
    at the numeral reduces to the printed one). -/
def pdats : (p : Fin 1) → (c : Dev nD) → Dat τ (Elt F) Unit ℕ (UR sig nD τ) ℕ (Pipeline.pin (pcfgs (F := F)) adm p) c
  | ⟨0, _⟩ => fun c => dats (Vin m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m c) ∗ ∃ r, prngReg c r)

/-! ## The region as a segment -/

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (Vin m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := entry_split (Vin m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hin (Vin m) c)
  hout c := by
    rw [Pipeline.ownSems0_none]
    refine (hout (Vin m) c).trans ?_
    unfold Pipeline.ΦA
    iintro ⟨Hr, Hp⟩
    isplitl [Hp]; · iexact Hp
    isplitr; · iempintro
    iexact Hr
  hexit c := by
    have hjoin := exit_join (Vin m) c (fun b => W7 m c b) (W7_v3 m c) (fun b hb => W7_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The last stretch's post is the last thread state beside the core owing nothing. -/
theorem last_post (c : Dev nD) :
    iprop(StableHlo.held (c : Thread nD τ) (Pipeline.ucRefs τ sig) (W8 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .region (reg0 m),
    .host (hseg hostOps1 hostOps1_sub hostOps1_fresh (W7 m)) ]

theorem main_run (c : Dev nD) : main (F := F) c = Pipeline.Seg.run (segs m) := (main_chain c).trans (by chain_rfl)

set_option backward.isDefEq.respectTransparency.types false in
/-- From any memory with zero counters, every weakly fair execution of @main terminates, nothing faulting, and every
    final state has every unscoped buffer at the last valuation. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c)⟩) (run_main m ρ)

end Launch

end Cert.Kernel.Hand

end
-- ==== Proof.Ideal.Grid.lean ====
/-
  The grid of the quadratic-form kernel: 4 × 6 × 6 = 144 points, the point at position t = 36·b + 6·n + k working on
  batch tile b, on column tile n of the precision matrices and on row tile k of them. The body has four conditionals on
  (n, k): the row sums q are reset at n = k = 0, the partial products t at k = 0, q is added to at k = 5, and written
  out at n = k = 5. Here: those conditions in closed form over the positions, where the result window is idle, the
  memrefs the body is called with, the kernel's scratch as the region invariant holds it, and each input window's
  block at a point read off the padded arrays as the region finds them.
-/
import proofs.«171433_j4939212390990_1_alg».proof.Proof.Gen.KernelIdeal.Launch
import proofs.«171433_j4939212390990_1_alg».proof.Proof.Gen.KernelIdeal.Skeleton
import proofs.«171433_j4939212390990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, decided over the grid -/

/-- "column tile 0 and row tile 0": the row sums are reset. -/
abbrev cond0_0 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
theorem hcond0_0 : ∀ t : Fin cfg0.N, cond0_0 (grid0.coords t) ↔ t.val % 36 = 0 :=
  (by decide +kernel : ∀ t : Fin grid0.N, cond0_0 (grid0.coords t) ↔ t.val % 36 = 0)

/-- "row tile 0": the partial products are reset. -/
abbrev cond0_1 (i : grid0.Coords) : Prop :=
  Scalar.cmpi .ne (Scalar.extui (Scalar.cmpi .eq (BitVec.ofNat 32 (i 2).val) 0#32)) 0#32 = 1#1
theorem hcond0_1 : ∀ t : Fin cfg0.N, cond0_1 (grid0.coords t) ↔ t.val % 6 = 0 :=
  (by decide +kernel : ∀ t : Fin grid0.N, cond0_1 (grid0.coords t) ↔ t.val % 6 = 0)

/-- "row tile 5": the column tile's products are complete and join the row sums. -/
abbrev cond0_2 (i : grid0.Coords) : Prop :=
  Scalar.cmpi .ne (Scalar.extui (Scalar.cmpi .eq (BitVec.ofNat 32 (i 2).val) 5#32)) 0#32 = 1#1
theorem hcond0_2 : ∀ t : Fin cfg0.N, cond0_2 (grid0.coords t) ↔ t.val % 6 = 5 :=
  (by decide +kernel : ∀ t : Fin grid0.N, cond0_2 (grid0.coords t) ↔ t.val % 6 = 5)

/-- "column tile 5 and row tile 5": the batch tile's row sums are complete and written out. -/
abbrev cond0_3 (i : grid0.Coords) : Prop := k0_cond4 i = 1#1
theorem hcond0_3 : ∀ t : Fin cfg0.N, cond0_3 (grid0.coords t) ↔ t.val % 36 = 35 :=
  (by decide +kernel : ∀ t : Fin grid0.N, cond0_3 (grid0.coords t) ↔ t.val % 36 = 35)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The result window is stored into only where the row sums are written out; elsewhere it is idle -/
theorem idleAt0_5 : ∀ t : Fin cfg0.N, ¬cond0_3 (grid0.coords t) → cfg0.idle 5 (grid0.coords t) = true := by decide +kernel
/-- and not written back; -/
theorem noFlush0_5 : ∀ t : Fin cfg0.N, ¬cond0_3 (grid0.coords t) → (cfg0.win 5).flush t = false := by decide +kernel
/-- there it is live. -/
theorem liveAt0_5 : ∀ t : Fin cfg0.N, cond0_3 (grid0.coords t) → cfg0.idle 5 (grid0.coords t) = false := by decide +kernel

/-! ## The memrefs the body is called with -/

abbrev ms0_0 (t : Fin cfg0.N) : Memref sig .tc .vmem S256x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x384x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x256 .f32 := win0_5.stage (cfg0.slots t 5)
abbrev hs0_5 (t : Fin cfg0.N) : (ms0_5 t).IsWhole := hstage0_5 ((cfg0.slots t 5).cast nbuf0_5)
/-- The partial products t (6 × 256 × 384) and the row sums q (6 × 256): the kernel's two scratch buffers. -/
abbrev scM0_0 : Memref sig .tc .vmem S6x256x384 .f32 := Memref.whole cc0_scratch0
abbrev scM0_1 : Memref sig .tc .vmem S6x256 .f32 := Memref.whole cc0_scratch1
/-- The views through which the contents of the result window's buffer and of the two scratch buffers are stated. -/
abbrev VO0_5 : View sig .tc .vmem S6x256 .f32 := (Memref.whole cc0_stg5_0 : Memref sig .tc .vmem S6x256 .f32).view
abbrev VS0_0 : View sig .tc .vmem S6x256x384 .f32 := scM0_0.view
abbrev VS0_1 : View sig .tc .vmem S6x256 .f32 := scM0_1.view

/-- The region invariant of a kernel that describes nothing of its scratch: both scratch buffers at some contents,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The windows' blocks, at the contents the region is entered with -/

section Blocks
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Blocks

end Cert.KernelIdeal.Hand

end
-- ==== Proof.Ideal.RunA.lean ====
/-
  The body at a point with column tile 0 and row tile 0 (the first point of a batch tile): the row sums and the partial products are reset to zero, then the row tile's product is added to the partial products.
-/
import proofs.«171433_j4939212390990_1_alg».proof.Proof.Ideal.Grid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) :
    Σ' (LS0 : List (View.Piece (Elt F) S6x256x384 .f32)), { LS1 : List (View.Piece (Elt F) S6x256 .f32) //
      ∀ (xo : Vec F S6x256 .f32) (xs0 : Vec F S6x256x384 .f32) (xs1 : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, ?_, fun xo xs0 xs1 E K => ?run⟩
  case run =>
    haveI : Fact (cond0_0 i) := ⟨hc0⟩
    haveI : Fact (cond0_1 i) := ⟨hc1⟩
    haveI : Fact (¬cond0_2 i) := ⟨hc2⟩
    haveI : Fact (¬cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    isplitl [HS0]
    · iexists _; iexact HS0
    iexists _; iexact HS1

end Cert.KernelIdeal.Hand

end
-- ==== Proof.Ideal.RunB.lean ====
/-
  The body at a point with row tile 0 of a later column tile: the partial products are reset to zero, then the row tile's product is added to them; the row sums are left as they were.
-/
import proofs.«171433_j4939212390990_1_alg».proof.Proof.Ideal.Grid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) :
    { LS0 : List (View.Piece (Elt F) S6x256x384 .f32) //
      ∀ (xo : Vec F S6x256 .f32) (xs0 : Vec F S6x256x384 .f32) (xs1 : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, fun xo xs0 xs1 E K => ?run⟩
  case run =>
    haveI : Fact (¬cond0_0 i) := ⟨hc0⟩
    haveI : Fact (cond0_1 i) := ⟨hc1⟩
    haveI : Fact (¬cond0_2 i) := ⟨hc2⟩
    haveI : Fact (¬cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    isplitl [HS0]
    · iexists _; iexact HS0
    iexists _; isplitr; · ipureintro; exact harg10.read_unread _
    iexact HS1

end Cert.KernelIdeal.Hand

end
-- ==== Proof.Ideal.RunC.lean ====
/-
  The body at a point with row tile 0 < k < 5: the row tile's product is added to the partial products, nothing else is stored.
-/
import proofs.«171433_j4939212390990_1_alg».proof.Proof.Ideal.Grid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) :
    { LS0 : List (View.Piece (Elt F) S6x256x384 .f32) //
      ∀ (xo : Vec F S6x256 .f32) (xs1 : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, fun xo xs1 E K => ?run⟩
  case run =>
    haveI : Fact (¬cond0_0 i) := ⟨hc0⟩
    haveI : Fact (¬cond0_1 i) := ⟨hc1⟩
    haveI : Fact (¬cond0_2 i) := ⟨hc2⟩
    haveI : Fact (¬cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    isplitl [HS0]
    · iexists _; iexact HS0
    iexists _; isplitr; · ipureintro; exact harg10.read_unread _
    iexact HS1

end Cert.KernelIdeal.Hand

end
-- ==== Proof.Ideal.RunD.lean ====
/-
  The body at a point with row tile 5 of a column tile before the last: the last row tile's product is added to the partial products, which are then multiplied by the column tile's deviations, summed along the columns and added to the row sums.
-/
import proofs.«171433_j4939212390990_1_alg».proof.Proof.Ideal.Grid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_D (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) :
    Σ' (LS0 : List (View.Piece (Elt F) S6x256x384 .f32)), { LS1 : List (View.Piece (Elt F) S6x256 .f32) //
      ∀ (xo : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, ?_, fun xo E K => ?run⟩
  case run =>
    haveI : Fact (¬cond0_0 i) := ⟨hc0⟩
    haveI : Fact (¬cond0_1 i) := ⟨hc1⟩
    haveI : Fact (cond0_2 i) := ⟨hc2⟩
    haveI : Fact (¬cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    isplitl [HS0]
    · iexists _; iexact HS0
    iexists _; iexact HS1

end Cert.KernelIdeal.Hand

end
-- ==== Proof.Ideal.RunE.lean ====
/-
  The body at the last point of a batch tile (column tile 5, row tile 5): as at the other points with row tile 5, and then the completed row sums are stored into the result window.
-/
import proofs.«171433_j4939212390990_1_alg».proof.Proof.Ideal.Grid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_E (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) :
    Σ' (L5 : List (View.Piece (Elt F) S6x256 .f32)) (LS0 : List (View.Piece (Elt F) S6x256x384 .f32)), { LS1 : List (View.Piece (Elt F) S6x256 .f32) //
      ∀ (xo : Vec F S6x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gde_kernel i arg3 harg3 arg4 harg4 arg5 harg5 arg6 harg6 arg7 harg7 arg8 harg8 arg9 harg9 arg10 harg10) K } := by
  refine ⟨?_, ?_, ?_, fun xo E K => ?run⟩
  case run =>
    haveI : Fact (¬cond0_0 i) := ⟨hc0⟩
    haveI : Fact (¬cond0_1 i) := ⟨hc1⟩
    haveI : Fact (cond0_2 i) := ⟨hc2⟩
    haveI : Fact (cond0_3 i) := ⟨hc3⟩
    simp only [cc0__gde_kernel_eq_skeleton]; unfold cc0__gde_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfo; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; iexact HO
    isplitl [HS0]
    · iexists _; iexact HS0
    iexists _; iexact HS1

end Cert.KernelIdeal.Hand

end
-- ==== Proof.Ideal.Outs.lean ====
/-
  What the result window's buffer and the two scratch buffers hold after each grid point. Each of the five cases of
  the body leaves, in the buffers it stores into, the pieces its run found, read back; a buffer it does not store into
  keeps what the point before left. The state after position n is defined by recursion on n (the case chosen by n
  modulo 36 and modulo 6), and the region invariant carries the two scratch buffers at that state.
-/
import proofs.«171433_j4939212390990_1_alg».proof.Proof.Ideal.RunA
import proofs.«171433_j4939212390990_1_alg».proof.Proof.Ideal.RunB
import proofs.«171433_j4939212390990_1_alg».proof.Proof.Ideal.RunC
import proofs.«171433_j4939212390990_1_alg».proof.Proof.Ideal.RunD
import proofs.«171433_j4939212390990_1_alg».proof.Proof.Ideal.RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: its pieces cover the buffer, and are read back -/

theorem scover0_A_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (y : S6x256x384.Idx) :
    ∃ pc ∈ (kernelRun0_A c i arg3 harg3 arg4 harg4 arg5 harg5 arg6 harg6 arg7 harg7 arg8 harg8 arg9 harg9 arg10 harg10 hc0 hc1 hc2 hc3 x0 x1 x2 x3 x4).1, y ∈ pc.1.set :=
  View.cover_of_tiledL (kernelRun0_A c i arg3 harg3 arg4 harg4 arg5 harg5 arg6 harg6 arg7 harg7 arg8 harg8 arg9 harg9 arg10 harg10 hc0 hc1 hc2 hc3 x0 x1 x2 x3 x4).1 S6x256x384.size (by sl_kernel_rfl) y

def sout0_A_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) : Vec F S6x256x384 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 hc2 hc3 x0 x1 x2 x3 x4).1)

theorem scover0_A_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (y : S6x256.Idx) :
    ∃ pc ∈ (kernelRun0_A c i arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 hc2 hc3 x0 x1 x2 x3 x4).2.1 S6x256.size (by sl_kernel_rfl) y

def sout0_A_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) : Vec F S6x256 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 hc2 hc3 x0 x1 x2 x3 x4).2.1)

theorem scover0_B_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (y : S6x256x384.Idx) :
    ∃ pc ∈ (kernelRun0_B c i arg3 harg3 arg4 harg4 arg5 harg5 arg6 harg6 arg7 harg7 arg8 harg8 arg9 harg9 arg10 harg10 hc0 hc1 hc2 hc3 x0 x1 x2 x3 x4).1, y ∈ pc.1.set :=
  View.cover_of_tiledL (kernelRun0_B c i arg3 harg3 arg4 harg4 arg5 harg5 arg6 harg6 arg7 harg7 arg8 harg8 arg9 harg9 arg10 harg10 hc0 hc1 hc2 hc3 x0 x1 x2 x3 x4).1 S6x256x384.size (by sl_kernel_rfl) y

def sout0_B_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) : Vec F S6x256x384 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 hc2 hc3 x0 x1 x2 x3 x4).1)

theorem scover0_C_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (y : S6x256x384.Idx) :
    ∃ pc ∈ (kernelRun0_C c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (kernelRun0_C c i arg3 harg3 arg4 harg4 arg5 harg5 arg6 harg6 arg7 harg7 arg8 harg8 arg9 harg9 arg10 harg10 hc0 hc1 hc2 hc3 x0 x1 x2 x3 x4 xs0).1 S6x256x384.size (by sl_kernel_rfl) y

def sout0_C_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) : Vec F S6x256x384 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 hc2 hc3 x0 x1 x2 x3 x4 xs0).1)

theorem scover0_D_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256x384.Idx) :
    ∃ pc ∈ (kernelRun0_D c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (kernelRun0_D c i arg3 harg3 arg4 harg4 arg5 harg5 arg6 harg6 arg7 harg7 arg8 harg8 arg9 harg9 arg10 harg10 hc0 hc1 hc2 hc3 x0 x1 x2 x3 x4 xs0 xs1).1 S6x256x384.size (by sl_kernel_rfl) y

def sout0_D_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256x384 .f32 :=
  VS0_0.read (Elt F) (VS0_0.writes (Elt F) VS0_0.junk (kernelRun0_D c i arg3 harg3 arg4 harg4 arg5 harg5 arg6 harg6 arg7 harg7 arg8 harg8 arg9 harg9 arg10 harg10 hc0 hc1 hc2 hc3 x0 x1 x2 x3 x4 xs0 xs1).1)

theorem scover0_D_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256.Idx) :
    ∃ pc ∈ (kernelRun0_D c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (kernelRun0_D c i arg3 harg3 arg4 harg4 arg5 harg5 arg6 harg6 arg7 harg7 arg8 harg8 arg9 harg9 arg10 harg10 hc0 hc1 hc2 hc3 x0 x1 x2 x3 x4 xs0 xs1).2.1 S6x256.size (by sl_kernel_rfl) y

def sout0_D_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256 .f32 :=
  VS0_1.read (Elt F) (VS0_1.writes (Elt F) VS0_1.junk (kernelRun0_D c i arg3 harg3 arg4 harg4 arg5 harg5 arg6 harg6 arg7 harg7 arg8 harg8 arg9 harg9 arg10 harg10 hc0 hc1 hc2 hc3 x0 x1 x2 x3 x4 xs0 xs1).2.1)

theorem cover0_E_5 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256.Idx) :
    ∃ pc ∈ (kernelRun0_E c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (kernelRun0_E c i arg3 harg3 arg4 harg4 arg5 harg5 arg6 harg6 arg7 harg7 arg8 harg8 arg9 harg9 arg10 harg10 hc0 hc1 hc2 hc3 x0 x1 x2 x3 x4 xs0 xs1).1 S6x256.size (by sl_kernel_rfl) y

def out0_E_5 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256 .f32 :=
  VO0_5.read (Elt F) (VO0_5.writes (Elt F) VO0_5.junk (kernelRun0_E c i arg3 harg3 arg4 harg4 arg5 harg5 arg6 harg6 arg7 harg7 arg8 harg8 arg9 harg9 arg10 harg10 hc0 hc1 hc2 hc3 x0 x1 x2 x3 x4 xs0 xs1).1)

theorem scover0_E_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256x384.Idx) :
    ∃ pc ∈ (kernelRun0_E c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (kernelRun0_E c i arg3 harg3 arg4 harg4 arg5 harg5 arg6 harg6 arg7 harg7 arg8 harg8 arg9 harg9 arg10 harg10 hc0 hc1 hc2 hc3 x0 x1 x2 x3 x4 xs0 xs1).2.1 S6x256x384.size (by sl_kernel_rfl) y

def sout0_E_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256x384 .f32 :=
  VS0_0.read (Elt F) (VS0_0.writes (Elt F) VS0_0.junk (kernelRun0_E c i arg3 harg3 arg4 harg4 arg5 harg5 arg6 harg6 arg7 harg7 arg8 harg8 arg9 harg9 arg10 harg10 hc0 hc1 hc2 hc3 x0 x1 x2 x3 x4 xs0 xs1).2.1)

theorem scover0_E_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) (y : S6x256.Idx) :
    ∃ pc ∈ (kernelRun0_E c i arg3 harg3 arg4 harg4 arg5 harg5 arg6 harg6 arg7 harg7 arg8 harg8 arg9 harg9 arg10 harg10 hc0 hc1 hc2 hc3 x0 x1 x2 x3 x4 xs0 xs1).2.2.1, y ∈ pc.1.set :=
  View.cover_of_tiledL (kernelRun0_E c i arg3 harg3 arg4 harg4 arg5 harg5 arg6 harg6 arg7 harg7 arg8 harg8 arg9 harg9 arg10 harg10 hc0 hc1 hc2 hc3 x0 x1 x2 x3 x4 xs0 xs1).2.2.1 S6x256.size (by sl_kernel_rfl) y

def sout0_E_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) : Vec F S6x256 .f32 :=
  VS0_1.read (Elt F) (VS0_1.writes (Elt F) VS0_1.junk (kernelRun0_E c i arg3 harg3 arg4 harg4 arg5 harg5 arg6 harg6 arg7 harg7 arg8 harg8 arg9 harg9 arg10 harg10 hc0 hc1 hc2 hc3 x0 x1 x2 x3 x4 xs0 xs1).2.2.1)

/-! ## The cases' conditions from the position -/

theorem condsA (t : Fin cfg0.N) (h : t.val % 36 = 0) :
    cond0_0 (grid0.coords t) ∧ cond0_1 (grid0.coords t) ∧ ¬cond0_2 (grid0.coords t) ∧ ¬cond0_3 (grid0.coords t) :=
  ⟨(hcond0_0 t).mpr h, (hcond0_1 t).mpr (by omega), fun h' => by have := (hcond0_2 t).mp h'; omega, fun h' => by have := (hcond0_3 t).mp h'; omega⟩
theorem condsB (t : Fin cfg0.N) (h0 : ¬t.val % 36 = 0) (h1 : t.val % 6 = 0) :
    ¬cond0_0 (grid0.coords t) ∧ cond0_1 (grid0.coords t) ∧ ¬cond0_2 (grid0.coords t) ∧ ¬cond0_3 (grid0.coords t) :=
  ⟨fun h' => h0 ((hcond0_0 t).mp h'), (hcond0_1 t).mpr h1, fun h' => by have := (hcond0_2 t).mp h'; omega, fun h' => by have := (hcond0_3 t).mp h'; omega⟩
theorem condsC (t : Fin cfg0.N) (h1 : ¬t.val % 6 = 0) (h2 : ¬t.val % 6 = 5) :
    ¬cond0_0 (grid0.coords t) ∧ ¬cond0_1 (grid0.coords t) ∧ ¬cond0_2 (grid0.coords t) ∧ ¬cond0_3 (grid0.coords t) :=
  ⟨fun h' => by have := (hcond0_0 t).mp h'; omega, fun h' => h1 ((hcond0_1 t).mp h'), fun h' => h2 ((hcond0_2 t).mp h'), fun h' => by have := (hcond0_3 t).mp h'; omega⟩
theorem condsD (t : Fin cfg0.N) (h2 : t.val % 6 = 5) (h3 : ¬t.val % 36 = 35) :
    ¬cond0_0 (grid0.coords t) ∧ ¬cond0_1 (grid0.coords t) ∧ cond0_2 (grid0.coords t) ∧ ¬cond0_3 (grid0.coords t) :=
  ⟨fun h' => by have := (hcond0_0 t).mp h'; omega, fun h' => by have := (hcond0_1 t).mp h'; omega, (hcond0_2 t).mpr h2, fun h' => h3 ((hcond0_3 t).mp h')⟩
theorem condsE (t : Fin cfg0.N) (h3 : t.val % 36 = 35) :
    ¬cond0_0 (grid0.coords t) ∧ ¬cond0_1 (grid0.coords t) ∧ cond0_2 (grid0.coords t) ∧ cond0_3 (grid0.coords t) :=
  ⟨fun h' => by have := (hcond0_0 t).mp h'; omega, fun h' => by have := (hcond0_1 t).mp h'; omega, (hcond0_2 t).mpr (by omega), (hcond0_3 t).mpr h3⟩

/-! ## The state after each point -/

section State
variable (V : (c : Dev nD) → (b : Ref sig .tc) → Buf (Elt F) ((c : Thread nD τ).loc b))

/-- The result window's buffer, the partial products, the row sums. -/
abbrev St (F : FTy → Type) [FloatOps F] : Type := Vec F S6x256 .f32 × Vec F S6x256x384 .f32 × Vec F S6x256 .f32

/-- After a first point of a batch tile: both scratch buffers reset, the first row tile's product in the partial
    products. (The result window's buffer is not stored into: its component is not consulted.) -/
def stA (c : Dev nD) (t : Fin cfg0.N) (h : t.val % 36 = 0) : St F :=
  (VO0_5.read (Elt F) VO0_5.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsA t h).1 (condsA t h).2.1 (condsA t h).2.2.1 (condsA t h).2.2.2 (iblk V c 0 t) (iblk V c 1 t) (iblk V c 2 t) (iblk V c 3 t) (iblk V c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsA t h).1 (condsA t h).2.1 (condsA t h).2.2.1 (condsA t h).2.2.2 (iblk V c 0 t) (iblk V c 1 t) (iblk V c 2 t) (iblk V c 3 t) (iblk V c 4 t))
/-- After a first row tile of a later column tile: the partial products reset and started again, the row sums kept. -/
def stB (c : Dev nD) (t : Fin cfg0.N) (h0 : ¬t.val % 36 = 0) (h1 : t.val % 6 = 0) (prev : St F) : St F :=
  (VO0_5.read (Elt F) VO0_5.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsB t h0 h1).1 (condsB t h0 h1).2.1 (condsB t h0 h1).2.2.1 (condsB t h0 h1).2.2.2 (iblk V c 0 t) (iblk V c 1 t) (iblk V c 2 t) (iblk V c 3 t) (iblk V c 4 t),
   prev.2.2)
/-- After a middle row tile: its product added to the partial products. -/
def stC (c : Dev nD) (t : Fin cfg0.N) (h1 : ¬t.val % 6 = 0) (h2 : ¬t.val % 6 = 5) (prev : St F) : St F :=
  (VO0_5.read (Elt F) VO0_5.junk,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsC t h1 h2).1 (condsC t h1 h2).2.1 (condsC t h1 h2).2.2.1 (condsC t h1 h2).2.2.2 (iblk V c 0 t) (iblk V c 1 t) (iblk V c 2 t) (iblk V c 3 t) (iblk V c 4 t) prev.2.1,
   prev.2.2)
/-- After the last row tile of a column tile before the last: the column tile's contribution added to the row sums. -/
def stD (c : Dev nD) (t : Fin cfg0.N) (h2 : t.val % 6 = 5) (h3 : ¬t.val % 36 = 35) (prev : St F) : St F :=
  (VO0_5.read (Elt F) VO0_5.junk,
   sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsD t h2 h3).1 (condsD t h2 h3).2.1 (condsD t h2 h3).2.2.1 (condsD t h2 h3).2.2.2 (iblk V c 0 t) (iblk V c 1 t) (iblk V c 2 t) (iblk V c 3 t) (iblk V c 4 t) prev.2.1 prev.2.2,
   sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsD t h2 h3).1 (condsD t h2 h3).2.1 (condsD t h2 h3).2.2.1 (condsD t h2 h3).2.2.2 (iblk V c 0 t) (iblk V c 1 t) (iblk V c 2 t) (iblk V c 3 t) (iblk V c 4 t) prev.2.1 prev.2.2)
/-- After the last point of a batch tile: as before, and the row sums stored into the result window's buffer. -/
def stE (c : Dev nD) (t : Fin cfg0.N) (h3 : t.val % 36 = 35) (prev : St F) : St F :=
  (out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsE t h3).1 (condsE t h3).2.1 (condsE t h3).2.2.1 (condsE t h3).2.2.2 (iblk V c 0 t) (iblk V c 1 t) (iblk V c 2 t) (iblk V c 3 t) (iblk V c 4 t) prev.2.1 prev.2.2,
   sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsE t h3).1 (condsE t h3).2.1 (condsE t h3).2.2.1 (condsE t h3).2.2.2 (iblk V c 0 t) (iblk V c 1 t) (iblk V c 2 t) (iblk V c 3 t) (iblk V c 4 t) prev.2.1 prev.2.2,
   sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsE t h3).1 (condsE t h3).2.1 (condsE t h3).2.2.1 (condsE t h3).2.2.2 (iblk V c 0 t) (iblk V c 1 t) (iblk V c 2 t) (iblk V c 3 t) (iblk V c 4 t) prev.2.1 prev.2.2)

/-- The state after the body at position `n`. -/
def outsAt0 (c : Dev nD) : (n : ℕ) → n < cfg0.N → St F
  | 0, hn => stA V c ⟨0, hn⟩ (Nat.zero_mod _)
  | n + 1, hn =>
    if h0 : (n + 1) % 36 = 0 then stA V c ⟨n + 1, hn⟩ h0
    else if h1 : (n + 1) % 6 = 0 then stB V c ⟨n + 1, hn⟩ h0 h1 (outsAt0 c n (Nat.lt_of_succ_lt hn))
    else if h2 : (n + 1) % 6 = 5 then
      if h3 : (n + 1) % 36 = 35 then stE V c ⟨n + 1, hn⟩ h3 (outsAt0 c n (Nat.lt_of_succ_lt hn))
      else stD V c ⟨n + 1, hn⟩ h2 h3 (outsAt0 c n (Nat.lt_of_succ_lt hn))
    else stC V c ⟨n + 1, hn⟩ h1 h2 (outsAt0 c n (Nat.lt_of_succ_lt hn))

theorem outsAt0_A (c : Dev nD) (t : Fin cfg0.N) (h : t.val % 36 = 0) : outsAt0 V c t.val t.isLt = stA V c t h := by
  obtain ⟨n, hn⟩ := t
  cases n with
  | zero => rfl
  | succ n => exact dif_pos h
theorem outsAt0_B (c : Dev nD) (t : Fin cfg0.N) (h0 : ¬t.val % 36 = 0) (h1 : t.val % 6 = 0) :
    outsAt0 V c t.val t.isLt = stB V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)
theorem outsAt0_C (c : Dev nD) (t : Fin cfg0.N) (h1 : ¬t.val % 6 = 0) (h2 : ¬t.val % 6 = 5) :
    outsAt0 V c t.val t.isLt = stC V c t h1 h2 (outsAt0 V c (t.val - 1) (Nat.lt_of_le_of_lt (Nat.sub_le _ _) t.isLt)) := by
  obtain ⟨n, hn⟩ := t
  cases n with
  | zero => exact absurd (Nat.zero_mod _) h1
  | succ n =>
    have h0 : ¬(n + 1) % 36 = 0 := fun h => h1 (by dsimp only at h ⊢; omega)
    exact (dif_neg h0).trans ((dif_neg h1).trans (dif_neg h2))
theorem outsAt0_D (c : Dev nD) (t : Fin cfg0.N) (h2 : t.val % 6 = 5) (h3 : ¬t.val % 36 = 35) :
    outsAt0 V c t.val t.isLt = stD V c t h2 h3 (outsAt0 V c (t.val - 1) (Nat.lt_of_le_of_lt (Nat.sub_le _ _) t.isLt)) := by
  obtain ⟨n, hn⟩ := t
  cases n with
  | zero => exfalso; dsimp only at h2; omega
  | succ n =>
    have h0 : ¬(n + 1) % 36 = 0 := fun h => by dsimp only at h h2; omega
    have h1 : ¬(n + 1) % 6 = 0 := fun h => by dsimp only at h h2; omega
    exact (dif_neg h0).trans ((dif_neg h1).trans ((dif_pos h2).trans (dif_neg h3)))
theorem outsAt0_E (c : Dev nD) (t : Fin cfg0.N) (h3 : t.val % 36 = 35) :
    outsAt0 V c t.val t.isLt = stE V c t h3 (outsAt0 V c (t.val - 1) (Nat.lt_of_le_of_lt (Nat.sub_le _ _) t.isLt)) := by
  obtain ⟨n, hn⟩ := t
  cases n with
  | zero => exfalso; dsimp only at h3; omega
  | succ n =>
    have h0 : ¬(n + 1) % 36 = 0 := fun h => by dsimp only at h h3; omega
    have h1 : ¬(n + 1) % 6 = 0 := fun h => by dsimp only at h h3; omega
    have h2 : (n + 1) % 6 = 5 := by dsimp only at h3; omega
    exact (dif_neg h0).trans ((dif_neg h1).trans ((dif_pos h2).trans (dif_pos h3)))

/-! ## The region invariant: the scratch at the state the point before left -/

/-- Before the first point both scratch buffers hold anything; afterwards what the point before left in them. The
    generator register rides along. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (outsAt0 V c n hn).2.1 ∗ owns (c : Thread nD τ) scM0_1 fullShare (outsAt0 V c n hn).2.2) ∗ (∃ r, prngReg c r)) := rfl
theorem PhiS_pos (c : Dev nD) (n : ℕ) (h : n ≤ cfg0.N) (hz : n ≠ 0) :
    PhiS V c n h = iprop(iprop(owns (c : Thread nD τ) scM0_0 fullShare (outsAt0 V c (n - 1) (by omega)).2.1 ∗ owns (c : Thread nD τ) scM0_1 fullShare (outsAt0 V c (n - 1) (by omega)).2.2) ∗ (∃ r, prngReg c r)) := by
  cases n with
  | zero => exact absurd rfl hz
  | succ n => rfl

end State

end Cert.KernelIdeal.Hand

end
-- ==== Proof.Ideal.Body.lean ====
/-
  The proof data of the pipeline and its body obligation. After the body at a point each input window's buffer still
  holds its block, the result window's buffer and the scratch hold the state of that point; the invariant between
  points is the scratch at that state. Two pairs of windows read one array each (the padded samples and the padded
  class means are each handed to the kernel twice, once by row tile and once by column tile): each window of a pair
  holds half of its array's share.
-/
import proofs.«171433_j4939212390990_1_alg».proof.Proof.Ideal.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats V c).A w = V c (Pipeline.arrRef spec0 w) := by
  dsimp only [dats]

theorem PhiS_castSucc (c : Dev nD) (t : Fin cfg0.N) :
    (dats V c).Φ t.castSucc = PhiS V c t.val (Nat.le_of_lt t.isLt) := by
  dsimp only [dats]; simp only [Fin.coe_castSucc]

theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = iblk V c 4 t := by dsimp only [dats]
theorem after0_5 (c : Dev nD) (t : Fin cfg0.N) : (dats V c).after 5 t = (outsAt0 V c t.val t.isLt).1 := by dsimp only [dats]

theorem before0_0 (c : Dev nD) (t : Fin cfg0.N) (d) : (dats V c).before 0 t d = iblk V c 0 t :=
  before0_0_of V (dats V c) (A_eq V c 0) (after0_0 V c) t d
theorem before0_1 (c : Dev nD) (t : Fin cfg0.N) (d) : (dats V c).before 1 t d = iblk V c 1 t :=
  before0_1_of V (dats V c) (A_eq V c 1) (after0_1 V c) t d
theorem before0_2 (c : Dev nD) (t : Fin cfg0.N) (d) : (dats V c).before 2 t d = iblk V c 2 t :=
  before0_2_of V (dats V c) (A_eq V c 2) (after0_2 V c) t d
theorem before0_3 (c : Dev nD) (t : Fin cfg0.N) (d) : (dats V c).before 3 t d = iblk V c 3 t :=
  before0_3_of V (dats V c) (A_eq V c 3) (after0_3 V c) t d
theorem before0_4 (c : Dev nD) (t : Fin cfg0.N) (d) : (dats V c).before 4 t d = iblk V c 4 t :=
  before0_4_of V (dats V c) (A_eq V c 4) (after0_4 V c) t d

/-! ## The body obligation, at a generic point -/

def bodyPre (c : Dev nD) (t : Fin cfg0.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d)))

def bodyPost (c : Dev nD) (t : Fin cfg0.N) : sProp 𝕄 :=
  iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t
    ∗ (dats V c).leavesExact 5 t)

set_option maxHeartbeats 8000000 in
/-- The body at any point: the inputs' buffers hold their blocks; the position says which case the point is in; the
    invariant hands the body the scratch at what the point before left (anything at the first point) and takes it back
    at this point's state; the result window's buffer is handed back untouched except at a batch tile's last point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dats V c).owesAt () t.succ = (dats V c).owesAt () t.castSucc from rfl]
  rw [show (dats V c).Φ t.succ = PhiS V c (t.val + 1) t.isLt from rfl, PhiS_succ]
  rw [show (dats V c).leavesExact 0 t = owns (c : Thread nD τ) (ms0_0 t) fullShare ((dats V c).after 0 t) from by
    unfold Dat.leavesExact; rw [liveAt0_0 t], after0_0]
  rw [show (dats V c).leavesExact 1 t = owns (c : Thread nD τ) (ms0_1 t) fullShare ((dats V c).after 1 t) from by
    unfold Dat.leavesExact; rw [liveAt0_1 t], after0_1]
  rw [show (dats V c).leavesExact 2 t = owns (c : Thread nD τ) (ms0_2 t) fullShare ((dats V c).after 2 t) from by
    unfold Dat.leavesExact; rw [liveAt0_2 t], after0_2]
  rw [show (dats V c).leavesExact 3 t = owns (c : Thread nD τ) (ms0_3 t) fullShare ((dats V c).after 3 t) from by
    unfold Dat.leavesExact; rw [liveAt0_3 t], after0_3]
  rw [show (dats V c).leavesExact 4 t = owns (c : Thread nD τ) (ms0_4 t) fullShare ((dats V c).after 4 t) from by
    unfold Dat.leavesExact; rw [liveAt0_4 t], after0_4]
  have hN : t.val < 144 := lt_of_lt_of_eq t.isLt (show cfg0.N = 144 from N_0)
  by_cases h0 : t.val % 36 = 0
  · have hcs := condsA t h0
    rw [Dat.leavesExact_idle (dats V c) 5 t (idleAt0_5 t hcs.2.2.2) (noFlush0_5 t hcs.2.2.2)]
    rw [outsAt0_A V c t h0]
    unfold stA sout0_A_0 sout0_A_1; (try dsimp only)
    by_cases hz : t.val = 0
    · rw [PhiS_castSucc V c t, PhiS_zero V c _ _ hz, PhiA0_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t)).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t)).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  by_cases h1 : t.val % 6 = 0
  · have hcs := condsB t h0 h1
    rw [Dat.leavesExact_idle (dats V c) 5 t (idleAt0_5 t hcs.2.2.2) (noFlush0_5 t hcs.2.2.2)]
    rw [outsAt0_B V c t h0 h1]
    unfold stB sout0_B_0; (try dsimp only)
    by_cases hz : t.val = 0
    · exfalso; omega
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          · iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  by_cases h2 : t.val % 6 = 5
  · by_cases h3 : t.val % 36 = 35
    · have hcs := condsE t h3
      rw [show (dats V c).leavesExact 5 t = owns (c : Thread nD τ) (ms0_5 t) fullShare ((dats V c).after 5 t) from by
        unfold Dat.leavesExact; rw [liveAt0_5 t hcs.2.2.2], after0_5]
      rw [outsAt0_E V c t h3]
      unfold stE out0_E_5 sout0_E_0 sout0_E_1; (try dsimp only)
      by_cases hz : t.val = 0
      · exfalso; omega
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_E c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_E_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_E_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_E_5 c _ _ _ _ _ _ _ _ _ _ _ _ _ _ _ _ _ _ _ _ _ _ _ _ _ _ _ _)
    · have hcs := condsD t h2 h3
      rw [Dat.leavesExact_idle (dats V c) 5 t (idleAt0_5 t hcs.2.2.2) (noFlush0_5 t hcs.2.2.2)]
      rw [outsAt0_D V c t h2 h3]
      unfold stD sout0_D_0 sout0_D_1; (try dsimp only)
      by_cases hz : t.val = 0
      · exfalso; omega
      · rw [PhiS_castSucc V c t, PhiS_pos V c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_D c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_D_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hcs := condsC t h1 h2
    rw [Dat.leavesExact_idle (dats V c) 5 t (idleAt0_5 t hcs.2.2.2) (noFlush0_5 t hcs.2.2.2)]
    rw [outsAt0_C V c t h1 h2]
    unfold stC sout0_C_0; (try dsimp only)
    by_cases hz : t.val = 0
    · exfalso; omega
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hcs.1 hcs.2.1 hcs.2.2.1 hcs.2.2.2 (iblk V c 0 t) (iblk V c 1 t) (iblk V c 2 t) (iblk V c 3 t) (iblk V c 4 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _)
          · iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dats V c).Φ 0 := by
  rw [show (dats V c).Φ 0 = PhiS V c 0 (Nat.zero_le _) from rfl, PhiS_zero V c 0 _ rfl]
  try exact Idealize.SL.BI.Entails.refl _

/-- After any point but the first the invariant gives the scratch back, its contents forgotten. -/
theorem Phi_out (c : Dev nD) (t : Fin (cfg0.N + 1)) (ht : t.val ≠ 0) : (dats V c).Φ t ⊢ Pipeline.ΦA spec0 c := by
  rw [show (dats V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats V c).Φ (Fin.last cfg0.N) ⊢ Pipeline.ΦA spec0 c :=
  Phi_out V c _ (by rw [Fin.val_last]; have : cfg0.N = 144 := N_0; omega)

end Body

end Cert.KernelIdeal.Hand

end
-- ==== Proof.Ideal.Shares.lean ====
/-
  The pipeline's arrays when two pairs of windows read one array each. The launch hands the region four distinct
  buffers whole (the padded samples, the padded class means, the padded precision matrices, the result); the proof
  data holds six windows' arrays: the padded samples twice and the padded class means twice, each time at half the
  share, the other two at the full share. At the region's entry a shared buffer is split in two halves along its
  share; at the exit the halves, still at the entry contents (an input array is never written), are joined again,
  and the result's buffer is the one that changed.
-/
import proofs.«171433_j4939212390990_1_alg».proof.Proof.Ideal.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares
variable (V : (c : Dev nD) → (b : Ref sig .tc) → Buf (Elt F) ((c : Thread nD τ).loc b))

/-- The six windows' arrays, one by one, each at its share. -/
theorem arrays_chain (c : Dev nD) (G : (w : Fin cfg0.W) → Buf (Elt F) ((cfg0.win w).arr.view.loc (c.tc : Thread nD τ))) :
    ((dats V c).arrays G : sProp 𝕄)
      = iprop(((cfg0.win 0).arr.view.loc (c.tc : Thread nD τ) ↦{fullShare.left} G 0)
          ∗ ((cfg0.win 1).arr.view.loc (c.tc : Thread nD τ) ↦{fullShare.right} G 1)
          ∗ ((cfg0.win 2).arr.view.loc (c.tc : Thread nD τ) ↦{fullShare.left} G 2)
          ∗ ((cfg0.win 3).arr.view.loc (c.tc : Thread nD τ) ↦{fullShare.right} G 3)
          ∗ ((cfg0.win 4).arr.view.loc (c.tc : Thread nD τ) ↦{fullShare} G 4)
          ∗ ((cfg0.win 5).arr.view.loc (c.tc : Thread nD τ) ↦{fullShare} G 5)) := by
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h4 : (cfg0.win 4).arr.view.set = Finset.univ := (arr_whole0 4).set_eq_univ
  have h5 : (cfg0.win 5).arr.view.set = Finset.univ := (arr_whole0 5).set_eq_univ
  rw [h0, h2, h4, h5]
  rfl

/-- The four buffers behind them, one by one, whole. -/
theorem arrBufs_chain (c : Dev nD) (V' : (b : Ref sig .tc) → Buf (Elt F) ((c : Thread nD τ).loc b)) :
    (Pipeline.arrBufs spec0 c V' : sProp 𝕄)
      = iprop((((c : Thread nD τ).loc main_v0) ↦{fullShare} V' main_v0) ∗ (((c : Thread nD τ).loc main_v1) ↦{fullShare} V' main_v1)
          ∗ (((c : Thread nD τ).loc main_v2) ↦{fullShare} V' main_v2) ∗ (((c : Thread nD τ).loc main_v3) ↦{fullShare} V' main_v3)) := by
  unfold Pipeline.arrBufs
  rw [bigSep_eq_bigSepL_of_eq [main_v0, main_v1, main_v2, main_v3] (by decide) (by decide)]
  rfl

/-- ENTRY: the core's unscoped buffers at the entry contents are the six windows' arrays at the proof data's entry
    contents and the buffers that bypass the region. -/
theorem entry_split (c : Dev nD) :
    (unscopedBufs c (V c) : sProp 𝕄) ⊢ iprop((dats V c).arrays ((dats V c).arrAt · 0) ∗ Pipeline.unscopedRest spec0 c (V c)) := by
  rw [Pipeline.unscopedBufs_split₀ cfgs (0 : Fin 1) winFacts₀0.arr_unscoped c (V c)]
  refine sep_mono ?_ .rfl
  rw [arrBufs_chain c (V c), arrays_chain V c]
  iintro ⟨H0, H1, H2, H3⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  isplitl [H2]; · iexact H2
  iexact H3

/-- EXIT: the six windows' arrays at their final contents and the bypassing buffers are the core's unscoped buffers
    at any valuation that has the result's buffer at what the write-backs left and agrees with the entry contents
    everywhere else. -/
theorem exit_join (c : Dev nD) (V' : (b : Ref sig .tc) → Buf (Elt F) ((c : Thread nD τ).loc b))
    (h3 : V' main_v3 = (dats V c).arrAt 5 cfg0.N) (hrest : ∀ b, b ≠ main_v3 → V' b = V c b) :
    iprop((dats V c).arrays ((dats V c).arrAt · cfg0.N) ∗ Pipeline.unscopedRest spec0 c (V c)) ⊢ (unscopedBufs c V' : sProp 𝕄) := by
  rw [Pipeline.unscopedBufs_split₀ cfgs (0 : Fin 1) winFacts₀0.arr_unscoped c V']
  refine sep_mono ?_ (Entails.of_eq ?_)
  · rw [arrBufs_chain c V', arrays_chain V c]
    rw [(dats V c).arrAt_in 0 rfl cfg0.N, (dats V c).arrAt_in 1 rfl cfg0.N, (dats V c).arrAt_in 2 rfl cfg0.N,
      (dats V c).arrAt_in 3 rfl cfg0.N, (dats V c).arrAt_in 4 rfl cfg0.N]
    rw [hrest main_v0 (by decide), hrest main_v1 (by decide), hrest main_v2 (by decide), h3]
    iintro ⟨H0a, H0b, H1a, H1b, H2, H3⟩
    isplitl [H0a H0b]
    · iapply (pointsTo_share (PosShare.mem_left_op_right fullShare)).2
      isplitl [H0a]; · iexact H0a
      iexact H0b
    isplitl [H1a H1b]
    · iapply (pointsTo_share (PosShare.mem_left_op_right fullShare)).2
      isplitl [H1a]; · iexact H1a
      iexact H1b
    isplitl [H2]; · iexact H2
    iexact H3
  · unfold Pipeline.unscopedRest
    exact bigSep_congr fun b hb => by
      rw [hrest b (fun e => (Finset.mem_sdiff.mp hb).2 (e ▸ Finset.mem_image.mpr ⟨(5 : Fin 6), Finset.mem_univ _, rfl⟩))]

end Shares

end Cert.KernelIdeal.Hand

end
-- ==== Proof.Ideal.Launch.lean ====
/-
  The launch. @main is six stretches of host operations (three zero constants, each converted to a float and used to
  pad one argument array along its feature axes), the kernel region, and a last stretch (the gather of each sample's
  own class out of the 6 × 1024 result). Between two items the core holds every unscoped buffer whole at a valuation:
  the launch memory, then each stretch's operations applied, then — after the region — the result's buffer at what the
  pipeline's write-backs left. The region is entered by splitting its arrays out of those buffers and left by joining
  them back. At the end every unscoped buffer is read off the last valuation.
-/
import proofs.«171433_j4939212390990_1_alg».proof.Proof.Ideal.Shares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## What the host stretches write -/

theorem hostOps0_fresh : (hostOps0 : List (HloOp τ sig (Elt F))).Forall fun op => op.fresh = ∅ := by
  simp only [List.Forall]; repeat' constructor
abbrev hostOps0_W : List (Ref sig .tc) := [main_c]
theorem hostOps0_writes : (hostOps0 : List (HloOp τ sig (Elt F))).Forall fun op => op.writes ⊆ (hostOps0_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_1_fresh : (hostOps0_1 : List (HloOp τ sig (Elt F))).Forall fun op => op.fresh = ∅ := by
  simp only [List.Forall]; repeat' constructor
abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_2_fresh : (hostOps0_2 : List (HloOp τ sig (Elt F))).Forall fun op => op.fresh = ∅ := by
  simp only [List.Forall]; repeat' constructor
abbrev hostOps0_2_W : List (Ref sig .tc) := [main_c_0]
theorem hostOps0_2_writes : (hostOps0_2 : List (HloOp τ sig (Elt F))).Forall fun op => op.writes ⊆ (hostOps0_2_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_3_fresh : (hostOps0_3 : List (HloOp τ sig (Elt F))).Forall fun op => op.fresh = ∅ := by
  simp only [List.Forall]; repeat' constructor
abbrev hostOps0_3_W : List (Ref sig .tc) := [main_call1_v0, main_v1]
theorem hostOps0_3_writes : (hostOps0_3 : List (HloOp τ sig (Elt F))).Forall fun op => op.writes ⊆ (hostOps0_3_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_4_fresh : (hostOps0_4 : List (HloOp τ sig (Elt F))).Forall fun op => op.fresh = ∅ := by
  simp only [List.Forall]; repeat' constructor
abbrev hostOps0_4_W : List (Ref sig .tc) := [main_c_1]
theorem hostOps0_4_writes : (hostOps0_4 : List (HloOp τ sig (Elt F))).Forall fun op => op.writes ⊆ (hostOps0_4_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps0_5_fresh : (hostOps0_5 : List (HloOp τ sig (Elt F))).Forall fun op => op.fresh = ∅ := by
  simp only [List.Forall]; repeat' constructor
abbrev hostOps0_5_W : List (Ref sig .tc) := [main_call2_v0, main_v2]
theorem hostOps0_5_writes : (hostOps0_5 : List (HloOp τ sig (Elt F))).Forall fun op => op.writes ⊆ (hostOps0_5_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)
theorem hostOps1_fresh : (hostOps1 : List (HloOp τ sig (Elt F))).Forall fun op => op.fresh = ∅ := by
  simp only [List.Forall]; repeat' constructor
abbrev hostOps1_W : List (Ref sig .tc) := [main_v4, main_c_2, main_v5, main_v6, main_c_3, main_v7, main_v8, main_v9, main_c_4, main_v10, main_v11, main_c_5, main_v12, main_v13, main_v14, main_v15, main_v16, main_v17, main_v18]
theorem hostOps1_writes : (hostOps1 : List (HloOp τ sig (Elt F))).Forall fun op => op.writes ⊆ (hostOps1_W.map (Proc.devRef (τ := τ) .tc)).toFinset := by
  simp only [List.Forall, StableHlo.TRef.unary, StableHlo.TRef.binary, StableHlo.nullary_writes, StableHlo.unary_writes, StableHlo.binary_writes, StableHlo.ternary_writes, Finset.singleton_subset_iff, List.mem_toFinset]
  repeat' apply And.intro
  all_goals exact List.mem_map_of_mem (by decide)

section Launch
variable (m : (ℓ : Loc nD τ sig) → Buf (Elt F) ℓ) (ρ : Dev nD → PrngReg)

/-! ## The buffers' contents between items -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- When the region is entered: the three padded arrays are in place. -/
abbrev W6 : Dev nD → Valuation τ sig (Elt F) := fun c => StableHlo.after hostOps0_5 (W5 m c)
/-- The same read at the TensorCore's references: what the pipeline's proof data take. -/
abbrev Vin : (c : Dev nD) → (b : Ref sig .tc) → Buf (Elt F) ((c : Thread nD τ).loc b) := fun c b => W6 m c b
/-- When the region is left: the result's buffer at what the write-backs left, every other buffer as entered. -/
def W7 (c : Dev nD) : Valuation τ sig (Elt F) := Function.update (W6 m c) main_v3 ((dats (Vin m) c).arrAt 5 cfg0.N)
/-- At the end. -/
abbrev W8 : Dev nD → Valuation τ sig (Elt F) := fun c => StableHlo.after hostOps1 (W7 m c)

theorem W7_v3 (c : Dev nD) : W7 m c main_v3 = (dats (Vin m) c).arrAt 5 cfg0.N := by
  unfold W7; exact Function.update_self ..
theorem W7_of_ne (c : Dev nD) (b : Ref sig .tc) (h : b ≠ main_v3) : W7 m c b = W6 m c b := by
  unfold W7; exact Function.update_of_ne (StableHlo.devRef_ne_of_ne h) _ _

theorem W1_of (c : Dev nD) (r : Ref sig .tc) (h : r ∉ hostOps0_W) : W1 m c r = W0 m c r := StableHlo.after_of_writes_sub hostOps0 _ hostOps0_writes h
theorem W2_of (c : Dev nD) (r : Ref sig .tc) (h : r ∉ hostOps0_1_W) : W2 m c r = W1 m c r := StableHlo.after_of_writes_sub hostOps0_1 _ hostOps0_1_writes h
theorem W3_of (c : Dev nD) (r : Ref sig .tc) (h : r ∉ hostOps0_2_W) : W3 m c r = W2 m c r := StableHlo.after_of_writes_sub hostOps0_2 _ hostOps0_2_writes h
theorem W4_of (c : Dev nD) (r : Ref sig .tc) (h : r ∉ hostOps0_3_W) : W4 m c r = W3 m c r := StableHlo.after_of_writes_sub hostOps0_3 _ hostOps0_3_writes h
theorem W5_of (c : Dev nD) (r : Ref sig .tc) (h : r ∉ hostOps0_4_W) : W5 m c r = W4 m c r := StableHlo.after_of_writes_sub hostOps0_4 _ hostOps0_4_writes h
theorem W6_of (c : Dev nD) (r : Ref sig .tc) (h : r ∉ hostOps0_5_W) : W6 m c r = W5 m c r := StableHlo.after_of_writes_sub hostOps0_5 _ hostOps0_5_writes h
theorem W8_of (c : Dev nD) (r : Ref sig .tc) (h : r ∉ hostOps1_W) : W8 m c r = W7 m c r := StableHlo.after_of_writes_sub hostOps1 _ hostOps1_writes h

/-- No item writes an argument: each reaches the end as launched. -/
theorem W8_arg (c : Dev nD) (r : Ref sig .tc) (h8 : r ∉ hostOps1_W) (h7 : r ≠ main_v3) (h6 : r ∉ hostOps0_5_W) (h5 : r ∉ hostOps0_4_W)
    (h4 : r ∉ hostOps0_3_W) (h3 : r ∉ hostOps0_2_W) (h2 : r ∉ hostOps0_1_W) (h1 : r ∉ hostOps0_W) :
    W8 m c r = m ((c : Thread nD τ).loc r) :=
  (W8_of m c r h8).trans <| (W7_of_ne m c r h7).trans <| (W6_of m c r h6).trans <| (W5_of m c r h5).trans <| (W4_of m c r h4).trans <|
    (W3_of m c r h3).trans <| (W2_of m c r h2).trans <| (W1_of m c r h1).trans rfl
theorem W8_main_arg0 (c : Dev nD) : W8 m c main_arg0 = m ((c : Thread nD τ).loc main_arg0) :=
  W8_arg m c main_arg0 (by decide) (by decide) (by decide) (by decide) (by decide) (by decide) (by decide) (by decide)
theorem W8_main_arg1 (c : Dev nD) : W8 m c main_arg1 = m ((c : Thread nD τ).loc main_arg1) :=
  W8_arg m c main_arg1 (by decide) (by decide) (by decide) (by decide) (by decide) (by decide) (by decide) (by decide)
theorem W8_main_arg2 (c : Dev nD) : W8 m c main_arg2 = m ((c : Thread nD τ).loc main_arg2) :=
  W8_arg m c main_arg2 (by decide) (by decide) (by decide) (by decide) (by decide) (by decide) (by decide) (by decide)
theorem W8_main_arg3 (c : Dev nD) : W8 m c main_arg3 = m ((c : Thread nD τ).loc main_arg3) :=
  W8_arg m c main_arg3 (by decide) (by decide) (by decide) (by decide) (by decide) (by decide) (by decide) (by decide)

/-! ## The proof data family and the thread state -/

abbrev adm : (p : Fin 1) → (pcfgs (F := F) p).Adm := fun p => (cfgs p).toPCfg_adm
/-- The one pipeline's proof data at its region's entry contents (a literal match, so that the pinned configuration
    at the numeral reduces to the printed one). -/
def pdats : (p : Fin 1) → (c : Dev nD) → Dat τ (Elt F) Unit ℕ (UR sig nD τ) ℕ (Pipeline.pin (pcfgs (F := F)) adm p) c
  | ⟨0, _⟩ => fun c => dats (Vin m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m c) ∗ ∃ r, prngReg c r)

/-! ## The region as a segment -/

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (Vin m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := entry_split (Vin m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hin (Vin m) c)
  hout c := by
    rw [Pipeline.ownSems0_none]
    refine (hout (Vin m) c).trans ?_
    unfold Pipeline.ΦA
    iintro ⟨Hr, Hp⟩
    isplitl [Hp]; · iexact Hp
    isplitr; · iempintro
    iexact Hr
  hexit c := by
    have hjoin := exit_join (Vin m) c (fun b => W7 m c b) (W7_v3 m c) (fun b hb => W7_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The last stretch's post is the last thread state beside the core owing nothing. -/
theorem last_post (c : Dev nD) :
    iprop(StableHlo.held (c : Thread nD τ) (Pipeline.ucRefs τ sig) (W8 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .region (reg0 m),
    .host (hseg hostOps1 hostOps1_sub hostOps1_fresh (W7 m)) ]

theorem main_run (c : Dev nD) : main (F := F) c = Pipeline.Seg.run (segs m) := (main_chain c).trans (by chain_rfl)

set_option backward.isDefEq.respectTransparency.types false in
/-- From any memory with zero counters, every weakly fair execution of @main terminates, nothing faulting, and every
    final state has every unscoped buffer at the last valuation. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c)⟩) (run_main m ρ)

end Launch

end Cert.KernelIdeal.Hand

end
-- ==== Proof.Ideal.RefAt.lean ====
/-
  The reference's quadratic form read at an index, over the extended reals. The reference broadcasts the samples and
  the class means to a common 6 × 1024 × 2096 array, subtracts, contracts the difference with the class's inverse
  covariance over the feature axis, multiplies by the difference again and sums over the feature axis. Read at class
  cc and sample b this is  Σ_j (Σ_i δ_i · Σinv[cc,i,j]) · δ_j  with  δ_i = X[b,i] − mean[cc,i]. The rest of the
  reference (the label arithmetic and the gather of one class per sample) is carried as one function `tail` of this
  array and the labels.
-/
import proofs.«171433_j4939212390990_1_alg».proof.Proof.Gen.ReferenceIdeal.Read
import Idealize.ShloMosaic.Lib.ValueIdx
import Idealize.ShloMosaic.PureOps.Ideal.Laws

noncomputable section

namespace Cert.ReferenceIdeal.RefAt

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The difference array (buffer main_v4) at class cc, sample b, feature i: the sample's feature minus the class mean's. -/
theorem delta_at (x0 : (⟨S1024x2096, .f32⟩ : BufTy).Contents (Elt Ideal)) (x1 : (⟨S6x2096, .f32⟩ : BufTy).Contents (Elt Ideal)) (cc : Fin 6) (b : Fin 1024) (i : Fin 2096) :
    Read.val_main_v4 (F := Ideal) x0 x1 (ix3 cc b i) = x0 (ix2 b i) - x1 (ix2 cc i) := by
  have e0 : Read.idx_main_v0 (Read.idx_main_v2 (ix3 cc b i)) = ix2 b i :=
    funext fun a => Fin.ext (by match a with | ⟨0, _⟩ => rfl | ⟨1, _⟩ => rfl)
  have e1 : Read.idx_main_v1 (Read.idx_main_v3 (ix3 cc b i)) = ix2 cc i :=
    funext fun a => Fin.ext (by match a with | ⟨0, _⟩ => rfl | ⟨1, _⟩ => rfl)
  rw [Read.val_main_v4_apply, Read.val_main_v2_apply, Read.val_main_v3_apply, Read.val_main_v0_apply,
    Read.val_main_v1_apply, e0, e1, Ideal.subf_def]

/-- The reference's q (the reduce over axis 2, buffer main_v7) at class cc and sample b. -/
theorem q_at (x0 : (⟨S1024x2096, .f32⟩ : BufTy).Contents (Elt Ideal)) (x1 : (⟨S6x2096, .f32⟩ : BufTy).Contents (Elt Ideal)) (x2 : (⟨S6x2096x2096, .f32⟩ : BufTy).Contents (Elt Ideal)) (cc : Fin 6) (b : Fin 1024) :
    Read.val_main_v7 (F := Ideal) x0 x1 x2 (ix2 cc b)
      = ∑ j : Fin 2096, (∑ i : Fin 2096, (x0 (ix2 b i) - x1 (ix2 cc i)) * x2 (ix3 cc i j)) * (x0 (ix2 b j) - x1 (ix2 cc j)) := by
  have h7 : ∀ k : Fin 2096, Read.idx_main_v7 (ix2 cc b) k = ix3 cc b k := fun k =>
    funext fun a => Fin.ext (by match a with | ⟨0, _⟩ => rfl | ⟨1, _⟩ => rfl | ⟨2, _⟩ => rfl)
  have hl : ∀ j i : Fin 2096, Read.lidx_main_v5 (ix3 cc b j) i = ix3 cc b i := fun j i =>
    funext fun a => Fin.ext (by match a with | ⟨0, _⟩ => rfl | ⟨1, _⟩ => rfl | ⟨2, _⟩ => rfl)
  have hr : ∀ j i : Fin 2096, Read.ridx_main_v5 (ix3 cc b j) i = ix3 cc i j := fun j i =>
    funext fun a => Fin.ext (by match a with | ⟨0, _⟩ => rfl | ⟨1, _⟩ => rfl | ⟨2, _⟩ => rfl)
  rw [Read.val_main_v7_apply, Read.val_main_cst_apply, Ideal.ofBits_def, Ideal.ofBits_zero_f32, zero_add]
  refine Finset.sum_congr rfl fun j _ => ?_
  rw [h7, Read.val_main_v6_apply, Read.val_main_v5_apply, delta_at, Ideal.mulf_def]
  refine congrArg (· * _) (Finset.sum_congr rfl fun i _ => ?_)
  rw [hl, hr, delta_at]

/-- The part of the reference after q: the labels and the sample numbers, each wrapped into range, joined into
    (class, sample) pairs, and q gathered at those pairs. -/
def tail (q : (⟨S6x1024, .f32⟩ : BufTy).Contents (Elt Ideal)) (lab : (⟨S1024, .i32⟩ : BufTy).Contents (Elt Ideal)) : (⟨S1024, .f32⟩ : BufTy).Contents (Elt Ideal) :=
  Host.gather gather_S6x1024_S1024x2_S1024_n_01_n_n_01_1_11 q (concatenate S1024x2 1 [⟨S1024x1, (broadcastInDim S1024x1 ![0] bcast_S1024_S1024x1_0 (select (cmpi .slt (lab) (broadcastInDim S1024 ![] bcast_S_S1024 (constantI S_ 32 0#32))) (addi (lab) (broadcastInDim S1024 ![] bcast_S_S1024 (constantI S_ 32 6#32))) (lab)))⟩, ⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩] concatenates_S1024x1_S1024x1_S1024x2_d1)

/-- The run's result term is the shared tail (iota, compares, selects, concatenate, gather) applied to q and the labels. -/
theorem result_eq (x0 : (⟨S1024x2096, .f32⟩ : BufTy).Contents (Elt Ideal)) (x1 : (⟨S6x2096, .f32⟩ : BufTy).Contents (Elt Ideal)) (x2 : (⟨S6x2096x2096, .f32⟩ : BufTy).Contents (Elt Ideal)) (lab : (⟨S1024, .i32⟩ : BufTy).Contents (Elt Ideal)) :
    Host.gather gather_S6x1024_S1024x2_S1024_n_01_n_n_01_1_11 (Host.reduceAdd (F := Ideal) (mulf (F := Ideal) (φ := .f32) (Host.dotGeneral (F := Ideal) (φ₁ := .f32) (φ₂ := .f32) dot_S6x1024x2096_S6x2096x2096_S6x1024x2096_2_1_1_2_0_0 none (subf (F := Ideal) (φ := .f32) (broadcastInDim S6x1024x2096 ![0, 1, 2] bcast_S1x1024x2096_S6x1024x2096_0_1_2 (broadcastInDim S1x1024x2096 ![1, 2] bcast_S1024x2096_S1x1024x2096_1_2 (x0))) (broadcastInDim S6x1024x2096 ![0, 1, 2] bcast_S6x1x2096_S6x1024x2096_0_1_2 (broadcastInDim S6x1x2096 ![0, 2] bcast_S6x2096_S6x1x2096_0_2 (x1)))) (x2)) (subf (F := Ideal) (φ := .f32) (broadcastInDim S6x1024x2096 ![0, 1, 2] bcast_S1x1024x2096_S6x1024x2096_0_1_2 (broadcastInDim S1x1024x2096 ![1, 2] bcast_S1024x2096_S1x1024x2096_1_2 (x0))) (broadcastInDim S6x1024x2096 ![0, 1, 2] bcast_S6x1x2096_S6x1024x2096_0_1_2 (broadcastInDim S6x1x2096 ![0, 2] bcast_S6x2096_S6x1x2096_0_2 (x1))))) (constant (F := Ideal) S_ .f32 0x00000000#32) reducesTo_S6x1024x2096_S6x1024_d2 h_S_) (concatenate S1024x2 1 [⟨S1024x1, (broadcastInDim S1024x1 ![0] bcast_S1024_S1024x1_0 (select (cmpi .slt (lab) (broadcastInDim S1024 ![] bcast_S_S1024 (constantI S_ 32 0#32))) (addi (lab) (broadcastInDim S1024 ![] bcast_S_S1024 (constantI S_ 32 6#32))) (lab)))⟩, ⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩] concatenates_S1024x1_S1024x1_S1024x2_d1)
      = tail (Read.val_main_v7 (F := Ideal) x0 x1 x2) lab :=
  (Read.val_main_v22_eq (F := Ideal) x0 x1 x2 lab).trans rfl

end Cert.ReferenceIdeal.RefAt

end
-- ==== Proof.Ideal.TailAt.lean ====
/-
  The last stretch of host operations, read at the result buffer.

  After the kernel region @main wraps each sample's label and each sample's number into range, joins them into
  (class, sample) pairs, and gathers the 6 x 1024 array of quadratic forms at those pairs: nineteen operations, the
  same ones the reference ends with. Their composed term depends on two buffers only: the region's result array,
  which the region leaves at what the pipeline's write-backs wrote, and the labels, which no item of @main writes.
  So the result buffer ends at the reference's own tail function applied to those two: the same term on both sides,
  never evaluated.
-/
import proofs.«171433_j4939212390990_1_alg».proof.Proof.Ideal.Launch
import proofs.«171433_j4939212390990_1_alg».proof.Proof.Ideal.RefAt
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

section Tail
variable (m : (ℓ : Loc nD τ sig) → Buf (Elt Ideal) ℓ)

/-- No item of @main writes the labels: when the region is left they are as launched. -/
theorem W7_arg3 (c : Dev nD) : W7 (F := Ideal) m c main_arg3 = m ((c : Thread nD τ).loc main_arg3) :=
  (W7_of_ne m c main_arg3 (by decide)).trans <| (W6_of m c main_arg3 (by decide)).trans <| (W5_of m c main_arg3 (by decide)).trans <|
    (W4_of m c main_arg3 (by decide)).trans <| (W3_of m c main_arg3 (by decide)).trans <| (W2_of m c main_arg3 (by decide)).trans <|
      (W1_of m c main_arg3 (by decide)).trans rfl

set_option maxHeartbeats 2000000 in
/-- At the end the result buffer holds the tail function of the region's result array and the launched labels: each of
    the nineteen operations' results is its function of its operands' contents, the two buffers they start from are
    the result array as the write-backs left it and the labels as launched, and the composed term is the tail's. -/
theorem result_at (c : Dev nD) :
    W8 (F := Ideal) m c main_v18 = Cert.ReferenceIdeal.RefAt.tail ((dats (Vin (F := Ideal) m) c).arrAt 5 cfg0.N) (m ((c : Thread nD τ).loc main_arg3)) := by
  show StableHlo.after hostOps1 (W7 m c) (Proc.devRef .tc main_v18) = _
  dsimp only [hostOps1]
  after_results
  rw [W7_v3 m c, W7_arg3 m c]
  unfold Cert.ReferenceIdeal.RefAt.tail
  rfl

end Tail

end Cert.KernelIdeal.Hand

end
-- ==== Proof.Ideal.OutAt.lean ====
/-
  The result array after the run, as one function of its index.

  The grid has 4 x 6 x 6 = 144 points; the point at position t = 36 * b + 6 * n + k works on batch tile b (256 samples).
  The result array holds 6 classes by 1024 samples and is written back in blocks of 6 x 256, the block at position t
  being block (0, t / 36); it is written back only at the last position of a batch tile, t = 36 * b + 35, with what the
  body left in the result buffer there. So the four write-backs fill four disjoint column blocks that tile the array,
  and sample s of class c ends holding what the last position of s's batch tile, 36 * (s / 256) + 35, left in the
  result buffer at row c and column s mod 256.
-/
import proofs.«171433_j4939212390990_1_alg».proof.Proof.Ideal.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The result window's block index, decided once over the grid -/

/-- At position t the result window is on block (0, t / 36): all six classes, batch tile t / 36. -/
theorem resultBlock_index : ∀ t : Fin cfg0.N, win0_5.index t (0 : Fin 2) = 0 ∧ win0_5.index t (1 : Fin 2) = t.val / 36 :=
  (by decide +kernel : ∀ t : Fin grid0.N, win0_5.index t (0 : Fin 2) = 0 ∧ win0_5.index t (1 : Fin 2) = t.val / 36)

section Out
variable (V : (c : Dev nD) → (b : Ref sig .tc) → Buf (Elt F) ((c : Thread nD τ).loc b))

/-! ## The function the array ends holding -/

/-- The last position of the batch tile that holds sample y 1 is a position of the grid: y 1 < 1024 gives a tile
    number at most 3, and 36 * 3 + 35 = 143 < 144. -/
theorem lastPoint_lt (y : S6x1024.Idx) : 36 * ((y 1).val / 256) + 35 < cfg0.N := by
  have h1 : (y 1).val < 1024 := idx2_lt1 y
  have hN : cfg0.N = 144 := N_0
  omega

/-- At (class, sample): what the last position of the sample's batch tile left in the result buffer, at the class's
    row and at the sample's column inside its tile. -/
def Gq (c : Dev nD) : S6x1024.Idx → Elt F .f32 := fun y =>
  (outsAt0 V c (36 * ((y 1).val / 256) + 35) (lastPoint_lt y)).1
    (ix2 (⟨(y 0).val, idx2_lt0 y⟩ : Fin 6) (⟨(y 1).val % 256, Nat.mod_lt _ (by decide)⟩ : Fin 256))

/-- The same value named by any position n and buffer index x that agree with the array index y: n is the last position
    of y's batch tile, x has y's class and y's column inside the tile. -/
theorem Gq_apply (c : Dev nD) (y : S6x1024.Idx) (n : ℕ) (hn : n < cfg0.N) (x : S6x256.Idx)
    (h : n = 36 * ((y 1).val / 256) + 35) (hx0 : (x 0).val = (y 0).val) (hx1 : (x 1).val = (y 1).val % 256) :
    Gq V c y = (outsAt0 V c n hn).1 x := by
  subst h
  unfold Gq
  refine congrArg (outsAt0 V c _ _).1 (funext fun a => Fin.ext ?_)
  match a with
  | ⟨0, _⟩ => exact hx0.symm
  | ⟨1, _⟩ => exact hx1.symm

/-! ## What a write-back writes is its block of that function -/

/-- At a position t that writes back (t mod 36 = 35), element (r, j) of the block sits in the array at class
    0 * 6 + r = r and sample (t / 36) * 256 + j. Its batch tile is t / 36, whose last position 36 * (t / 36) + 35 is t
    itself, and its column inside the tile is j: so the block of Gq under the window is what the body left at t. -/
theorem writtenBack_eq (c : Dev nD) (t : Fin cfg0.N) (hf : (cfg0.win 5).flush t = true) :
    (dats V c).flushed 5 t = ((cfg0.win 5).blk t).view.read (Elt F) (Gq V c) := by
  show (cfg0.win 5).cut (grid0.coords t) ((dats V c).after 5 t) = _
  rw [after0_5]
  obtain ⟨e0, e1⟩ := resultBlock_index t
  have h35 : t.val % 36 = 35 := (flush0_5 t).mp hf
  funext j
  have hj0 : (j 0).val < 6 := (j 0).isLt
  have hj1 : (j 1).val < 256 := (j 1).isLt
  refine (Gq_apply V c (((cfg0.win 5).blk t).view.emb j) t.val t.isLt _ ?_ ?_ ?_).symm
  · show t.val = 36 * ((win0_5.index t (1 : Fin 2) * 256 + 1 * (j 1).val) / 256) + 35
    rw [e1]; omega
  · show (j 0).val = win0_5.index t (0 : Fin 2) * 6 + 1 * (j 0).val
    rw [e0]; omega
  · show (j 1).val = (win0_5.index t (1 : Fin 2) * 256 + 1 * (j 1).val) % 256
    rw [e1]; omega

/-! ## The written-back blocks tile the array -/

/-- An index of the array is in position t's block iff each coordinate is in the block's range on its axis. -/
theorem mem_resultBlock (t : Fin cfg0.N) (i : S6x1024.Idx) :
    i ∈ ((cfg0.win 5).blk t).view.set ↔ ∀ a : Fin 2, win0_5.index t a * S6x256.size a ≤ (i a).val ∧ (i a).val < win0_5.index t a * S6x256.size a + S6x256.size a := by
  show i ∈ ((View.whole main_v3).slice (win0_5.rect t)).set ↔ _
  rw [View.set_slice_whole, Rect.mem_set_unit]
  exact Iff.rfl

/-- Every (class, sample) is in the block of a position that writes back: the last position of the sample's batch tile,
    t = 36 * (s / 256) + 35. There t mod 36 = 35, t / 36 = s / 256, and (s / 256) * 256 <= s < (s / 256) * 256 + 256. -/
theorem resultBlocks_cover (i : S6x1024.Idx) : ∃ t : Fin cfg0.N, (cfg0.win 5).flush t = true ∧ i ∈ ((cfg0.win 5).blk t).view.set := by
  obtain ⟨t, ht⟩ : ∃ t : Fin cfg0.N, t.val = 36 * ((i 1).val / 256) + 35 := ⟨⟨_, lastPoint_lt i⟩, rfl⟩
  obtain ⟨e0, e1⟩ := resultBlock_index t
  have hi0 : (i 0).val < 6 := idx2_lt0 i
  have hi1 : (i 1).val < 1024 := idx2_lt1 i
  refine ⟨t, (flush0_5 t).mpr (by omega), ?_⟩
  rw [mem_resultBlock]
  intro a
  match a with
  | ⟨0, _⟩ =>
    show win0_5.index t (0 : Fin 2) * 6 ≤ (i 0).val ∧ (i 0).val < win0_5.index t (0 : Fin 2) * 6 + 6
    rw [e0]; omega
  | ⟨1, _⟩ =>
    show win0_5.index t (1 : Fin 2) * 256 ≤ (i 1).val ∧ (i 1).val < win0_5.index t (1 : Fin 2) * 256 + 256
    rw [e1, ht]; omega

/-! ## The array after the run -/

/-- After the run the result array holds Gq: every write-back writes its block of Gq, and the blocks cover the array. -/
theorem arrAt5_eq (c : Dev nD) : (dats V c).arrAt 5 cfg0.N = Gq V c :=
  (dats V c).arrAt_eq_of_cover 5 (Gq V c) (fun t hf => writtenBack_eq V c t hf) resultBlocks_cover

end Out

end Cert.KernelIdeal.Hand

end
-- ==== Proof.Ideal.Pieces.lean ====
/-
  What each case of the body leaves, named by the kernel's arithmetic. Each case's stores go through the whole
  rectangle of the buffer they write, so the buffer afterwards holds the last store's value, and a load in between
  reads the value stored just before. With the staged blocks x0 … x4 and the scratch contents carried in (the partial
  products xs0, the row sums xs1) this gives each buffer's contents as one of the skeleton's four values: the zero row
  sums, the zero partial products, the partial products plus the row tile's product, the row sums plus the completed
  column tile's contribution.
-/
import proofs.«171433_j4939212390990_1_alg».proof.Proof.Ideal.Outs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole rank-2 rectangle, as the constant function. -/
theorem pieces_hz2 : (![0, 0] : Fin 2 → Nat) = fun _ => 0 := funext fun a => by fin_cases a <;> rfl
/-- The zero offsets of a whole rank-3 rectangle, as the constant function. -/
theorem pieces_hz3 : (![0, 0, 0] : Fin 3 → Nat) = fun _ => 0 := funext fun a => by fin_cases a <;> rfl

/-- At the first point of a batch tile the partial products are zeroed, then the row tile's product is added to the zeros. -/
theorem piece_A_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) :
    sout0_A_0 c i arg3 harg3 arg4 harg4 arg5 harg5 arg6 harg6 arg7 harg7 arg8 harg8 arg9 harg9 arg10 harg10 hc0 hc1 hc2 hc3 x0 x1 x2 x3 x4 = k0_pay3 x0 x2 x4 (k0_pay2 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 hc2 hc3 x0 x1 x2 x3 x4)]
  unfold kernelRun0_A
  dsimp only
  sl_unfold_words
  rw [View.canon_cons_unit_zero (S := S6x256x384) pieces_hz3]
  simp only [View.readAt_eq_ld, harg3.read_unread, harg4.read_unread, harg5.read_unread, harg6.read_unread, harg7.read_unread,
    harg9.read_unread, harg10.read_unread, View.readCov_unit_zero (S := S6x256x384) _ pieces_hz3, View.readCov_unit_zero (S := S6x256) _ pieces_hz2,
    View.ld_unit_zero (S := S256x384) pieces_hz2, View.ld_unit_zero (S := S6x384) pieces_hz2, View.ld_unit_zero (S := S6x384x384) pieces_hz3,
    View.ld_unit_zero (S := S6x256x384) pieces_hz3, View.ld_unit_zero (S := S6x256) pieces_hz2]

/-- At the first point of a batch tile the row sums are zeroed. -/
theorem piece_A_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) :
    sout0_A_1 c i arg3 harg3 arg4 harg4 arg5 harg5 arg6 harg6 arg7 harg7 arg8 harg8 arg9 harg9 arg10 harg10 hc0 hc1 hc2 hc3 x0 x1 x2 x3 x4 = k0_pay1 (F := F) := by
  unfold sout0_A_1
  rw [View.read_writes_eq_canon _ _ _ (scover0_A_1 c i arg3 harg3 arg4 harg4 arg5 harg5 arg6 harg6 arg7 harg7 arg8 harg8 arg9 harg9 arg10 harg10 hc0 hc1 hc2 hc3 x0 x1 x2 x3 x4)]
  unfold kernelRun0_A
  dsimp only
  sl_unfold_words
  rw [View.canon_unit_zero (S := S6x256) pieces_hz2]

/-- At row tile 0 of a later column tile the partial products are zeroed, then the row tile's product is added to the zeros. -/
theorem piece_B_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) :
    sout0_B_0 c i arg3 harg3 arg4 harg4 arg5 harg5 arg6 harg6 arg7 harg7 arg8 harg8 arg9 harg9 arg10 harg10 hc0 hc1 hc2 hc3 x0 x1 x2 x3 x4 = k0_pay3 x0 x2 x4 (k0_pay2 (F := F)) := by
  unfold sout0_B_0
  rw [View.read_writes_eq_canon _ _ _ (scover0_B_0 c i arg3 harg3 arg4 harg4 arg5 harg5 arg6 harg6 arg7 harg7 arg8 harg8 arg9 harg9 arg10 harg10 hc0 hc1 hc2 hc3 x0 x1 x2 x3 x4)]
  unfold kernelRun0_B
  dsimp only
  sl_unfold_words
  rw [View.canon_cons_unit_zero (S := S6x256x384) pieces_hz3]
  simp only [View.readAt_eq_ld, harg3.read_unread, harg4.read_unread, harg5.read_unread, harg6.read_unread, harg7.read_unread,
    harg9.read_unread, harg10.read_unread, View.readCov_unit_zero (S := S6x256x384) _ pieces_hz3, View.readCov_unit_zero (S := S6x256) _ pieces_hz2,
    View.ld_unit_zero (S := S256x384) pieces_hz2, View.ld_unit_zero (S := S6x384) pieces_hz2, View.ld_unit_zero (S := S6x384x384) pieces_hz3,
    View.ld_unit_zero (S := S6x256x384) pieces_hz3, View.ld_unit_zero (S := S6x256) pieces_hz2]

/-- At a row tile 0 < k < 5 the row tile's product is added to the partial products carried in. -/
theorem piece_C_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : ¬cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) :
    sout0_C_0 c i arg3 harg3 arg4 harg4 arg5 harg5 arg6 harg6 arg7 harg7 arg8 harg8 arg9 harg9 arg10 harg10 hc0 hc1 hc2 hc3 x0 x1 x2 x3 x4 xs0 = k0_pay3 x0 x2 x4 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 hc2 hc3 x0 x1 x2 x3 x4 xs0)]
  unfold kernelRun0_C
  dsimp only
  sl_unfold_words
  rw [View.canon_unit_zero (S := S6x256x384) pieces_hz3]
  simp only [View.readAt_eq_ld, harg3.read_unread, harg4.read_unread, harg5.read_unread, harg6.read_unread, harg7.read_unread,
    harg9.read_unread, harg10.read_unread, View.readCov_unit_zero (S := S6x256x384) _ pieces_hz3, View.readCov_unit_zero (S := S6x256) _ pieces_hz2,
    View.ld_unit_zero (S := S256x384) pieces_hz2, View.ld_unit_zero (S := S6x384) pieces_hz2, View.ld_unit_zero (S := S6x384x384) pieces_hz3,
    View.ld_unit_zero (S := S6x256x384) pieces_hz3, View.ld_unit_zero (S := S6x256) pieces_hz2]

/-- At row tile 5 the last row tile's product is added to the partial products carried in; -/
theorem piece_D_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) :
    sout0_D_0 c i arg3 harg3 arg4 harg4 arg5 harg5 arg6 harg6 arg7 harg7 arg8 harg8 arg9 harg9 arg10 harg10 hc0 hc1 hc2 hc3 x0 x1 x2 x3 x4 xs0 xs1 = k0_pay3 x0 x2 x4 xs0 := by
  unfold sout0_D_0
  rw [View.read_writes_eq_canon _ _ _ (scover0_D_0 c i arg3 harg3 arg4 harg4 arg5 harg5 arg6 harg6 arg7 harg7 arg8 harg8 arg9 harg9 arg10 harg10 hc0 hc1 hc2 hc3 x0 x1 x2 x3 x4 xs0 xs1)]
  unfold kernelRun0_D
  dsimp only
  sl_unfold_words
  rw [View.canon_unit_zero (S := S6x256x384) pieces_hz3]
  simp only [View.readAt_eq_ld, harg3.read_unread, harg4.read_unread, harg5.read_unread, harg6.read_unread, harg7.read_unread,
    harg9.read_unread, harg10.read_unread, View.readCov_unit_zero (S := S6x256x384) _ pieces_hz3, View.readCov_unit_zero (S := S6x256) _ pieces_hz2,
    View.ld_unit_zero (S := S256x384) pieces_hz2, View.ld_unit_zero (S := S6x384) pieces_hz2, View.ld_unit_zero (S := S6x384x384) pieces_hz3,
    View.ld_unit_zero (S := S6x256x384) pieces_hz3, View.ld_unit_zero (S := S6x256) pieces_hz2]

/-- and the completed products, times the second difference and summed over the column tile, join the row sums carried in. -/
theorem piece_D_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : ¬cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) :
    sout0_D_1 c i arg3 harg3 arg4 harg4 arg5 harg5 arg6 harg6 arg7 harg7 arg8 harg8 arg9 harg9 arg10 harg10 hc0 hc1 hc2 hc3 x0 x1 x2 x3 x4 xs0 xs1 = k0_pay4 x1 x3 (k0_pay3 x0 x2 x4 xs0) xs1 := by
  unfold sout0_D_1
  rw [View.read_writes_eq_canon _ _ _ (scover0_D_1 c i arg3 harg3 arg4 harg4 arg5 harg5 arg6 harg6 arg7 harg7 arg8 harg8 arg9 harg9 arg10 harg10 hc0 hc1 hc2 hc3 x0 x1 x2 x3 x4 xs0 xs1)]
  unfold kernelRun0_D
  dsimp only
  sl_unfold_words
  rw [View.canon_unit_zero (S := S6x256) pieces_hz2]
  simp only [View.readAt_eq_ld, harg3.read_unread, harg4.read_unread, harg5.read_unread, harg6.read_unread, harg7.read_unread,
    harg9.read_unread, harg10.read_unread, View.readCov_unit_zero (S := S6x256x384) _ pieces_hz3, View.readCov_unit_zero (S := S6x256) _ pieces_hz2,
    View.ld_unit_zero (S := S256x384) pieces_hz2, View.ld_unit_zero (S := S6x384) pieces_hz2, View.ld_unit_zero (S := S6x384x384) pieces_hz3,
    View.ld_unit_zero (S := S6x256x384) pieces_hz3, View.ld_unit_zero (S := S6x256) pieces_hz2]

/-- At the last point of a batch tile the partial products are completed as at any row tile 5, -/
theorem piece_E_0 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) :
    sout0_E_0 c i arg3 harg3 arg4 harg4 arg5 harg5 arg6 harg6 arg7 harg7 arg8 harg8 arg9 harg9 arg10 harg10 hc0 hc1 hc2 hc3 x0 x1 x2 x3 x4 xs0 xs1 = k0_pay3 x0 x2 x4 xs0 := by
  unfold sout0_E_0
  rw [View.read_writes_eq_canon _ _ _ (scover0_E_0 c i arg3 harg3 arg4 harg4 arg5 harg5 arg6 harg6 arg7 harg7 arg8 harg8 arg9 harg9 arg10 harg10 hc0 hc1 hc2 hc3 x0 x1 x2 x3 x4 xs0 xs1)]
  unfold kernelRun0_E
  dsimp only
  sl_unfold_words
  rw [View.canon_unit_zero (S := S6x256x384) pieces_hz3]
  simp only [View.readAt_eq_ld, harg3.read_unread, harg4.read_unread, harg5.read_unread, harg6.read_unread, harg7.read_unread,
    harg9.read_unread, harg10.read_unread, View.readCov_unit_zero (S := S6x256x384) _ pieces_hz3, View.readCov_unit_zero (S := S6x256) _ pieces_hz2,
    View.ld_unit_zero (S := S256x384) pieces_hz2, View.ld_unit_zero (S := S6x384) pieces_hz2, View.ld_unit_zero (S := S6x384x384) pieces_hz3,
    View.ld_unit_zero (S := S6x256x384) pieces_hz3, View.ld_unit_zero (S := S6x256) pieces_hz2]

/-- the row sums are completed as at any row tile 5, -/
theorem piece_E_1 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) :
    sout0_E_1 c i arg3 harg3 arg4 harg4 arg5 harg5 arg6 harg6 arg7 harg7 arg8 harg8 arg9 harg9 arg10 harg10 hc0 hc1 hc2 hc3 x0 x1 x2 x3 x4 xs0 xs1 = k0_pay4 x1 x3 (k0_pay3 x0 x2 x4 xs0) xs1 := by
  unfold sout0_E_1
  rw [View.read_writes_eq_canon _ _ _ (scover0_E_1 c i arg3 harg3 arg4 harg4 arg5 harg5 arg6 harg6 arg7 harg7 arg8 harg8 arg9 harg9 arg10 harg10 hc0 hc1 hc2 hc3 x0 x1 x2 x3 x4 xs0 xs1)]
  unfold kernelRun0_E
  dsimp only
  sl_unfold_words
  rw [View.canon_unit_zero (S := S6x256) pieces_hz2]
  simp only [View.readAt_eq_ld, harg3.read_unread, harg4.read_unread, harg5.read_unread, harg6.read_unread, harg7.read_unread,
    harg9.read_unread, harg10.read_unread, View.readCov_unit_zero (S := S6x256x384) _ pieces_hz3, View.readCov_unit_zero (S := S6x256) _ pieces_hz2,
    View.ld_unit_zero (S := S256x384) pieces_hz2, View.ld_unit_zero (S := S6x384) pieces_hz2, View.ld_unit_zero (S := S6x384x384) pieces_hz3,
    View.ld_unit_zero (S := S6x256x384) pieces_hz3, View.ld_unit_zero (S := S6x256) pieces_hz2]

/-- and the completed row sums are what the result window's buffer receives. -/
theorem piece_E_5 (c : Dev nD) (i : grid0.Coords) (arg3 : Memref sig .tc .vmem S256x384 .f32) (harg3 : arg3.IsWhole) (arg4 : Memref sig .tc .vmem S256x384 .f32) (harg4 : arg4.IsWhole) (arg5 : Memref sig .tc .vmem S6x384 .f32) (harg5 : arg5.IsWhole) (arg6 : Memref sig .tc .vmem S6x384 .f32) (harg6 : arg6.IsWhole) (arg7 : Memref sig .tc .vmem S6x384x384 .f32) (harg7 : arg7.IsWhole) (arg8 : Memref sig .tc .vmem S6x256 .f32) (harg8 : arg8.IsWhole) (arg9 : Memref sig .tc .vmem S6x256x384 .f32) (harg9 : arg9.IsWhole) (arg10 : Memref sig .tc .vmem S6x256 .f32) (harg10 : arg10.IsWhole) (hc0 : ¬cond0_0 i) (hc1 : ¬cond0_1 i) (hc2 : cond0_2 i) (hc3 : cond0_3 i)
    (x0 : Vec F S256x384 .f32) (x1 : Vec F S256x384 .f32) (x2 : Vec F S6x384 .f32) (x3 : Vec F S6x384 .f32) (x4 : Vec F S6x384x384 .f32) (xs0 : Vec F S6x256x384 .f32) (xs1 : Vec F S6x256 .f32) :
    out0_E_5 c i arg3 harg3 arg4 harg4 arg5 harg5 arg6 harg6 arg7 harg7 arg8 harg8 arg9 harg9 arg10 harg10 hc0 hc1 hc2 hc3 x0 x1 x2 x3 x4 xs0 xs1 = k0_pay4 x1 x3 (k0_pay3 x0 x2 x4 xs0) xs1 := by
  unfold out0_E_5
  rw [View.read_writes_eq_canon _ _ _ (cover0_E_5 c i arg3 harg3 arg4 harg4 arg5 harg5 arg6 harg6 arg7 harg7 arg8 harg8 arg9 harg9 arg10 harg10 hc0 hc1 hc2 hc3 x0 x1 x2 x3 x4 xs0 xs1)]
  unfold kernelRun0_E
  dsimp only
  sl_unfold_words
  rw [View.canon_unit_zero (S := S6x256) pieces_hz2]
  simp only [View.readAt_eq_ld, harg3.read_unread, harg4.read_unread, harg5.read_unread, harg6.read_unread, harg7.read_unread,
    harg9.read_unread, harg10.read_unread, View.readCov_unit_zero (S := S6x256x384) _ pieces_hz3, View.readCov_unit_zero (S := S6x256) _ pieces_hz2,
    View.ld_unit_zero (S := S256x384) pieces_hz2, View.ld_unit_zero (S := S6x384) pieces_hz2, View.ld_unit_zero (S := S6x384x384) pieces_hz3,
    View.ld_unit_zero (S := S6x256x384) pieces_hz3, View.ld_unit_zero (S := S6x256) pieces_hz2]

end Cert.KernelIdeal.Hand

end
-- ==== Proof.Ideal.PayloadAt.lean ====
/-
  The kernel body's four stored values, read at an index, at the extended reals.

  One grid step holds a tile of 256 samples by 384 features, the six classes' means on those 384 features, and the six
  classes' 384 x 384 blocks of the inverse covariance. Write d[c, r, i] = X[r, i] - mean[c, i] for the deviation of
  sample r from the mean of class c on feature i. The body stores

    * zero into the result tile q and into the scratch tile t when a new sweep begins;
    * t[c, r, j] + sum_i d[c, r, i] * Sinv[c, i, j]   into the scratch tile (a batched product over the class axis);
    * q[c, r] + sum_j t[c, r, j] * d[c, r, j]         into the result tile (a sum along the feature axis).

  At the extended reals every operation is exact and the change of format before the product is the identity, so
  each stored value is the plain sum above. The deviations are formed by viewing the sample tile as [1, 256, 384] and
  the class means as [6, 1, 384] and repeating each over the missing axis: read at (c, r, i) these are X[r, i] and
  mean[c, i].
-/
import proofs.«171433_j4939212390990_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Defs

noncomputable section

namespace Cert.KernelIdeal.Hand

open Cert.KernelIdeal Cert.KernelIdeal.Gen Idealize.ShloMosaic Idealize.ShloMosaic.ValueIdx

/-! ## The two zero fills -/

/-- The value that clears the result tile is zero at every (class, sample). -/
theorem pay1_at (y : S6x256.Idx) : k0_pay1 (F := Ideal) y = (0 : EReal) := by
  unfold k0_pay1
  rw [shapeCast_self]
  exact Ideal.ofBits_zero_f32

/-- The value that clears the scratch tile is zero at every (class, sample, feature). -/
theorem pay2_at (y : S6x256x384.Idx) : k0_pay2 (F := Ideal) y = (0 : EReal) := by
  unfold k0_pay2
  rw [shapeCast_self]
  exact Ideal.ofBits_zero_f32

/-! ## The two operands of the deviation, read at (class, sample, feature) -/

/-- The sample tile viewed as [1, 256, 384] and repeated over the six classes reads, at (c, r, i), the sample's
    feature X[r, i]: the class coordinate is dropped. -/
theorem rows_at (x : Vec Ideal S256x384 .f32) (cc : Fin 6) (r : Fin 256) (i : Fin 384) :
    broadcastTo S6x256x384 (shapeCast S1x256x384 x shapeCasts_S256x384_S1x256x384) broadcasts_S1x256x384_S6x256x384 (ix3 cc r i)
      = x (ix2 r i) := by
  refine (broadcastTo_apply _ broadcasts_S1x256x384_S6x256x384 (ix3 cc r i) (ix3 (0 : Fin 1) r i) (fun a => ?_)).trans ?_
  · match a with
    | ⟨0, _⟩ => show 0 = if (1 : Nat) = 1 then 0 else cc.val; rw [if_pos rfl]
    | ⟨1, _⟩ => show r.val = if (256 : Nat) = 1 then 0 else r.val; rw [if_neg (by decide)]
    | ⟨2, _⟩ => show i.val = if (384 : Nat) = 1 then 0 else i.val; rw [if_neg (by decide)]
  · exact shapeCast_ab_1ab_apply x shapeCasts_S256x384_S1x256x384 0 r i

/-- The class means viewed as [6, 1, 384] and repeated over the 256 samples read, at (c, r, i), the mean[c, i]: the
    sample coordinate is dropped. The view keeps the row-major position: c * 384 + i = (c * 1 + 0) * 384 + i. -/
theorem means_at (m : Vec Ideal S6x384 .f32) (cc : Fin 6) (r : Fin 256) (i : Fin 384) :
    broadcastTo S6x256x384 (shapeCast S6x1x384 m shapeCasts_S6x384_S6x1x384) broadcasts_S6x1x384_S6x256x384 (ix3 cc r i)
      = m (ix2 cc i) := by
  refine (broadcastTo_apply _ broadcasts_S6x1x384_S6x256x384 (ix3 cc r i) (ix3 cc (0 : Fin 1) i) (fun a => ?_)).trans ?_
  · match a with
    | ⟨0, _⟩ => show cc.val = if (6 : Nat) = 1 then 0 else cc.val; rw [if_neg (by decide)]
    | ⟨1, _⟩ => show 0 = if (1 : Nat) = 1 then 0 else r.val; rw [if_pos rfl]
    | ⟨2, _⟩ => show i.val = if (384 : Nat) = 1 then 0 else i.val; rw [if_neg (by decide)]
  · exact shapeCast_apply m shapeCasts_S6x384_S6x1x384 (ix3 cc (0 : Fin 1) i) (ix2 cc i) (by
      rw [Shape.rowMajor_val_two, Shape.rowMajor_val_three]
      show cc.val * 384 + i.val = (cc.val * 1 + 0) * 384 + i.val
      omega)

/-! ## The batched product, read at (class, sample, feature)

The product contracts axis 2 of the left operand with axis 1 of the right one and carries axis 0 of both as the batch
axis. At output index (c, r, j) and contraction coordinate k the left operand is read at (c, r, k) and the right one at
(c, k, j): one statement per axis of each operand, then the sum over the one-axis contraction index is re-indexed by
its coordinate. -/

/-- Left operand, batch axis: the output's class. -/
theorem lhs_axis0 (i : S6x256x384.Idx) (q : dot_S6x256x384_S6x384x384_S6x256x384_2_1_1_2_0_0.contr.Idx) :
    (dot_S6x256x384_S6x384x384_S6x256x384_2_1_1_2_0_0.lhsIdx i q 0).val = (i 0).val := by
  unfold DotDims.lhsIdx
  rw [dif_pos (show (0 : Fin S6x256x384.rank) ∈ dot_S6x256x384_S6x384x384_S6x256x384_2_1_1_2_0_0.lhsBatch by decide)]
  rfl
/-- Left operand, free axis: the output's sample. -/
theorem lhs_axis1 (i : S6x256x384.Idx) (q : dot_S6x256x384_S6x384x384_S6x256x384_2_1_1_2_0_0.contr.Idx) :
    (dot_S6x256x384_S6x384x384_S6x256x384_2_1_1_2_0_0.lhsIdx i q 1).val = (i 1).val := by
  unfold DotDims.lhsIdx
  rw [dif_neg (show ¬(1 : Fin S6x256x384.rank) ∈ dot_S6x256x384_S6x384x384_S6x256x384_2_1_1_2_0_0.lhsBatch by decide), dif_pos (show (1 : Fin S6x256x384.rank) ∈ dot_S6x256x384_S6x384x384_S6x256x384_2_1_1_2_0_0.lhsNonContracting by decide)]
  rfl
/-- Left operand, contracted axis: the contraction coordinate. -/
theorem lhs_axis2 (i : S6x256x384.Idx) (q : dot_S6x256x384_S6x384x384_S6x256x384_2_1_1_2_0_0.contr.Idx) :
    (dot_S6x256x384_S6x384x384_S6x256x384_2_1_1_2_0_0.lhsIdx i q 2).val = (q ⟨0, by decide⟩).val :=
  dot_S6x256x384_S6x384x384_S6x256x384_2_1_1_2_0_0.lhsIdx_val_of_single rfl i q
/-- Right operand, batch axis: the output's class. -/
theorem rhs_axis0 (i : S6x256x384.Idx) (q : dot_S6x256x384_S6x384x384_S6x256x384_2_1_1_2_0_0.contr.Idx) :
    (dot_S6x256x384_S6x384x384_S6x256x384_2_1_1_2_0_0.rhsIdx i q 0).val = (i 0).val := by
  unfold DotDims.rhsIdx
  rw [dif_pos (show (0 : Fin S6x384x384.rank) ∈ dot_S6x256x384_S6x384x384_S6x256x384_2_1_1_2_0_0.rhsBatch by decide)]
  rfl
/-- Right operand, contracted axis: the contraction coordinate. -/
theorem rhs_axis1 (i : S6x256x384.Idx) (q : dot_S6x256x384_S6x384x384_S6x256x384_2_1_1_2_0_0.contr.Idx) :
    (dot_S6x256x384_S6x384x384_S6x256x384_2_1_1_2_0_0.rhsIdx i q 1).val = (q ⟨0, by decide⟩).val :=
  dot_S6x256x384_S6x384x384_S6x256x384_2_1_1_2_0_0.rhsIdx_val_of_single rfl i q
/-- Right operand, free axis: the output's feature. -/
theorem rhs_axis2 (i : S6x256x384.Idx) (q : dot_S6x256x384_S6x384x384_S6x256x384_2_1_1_2_0_0.contr.Idx) :
    (dot_S6x256x384_S6x384x384_S6x256x384_2_1_1_2_0_0.rhsIdx i q 2).val = (i 2).val := by
  unfold DotDims.rhsIdx
  rw [dif_neg (show ¬(2 : Fin S6x384x384.rank) ∈ dot_S6x256x384_S6x384x384_S6x256x384_2_1_1_2_0_0.rhsBatch by decide), dif_pos (show (2 : Fin S6x384x384.rank) ∈ dot_S6x256x384_S6x384x384_S6x256x384_2_1_1_2_0_0.rhsNonContracting by decide)]
  rfl

/-- The batched product into a zero accumulator is, at (c, r, j), the sum over the contracted feature i of
    A[c, r, i] * B[c, i, j]. -/
theorem matmul_at (A : FVec Ideal S6x256x384 .bf16) (B : FVec Ideal S6x384x384 .bf16) (cc : Fin 6) (r : Fin 256) (j : Fin 384) :
    matmul dot_S6x256x384_S6x384x384_S6x256x384_2_1_1_2_0_0 none A B (constant (F := Ideal) S6x256x384 .f32 0x00000000#32) (ix3 cc r j)
      = ∑ i : Fin 384, A (ix3 cc r i) * B (ix3 cc i j) := by
  simp only [matmul]
  rw [Ideal.matmul_constant_zero_apply, ← Equiv.sum_comp (contrEquiv1 dot_S6x256x384_S6x384x384_S6x256x384_2_1_1_2_0_0 384 rfl rfl).symm]
  refine Finset.sum_congr rfl fun k _ => ?_
  have hk := contrEquiv1_symm_val dot_S6x256x384_S6x384x384_S6x256x384_2_1_1_2_0_0 384 rfl rfl k
  have el : dot_S6x256x384_S6x384x384_S6x256x384_2_1_1_2_0_0.lhsIdx (ix3 cc r j) ((contrEquiv1 dot_S6x256x384_S6x384x384_S6x256x384_2_1_1_2_0_0 384 rfl rfl).symm k) = ix3 cc r k := funext fun a => Fin.ext (by
    match a with
    | ⟨0, _⟩ => exact lhs_axis0 _ _
    | ⟨1, _⟩ => exact lhs_axis1 _ _
    | ⟨2, _⟩ => exact (lhs_axis2 _ _).trans hk)
  have er : dot_S6x256x384_S6x384x384_S6x256x384_2_1_1_2_0_0.rhsIdx (ix3 cc r j) ((contrEquiv1 dot_S6x256x384_S6x384x384_S6x256x384_2_1_1_2_0_0 384 rfl rfl).symm k) = ix3 cc k j := funext fun a => Fin.ext (by
    match a with
    | ⟨0, _⟩ => exact rhs_axis0 _ _
    | ⟨1, _⟩ => exact (rhs_axis1 _ _).trans hk
    | ⟨2, _⟩ => exact rhs_axis2 _ _)
  rw [el, er]

/-! ## The scratch tile's update -/

/-- The value stored into the scratch tile: what it held plus, at (c, r, j), the sum over the tile's features i of the
    deviation d[c, r, i] = X[r, i] - mean[c, i] times Sinv[c, i, j]. -/
theorem pay3_at (x0 : Vec Ideal S256x384 .f32) (x2 : Vec Ideal S6x384 .f32) (x4 : Vec Ideal S6x384x384 .f32) (ts : Vec Ideal S6x256x384 .f32) (cc : Fin 6) (r : Fin 256) (j : Fin 384) :
    k0_pay3 (F := Ideal) x0 x2 x4 ts (ix3 cc r j) = ts (ix3 cc r j) + ∑ i : Fin 384, (x0 (ix2 r i) - x2 (ix2 cc i)) * x4 (ix3 cc i j) := by
  unfold k0_pay3
  simp only [shapeCast_self]
  rw [addf_apply, matmul_at]
  refine congrArg (ts (ix3 cc r j) + ·) (Finset.sum_congr rfl fun i _ => ?_)
  rw [truncf_apply, truncf_apply, subf_apply, rows_at, means_at]

/-! ## The result tile's update -/

/-- A sum along the feature axis from the zero word is, at (c, r), the sum over the 384 features j of the source at
    (c, r, j). -/
theorem lanesum_at (v : FVec Ideal S6x256x384 .f32) (hφ : FKind.Formats .f32)
    (hacc : (0x00000000#32 : BitVec 32) = 0x00000000#32) (cc : Fin 6) (r : Fin 256) :
    multiReduction (F := Ideal) .add [2] S6x256 v 0x00000000#32 reduces_S6x256x384_S6x256 hφ hacc (ix2 cc r)
      = ∑ j : Fin 384, v (ix3 cc r j) := by
  refine (Ideal.multiReduction_add_single v 0x00000000#32 reduces_S6x256x384_S6x256 hφ hacc (ix2 cc r)).trans ?_
  refine Finset.sum_congr rfl fun k _ => ?_
  exact congrArg v (funext fun a => Fin.ext (by match a with | ⟨0, _⟩ => rfl | ⟨1, _⟩ => rfl | ⟨2, _⟩ => rfl))

/-- The value stored into the result tile: what it held plus, at (c, r), the sum over the tile's features j of the
    scratch t[c, r, j] times the deviation d[c, r, j] = X[r, j] - mean[c, j]. -/
theorem pay4_at (x1 : Vec Ideal S256x384 .f32) (x3 : Vec Ideal S6x384 .f32) (tt : Vec Ideal S6x256x384 .f32) (qq : Vec Ideal S6x256 .f32) (cc : Fin 6) (r : Fin 256) :
    k0_pay4 (F := Ideal) x1 x3 tt qq (ix2 cc r) = qq (ix2 cc r) + ∑ j : Fin 384, tt (ix3 cc r j) * (x1 (ix2 r j) - x3 (ix2 cc j)) := by
  unfold k0_pay4
  simp only [shapeCast_self]
  rw [addf_apply, lanesum_at]
  refine congrArg (qq (ix2 cc r) + ·) (Finset.sum_congr rfl fun j _ => ?_)
  rw [mulf_apply, subf_apply, rows_at, means_at]

end Cert.KernelIdeal.Hand

end
-- ==== Proof.Ideal.BlockAt.lean ====
/-
  The input windows' blocks read at an index. The grid is 4 × 6 × 6 and position t = 36·b + 6·n + k is batch tile
  b = t / 36, column tile n = t / 6 % 6 and row tile k = t % 6. The samples (1024 × 2304) are read in blocks of
  256 × 384, once at feature tile k and once at feature tile n; the class means (6 × 2304) in blocks of 6 × 384 at
  feature tile k and at feature tile n; the precision matrices (6 × 2304 × 2304) in blocks of 6 × 384 × 384 at row
  tile k and column tile n. An element of a block sits in the array, on each axis, at the block index times the
  block's size plus its own coordinate: so each block read at an index is the array at the shifted index. The element
  type only rides along: nothing here depends on the float instance.
-/
import proofs.«171433_j4939212390990_1_alg».proof.Proof.Ideal.Grid
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The printed index maps, decided over the grid -/

/-- Samples at row tile k: block (b, k). -/
theorem index0_0 : ∀ t : Fin cfg0.N, win0_0.index t (0 : Fin 2) = t.val / 36 ∧ win0_0.index t (1 : Fin 2) = t.val % 6 :=
  (by decide +kernel : ∀ t : Fin grid0.N, _)
/-- Samples at column tile n: block (b, n). -/
theorem index0_1 : ∀ t : Fin cfg0.N, win0_1.index t (0 : Fin 2) = t.val / 36 ∧ win0_1.index t (1 : Fin 2) = t.val / 6 % 6 :=
  (by decide +kernel : ∀ t : Fin grid0.N, _)
/-- Means at row tile k: block (0, k). -/
theorem index0_2 : ∀ t : Fin cfg0.N, win0_2.index t (0 : Fin 2) = 0 ∧ win0_2.index t (1 : Fin 2) = t.val % 6 :=
  (by decide +kernel : ∀ t : Fin grid0.N, _)
/-- Means at column tile n: block (0, n). -/
theorem index0_3 : ∀ t : Fin cfg0.N, win0_3.index t (0 : Fin 2) = 0 ∧ win0_3.index t (1 : Fin 2) = t.val / 6 % 6 :=
  (by decide +kernel : ∀ t : Fin grid0.N, _)
/-- Precision matrices: block (0, k, n). -/
theorem index0_4 : ∀ t : Fin cfg0.N, win0_4.index t (0 : Fin 3) = 0 ∧ win0_4.index t (1 : Fin 3) = t.val % 6
    ∧ win0_4.index t (2 : Fin 3) = t.val / 6 % 6 :=
  (by decide +kernel : ∀ t : Fin grid0.N, _)

/-! ## The shifted coordinates are inside the arrays -/

/-- A row of batch tile t / 36 is one of the 1024 samples. -/
theorem batchRow_lt (t : Fin cfg0.N) (r : Fin 256) : 256 * (t.val / 36) + r.val < 1024 := by
  have ht := t.isLt; have hN : cfg0.N = 144 := N_0; have hr := r.isLt; omega
/-- A feature of row tile t % 6 is one of the 2304 padded features. -/
theorem featK_lt (t : Fin cfg0.N) (i : Fin 384) : 384 * (t.val % 6) + i.val < 2304 := by
  have hi := i.isLt; omega
/-- A feature of column tile t / 6 % 6 is one of the 2304 padded features. -/
theorem featN_lt (t : Fin cfg0.N) (j : Fin 384) : 384 * (t.val / 6 % 6) + j.val < 2304 := by
  have hj := j.isLt; omega

/-! ## Each block at an index -/

section Blocks
variable (V : (c : Dev nD) → (b : Ref sig .tc) → Buf (Elt F) ((c : Thread nD τ).loc b))

/-- The samples' block at row tile k. -/
theorem iblk0_at (c : Dev nD) (t : Fin cfg0.N) (r : Fin 256) (i : Fin 384) :
    iblk V c 0 t (ix2 r i)
      = (V c main_v0 : S1024x2304.Idx → Elt F .f32)
          (ix2 ⟨256 * (t.val / 36) + r.val, batchRow_lt t r⟩ ⟨384 * (t.val % 6) + i.val, featK_lt t i⟩) := by
  obtain ⟨e0, e1⟩ := index0_0 t
  unfold iblk
  rw [View.read_apply]
  show (V c main_v0 : S1024x2304.Idx → Elt F .f32) (((cfg0.win 0).blk t).view.emb (ix2 r i)) = _
  refine congrArg (V c main_v0 : S1024x2304.Idx → Elt F .f32) (funext fun a => Fin.ext ?_)
  match a with
  | ⟨0, _⟩ => show win0_0.index t (0 : Fin 2) * 256 + 1 * r.val = 256 * (t.val / 36) + r.val; omega
  | ⟨1, _⟩ => show win0_0.index t (1 : Fin 2) * 384 + 1 * i.val = 384 * (t.val % 6) + i.val; omega

/-- The samples' block at column tile n. -/
theorem iblk1_at (c : Dev nD) (t : Fin cfg0.N) (r : Fin 256) (j : Fin 384) :
    iblk V c 1 t (ix2 r j)
      = (V c main_v0 : S1024x2304.Idx → Elt F .f32)
          (ix2 ⟨256 * (t.val / 36) + r.val, batchRow_lt t r⟩ ⟨384 * (t.val / 6 % 6) + j.val, featN_lt t j⟩) := by
  obtain ⟨e0, e1⟩ := index0_1 t
  unfold iblk
  rw [View.read_apply]
  show (V c main_v0 : S1024x2304.Idx → Elt F .f32) (((cfg0.win 1).blk t).view.emb (ix2 r j)) = _
  refine congrArg (V c main_v0 : S1024x2304.Idx → Elt F .f32) (funext fun a => Fin.ext ?_)
  match a with
  | ⟨0, _⟩ => show win0_1.index t (0 : Fin 2) * 256 + 1 * r.val = 256 * (t.val / 36) + r.val; omega
  | ⟨1, _⟩ => show win0_1.index t (1 : Fin 2) * 384 + 1 * j.val = 384 * (t.val / 6 % 6) + j.val; omega

/-- The means' block at row tile k. -/
theorem iblk2_at (c : Dev nD) (t : Fin cfg0.N) (cc : Fin 6) (i : Fin 384) :
    iblk V c 2 t (ix2 cc i)
      = (V c main_v1 : S6x2304.Idx → Elt F .f32) (ix2 cc ⟨384 * (t.val % 6) + i.val, featK_lt t i⟩) := by
  obtain ⟨e0, e1⟩ := index0_2 t
  unfold iblk
  rw [View.read_apply]
  show (V c main_v1 : S6x2304.Idx → Elt F .f32) (((cfg0.win 2).blk t).view.emb (ix2 cc i)) = _
  refine congrArg (V c main_v1 : S6x2304.Idx → Elt F .f32) (funext fun a => Fin.ext ?_)
  match a with
  | ⟨0, _⟩ => show win0_2.index t (0 : Fin 2) * 6 + 1 * cc.val = cc.val; omega
  | ⟨1, _⟩ => show win0_2.index t (1 : Fin 2) * 384 + 1 * i.val = 384 * (t.val % 6) + i.val; omega

/-- The means' block at column tile n. -/
theorem iblk3_at (c : Dev nD) (t : Fin cfg0.N) (cc : Fin 6) (j : Fin 384) :
    iblk V c 3 t (ix2 cc j)
      = (V c main_v1 : S6x2304.Idx → Elt F .f32) (ix2 cc ⟨384 * (t.val / 6 % 6) + j.val, featN_lt t j⟩) := by
  obtain ⟨e0, e1⟩ := index0_3 t
  unfold iblk
  rw [View.read_apply]
  show (V c main_v1 : S6x2304.Idx → Elt F .f32) (((cfg0.win 3).blk t).view.emb (ix2 cc j)) = _
  refine congrArg (V c main_v1 : S6x2304.Idx → Elt F .f32) (funext fun a => Fin.ext ?_)
  match a with
  | ⟨0, _⟩ => show win0_3.index t (0 : Fin 2) * 6 + 1 * cc.val = cc.val; omega
  | ⟨1, _⟩ => show win0_3.index t (1 : Fin 2) * 384 + 1 * j.val = 384 * (t.val / 6 % 6) + j.val; omega

/-- The precision matrices' block at row tile k and column tile n. -/
theorem iblk4_at (c : Dev nD) (t : Fin cfg0.N) (cc : Fin 6) (i j : Fin 384) :
    iblk V c 4 t (ix3 cc i j)
      = (V c main_v2 : S6x2304x2304.Idx → Elt F .f32)
          (ix3 cc ⟨384 * (t.val % 6) + i.val, featK_lt t i⟩ ⟨384 * (t.val / 6 % 6) + j.val, featN_lt t j⟩) := by
  obtain ⟨e0, e1, e2⟩ := index0_4 t
  unfold iblk
  rw [View.read_apply]
  show (V c main_v2 : S6x2304x2304.Idx → Elt F .f32) (((cfg0.win 4).blk t).view.emb (ix3 cc i j)) = _
  refine congrArg (V c main_v2 : S6x2304x2304.Idx → Elt F .f32) (funext fun a => Fin.ext ?_)
  match a with
  | ⟨0, _⟩ => show win0_4.index t (0 : Fin 3) * 6 + 1 * cc.val = cc.val; omega
  | ⟨1, _⟩ => show win0_4.index t (1 : Fin 3) * 384 + 1 * i.val = 384 * (t.val % 6) + i.val; omega
  | ⟨2, _⟩ => show win0_4.index t (2 : Fin 3) * 384 + 1 * j.val = 384 * (t.val / 6 % 6) + j.val; omega

end Blocks

end Cert.KernelIdeal.Hand

end
-- ==== Proof.Ideal.PadAt.lean ====
/-
  The padded arrays read at an index, and the two sum lemmas that remove the padding from the quadratic form.

  The kernel's program pads each float argument with zeros on the feature axes, 2096 features to 2304 = 6 · 384, with
  no low padding and no interior padding. Read at an index given by its coordinates, a padded array is the operand
  where every feature coordinate is below 2096 and the padding value elsewhere (`padX_at`, `padM_at`, `padS_at`); the
  padding value, the integer 0 converted to a float, is the extended real 0 (`padval_zero`).

  The quadratic form over the padded features is the quadratic form over the features: a term whose outer index is
  2096 or more has the factor D j = 0 on the right, and x * 0 = 0 for every extended real x; for an outer index below
  2096, a term of the inner sum whose index is 2096 or more has the factor D i = 0 on the left, and 0 * x = 0
  (`quad_pad`). No finiteness is used. A sum over n consecutive tiles of width w is the sum over the first w · n
  naturals (`sum_tiles`).
-/
import proofs.«171433_j4939212390990_1_alg».proof.Proof.Gen.KernelIdeal
import Idealize.ShloMosaic.Lib.KernelVsHost
import Idealize.ShloMosaic.Lib.ValueIdx
import Mathlib.Data.EReal.Inv
import Mathlib.Algebra.BigOperators.Group.Finset.Basic
import Mathlib.Data.Fintype.BigOperators

noncomputable section

namespace Cert.KernelIdeal.Hand

open Cert.KernelIdeal Idealize.ShloMosaic Idealize.ShloMosaic.ValueIdx
open Cert.KernelIdeal.Facts₀
open scoped BigOperators

/-! ## The padded arrays at an index -/

section Pads
variable [Facts]

/-- The sample matrix padded on the feature axis: the sample's feature below 2096, the padding value from 2096 on. -/
theorem padX_at {α : Type} (x : S1024x2096.Idx → α) (v : S_.Idx → α) (b : Fin 1024) (i : Fin 2304) :
    pad S1024x2304 ![0, 0] ![0, 208] ![0, 0] x v pads_S1024x2096_S1024x2304_000_02080 h_S_ (ix2 b i)
      = if h : i.val < 2096 then x (ix2 b ⟨i.val, h⟩) else v ix0 := by
  by_cases h : i.val < 2096
  · rw [dif_pos h]
    exact pad_apply_of_inside _ _ _ x v _ _ _ (ix2 b (⟨i.val, h⟩ : Fin 2096)) (by
      intro a
      match a with
      | ⟨0, _⟩ => show b.val = 0 + b.val * (0 + 1); omega
      | ⟨1, _⟩ => show i.val = 0 + i.val * (0 + 1); omega)
  · rw [dif_neg h]
    refine (pad_apply_of_not_inside _ _ _ x v _ _ _ (1 : Fin 2) ?_).trans (congrArg v (eq_ix0 _))
    intro hin
    have e : (i.val - 0) / (0 + 1) < 2096 := hin.2.2
    rw [Nat.sub_zero, Nat.zero_add, Nat.div_one] at e
    exact h e

/-- The class means padded on the feature axis. -/
theorem padM_at {α : Type} (x : S6x2096.Idx → α) (v : S_.Idx → α) (cc : Fin 6) (i : Fin 2304) :
    pad S6x2304 ![0, 0] ![0, 208] ![0, 0] x v pads_S6x2096_S6x2304_000_02080 h_S_ (ix2 cc i)
      = if h : i.val < 2096 then x (ix2 cc ⟨i.val, h⟩) else v ix0 := by
  by_cases h : i.val < 2096
  · rw [dif_pos h]
    exact pad_apply_of_inside _ _ _ x v _ _ _ (ix2 cc (⟨i.val, h⟩ : Fin 2096)) (by
      intro a
      match a with
      | ⟨0, _⟩ => show cc.val = 0 + cc.val * (0 + 1); omega
      | ⟨1, _⟩ => show i.val = 0 + i.val * (0 + 1); omega)
  · rw [dif_neg h]
    refine (pad_apply_of_not_inside _ _ _ x v _ _ _ (1 : Fin 2) ?_).trans (congrArg v (eq_ix0 _))
    intro hin
    have e : (i.val - 0) / (0 + 1) < 2096 := hin.2.2
    rw [Nat.sub_zero, Nat.zero_add, Nat.div_one] at e
    exact h e

/-- The class precision matrices padded on both feature axes: the entry where both coordinates are below 2096, the
    padding value where either is 2096 or more. -/
theorem padS_at {α : Type} (x : S6x2096x2096.Idx → α) (v : S_.Idx → α) (cc : Fin 6) (i j : Fin 2304) :
    pad S6x2304x2304 ![0, 0, 0] ![0, 208, 208] ![0, 0, 0] x v pads_S6x2096x2096_S6x2304x2304_000_02080_02080 h_S_
        (ix3 cc i j)
      = if h : i.val < 2096 ∧ j.val < 2096 then x (ix3 cc ⟨i.val, h.1⟩ ⟨j.val, h.2⟩) else v ix0 := by
  by_cases h : i.val < 2096 ∧ j.val < 2096
  · rw [dif_pos h]
    exact pad_apply_of_inside _ _ _ x v _ _ _ (ix3 cc (⟨i.val, h.1⟩ : Fin 2096) (⟨j.val, h.2⟩ : Fin 2096)) (by
      intro a
      match a with
      | ⟨0, _⟩ => show cc.val = 0 + cc.val * (0 + 1); omega
      | ⟨1, _⟩ => show i.val = 0 + i.val * (0 + 1); omega
      | ⟨2, _⟩ => show j.val = 0 + j.val * (0 + 1); omega)
  · rw [dif_neg h]
    by_cases hi : i.val < 2096
    · have hj : ¬ j.val < 2096 := fun hj => h ⟨hi, hj⟩
      refine (pad_apply_of_not_inside _ _ _ x v _ _ _ (2 : Fin 3) ?_).trans (congrArg v (eq_ix0 _))
      intro hin
      have e : (j.val - 0) / (0 + 1) < 2096 := hin.2.2
      rw [Nat.sub_zero, Nat.zero_add, Nat.div_one] at e
      exact hj e
    · refine (pad_apply_of_not_inside _ _ _ x v _ _ _ (1 : Fin 3) ?_).trans (congrArg v (eq_ix0 _))
      intro hin
      have e : (i.val - 0) / (0 + 1) < 2096 := hin.2.2
      rw [Nat.sub_zero, Nat.zero_add, Nat.div_one] at e
      exact hi e

end Pads

/-- The padding value: the integer 0 converted to a float is the extended real 0. -/
theorem padval_zero : sitofp (F := Ideal) .f32 (constantI S_ 32 0#32) ix0 = (0 : EReal) := by
  show ((((0#32 : BitVec 32).toInt : ℤ) : ℝ) : EReal) = 0
  simp

/-! ## The sums without the padding -/

/-- The quadratic form over the 2304 padded features is the quadratic form over the 2096 features. -/
theorem quad_pad (d : Fin 2096 → EReal) (s : Fin 2096 → Fin 2096 → EReal) (D : ℕ → EReal) (S : ℕ → ℕ → EReal)
    (hD : ∀ i (h : i < 2096), D i = d ⟨i, h⟩) (hD0 : ∀ i, 2096 ≤ i → D i = 0)
    (hS : ∀ i j (hi : i < 2096) (hj : j < 2096), S i j = s ⟨i, hi⟩ ⟨j, hj⟩) :
    ∑ j ∈ Finset.range 2304, (∑ i ∈ Finset.range 2304, D i * S i j) * D j
      = ∑ j : Fin 2096, (∑ i : Fin 2096, d i * s i j) * d j := by
  -- a sum over the first 2304 naturals of terms that vanish from 2096 on is the sum over the first 2096
  have cut : ∀ f : ℕ → EReal, (∀ i, 2096 ≤ i → f i = 0) →
      ∑ i ∈ Finset.range 2304, f i = ∑ i ∈ Finset.range 2096, f i := by
    intro f hf
    refine (Finset.sum_subset (Finset.range_subset_range.2 (by norm_num)) ?_).symm
    intro i _ hi
    exact hf i (by simpa using hi)
  rw [cut _ (fun j hj => by rw [hD0 j hj, mul_zero]),
    ← Fin.sum_univ_eq_sum_range (fun j => (∑ i ∈ Finset.range 2304, D i * S i j) * D j) 2096]
  refine Finset.sum_congr rfl fun j _ => ?_
  rw [cut _ (fun i hi => by rw [hD0 i hi, zero_mul]),
    ← Fin.sum_univ_eq_sum_range (fun i => D i * S i j.val) 2096, hD j.val j.isLt]
  refine congrArg (· * d j) (Finset.sum_congr rfl fun i _ => ?_)
  rw [hD i.val i.isLt, hS i.val j.val i.isLt j.isLt]

/-- A sum over `n` consecutive tiles of width `w` is the sum over the first `w * n` naturals. -/
theorem sum_tiles (f : ℕ → EReal) (n w : ℕ) :
    ∑ k ∈ Finset.range n, ∑ i ∈ Finset.range w, f (w * k + i) = ∑ i ∈ Finset.range (w * n), f i := by
  induction n with
  | zero => simp
  | succ n ih => rw [Finset.sum_range_succ, ih, Nat.mul_succ, Finset.sum_range_add]

end Cert.KernelIdeal.Hand

end
-- ==== Proof.Ideal.StateAt.lean ====
/-
  The scratch buffers after each grid position, in closed form over the extended reals.

  Position n = 36·b + 6·m + k works on batch tile b = n / 36, column tile m = n / 6 % 6 and row tile k = n % 6. Write
  D[c, ρ, i] = X[ρ, i] − mean[c, i] for the deviation of sample ρ from the mean of class c on (padded) feature i, and
  inner[c, ρ, j] = Σ_{i < 2304} D[c, ρ, i] · Sinv[c, i, j]. Read at class c, row r of the batch tile and column j of
  the column tile, after position n

    * the partial products hold  Σ_{i < 384·(k+1)} D[c, 256·b + r, i] · Sinv[c, i, 384·m + j]:
      they are zeroed at k = 0 and each row tile adds its 384 terms, so after k = 5 they hold inner[c, ·, 384·m + j];
    * the row sums hold  Σ_{j < 384·m'} inner[c, 256·b + r, j] · D[c, 256·b + r, j]  with m' = m + 1 once row tile 5 of
      column tile m is done and m' = m before: they are zeroed at m = k = 0 and each completed column tile adds its 384
      terms;
    * at the last position of a batch tile the result window's buffer receives the row sums, all 2304 terms.

  By induction on the position through the five cases of the body; each step is one row tile's or one column tile's
  384 terms appended to a sum over an initial segment of the naturals. Sums in the extended reals need no finiteness.
-/
import proofs.«171433_j4939212390990_1_alg».proof.Proof.Ideal.Pieces
import proofs.«171433_j4939212390990_1_alg».proof.Proof.Ideal.PayloadAt
import proofs.«171433_j4939212390990_1_alg».proof.Proof.Ideal.BlockAt
import proofs.«171433_j4939212390990_1_alg».proof.Proof.Ideal.PadAt
import Mathlib.Algebra.BigOperators.Group.Finset.Basic
import Mathlib.Data.Fintype.BigOperators

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section
variable (V : (c : Dev nD) → (b : Ref sig .tc) → Buf (Elt Ideal) ((c : Thread nD τ).loc b))

/-! ## The padded arrays over the naturals -/

/-- The padded samples at (ρ, i), zero outside the array. -/
def Xn (c : Dev nD) (ρ i : ℕ) : EReal :=
  if h : ρ < 1024 ∧ i < 2304 then (V c main_v0 : S1024x2304.Idx → EReal) (ix2 ⟨ρ, h.1⟩ ⟨i, h.2⟩) else 0
/-- The padded class means at (c, i), zero outside the array. -/
def Mn (c : Dev nD) (cc : Fin 6) (i : ℕ) : EReal :=
  if h : i < 2304 then (V c main_v1 : S6x2304.Idx → EReal) (ix2 cc ⟨i, h⟩) else 0
/-- The padded precision matrices at (c, i, j), zero outside the array. -/
def Sn (c : Dev nD) (cc : Fin 6) (i j : ℕ) : EReal :=
  if h : i < 2304 ∧ j < 2304 then (V c main_v2 : S6x2304x2304.Idx → EReal) (ix3 cc ⟨i, h.1⟩ ⟨j, h.2⟩) else 0
/-- The deviation of sample ρ from the mean of class c on feature i. -/
def Dn (c : Dev nD) (cc : Fin 6) (ρ i : ℕ) : EReal := Xn V c ρ i - Mn V c cc i
/-- The deviation of sample ρ contracted with column j of the precision matrix of class c. -/
def inner (c : Dev nD) (cc : Fin 6) (ρ j : ℕ) : EReal := ∑ i ∈ Finset.range 2304, Dn V c cc ρ i * Sn V c cc i j

namespace StateAt

/-- What the partial products hold after position n, at (c, r, j). -/
def Tn (c : Dev nD) (n : ℕ) (cc : Fin 6) (r : Fin 256) (j : Fin 384) : EReal :=
  ∑ i ∈ Finset.range (384 * (n % 6 + 1)), Dn V c cc (256 * (n / 36) + r.val) i * Sn V c cc i (384 * (n / 6 % 6) + j.val)
/-- What the row sums hold after position n, at (c, r). -/
def Qn (c : Dev nD) (n : ℕ) (cc : Fin 6) (r : Fin 256) : EReal :=
  ∑ j ∈ Finset.range (384 * (if n % 6 = 5 then n / 6 % 6 + 1 else n / 6 % 6)), inner V c cc (256 * (n / 36) + r.val) j * Dn V c cc (256 * (n / 36) + r.val) j

/-! ## The staged blocks at a position, read through the padded arrays -/

/-- The samples' block at the row tile's features. -/
abbrev xb0 (c : Dev nD) (t : Fin cfg0.N) : Vec Ideal S256x384 .f32 := iblk V c 0 t
/-- The samples' block at the column tile's features. -/
abbrev xb1 (c : Dev nD) (t : Fin cfg0.N) : Vec Ideal S256x384 .f32 := iblk V c 1 t
/-- The means' block at the row tile's features. -/
abbrev xb2 (c : Dev nD) (t : Fin cfg0.N) : Vec Ideal S6x384 .f32 := iblk V c 2 t
/-- The means' block at the column tile's features. -/
abbrev xb3 (c : Dev nD) (t : Fin cfg0.N) : Vec Ideal S6x384 .f32 := iblk V c 3 t
/-- The precision matrices' block at the row tile and the column tile. -/
abbrev xb4 (c : Dev nD) (t : Fin cfg0.N) : Vec Ideal S6x384x384 .f32 := iblk V c 4 t

theorem xb0_at (c : Dev nD) (t : Fin cfg0.N) (r : Fin 256) (i : Fin 384) :
    xb0 V c t (ix2 r i) = Xn V c (256 * (t.val / 36) + r.val) (384 * (t.val % 6) + i.val) := by
  refine (iblk0_at V c t r i).trans ?_
  unfold Xn
  rw [dif_pos (⟨batchRow_lt t r, featK_lt t i⟩ : 256 * (t.val / 36) + r.val < 1024 ∧ 384 * (t.val % 6) + i.val < 2304)]
theorem xb1_at (c : Dev nD) (t : Fin cfg0.N) (r : Fin 256) (j : Fin 384) :
    xb1 V c t (ix2 r j) = Xn V c (256 * (t.val / 36) + r.val) (384 * (t.val / 6 % 6) + j.val) := by
  refine (iblk1_at V c t r j).trans ?_
  unfold Xn
  rw [dif_pos (⟨batchRow_lt t r, featN_lt t j⟩ : 256 * (t.val / 36) + r.val < 1024 ∧ 384 * (t.val / 6 % 6) + j.val < 2304)]
theorem xb2_at (c : Dev nD) (t : Fin cfg0.N) (cc : Fin 6) (i : Fin 384) :
    xb2 V c t (ix2 cc i) = Mn V c cc (384 * (t.val % 6) + i.val) := by
  refine (iblk2_at V c t cc i).trans ?_
  unfold Mn
  rw [dif_pos (featK_lt t i)]
theorem xb3_at (c : Dev nD) (t : Fin cfg0.N) (cc : Fin 6) (j : Fin 384) :
    xb3 V c t (ix2 cc j) = Mn V c cc (384 * (t.val / 6 % 6) + j.val) := by
  refine (iblk3_at V c t cc j).trans ?_
  unfold Mn
  rw [dif_pos (featN_lt t j)]
theorem xb4_at (c : Dev nD) (t : Fin cfg0.N) (cc : Fin 6) (i j : Fin 384) :
    xb4 V c t (ix3 cc i j) = Sn V c cc (384 * (t.val % 6) + i.val) (384 * (t.val / 6 % 6) + j.val) := by
  refine (iblk4_at V c t cc i j).trans ?_
  unfold Sn
  rw [dif_pos (⟨featK_lt t i, featN_lt t j⟩ : 384 * (t.val % 6) + i.val < 2304 ∧ 384 * (t.val / 6 % 6) + j.val < 2304)]

/-- The deviation formed from the row tile's blocks. -/
theorem devK_at (c : Dev nD) (t : Fin cfg0.N) (cc : Fin 6) (r : Fin 256) (i : Fin 384) :
    xb0 V c t (ix2 r i) - xb2 V c t (ix2 cc i) = Dn V c cc (256 * (t.val / 36) + r.val) (384 * (t.val % 6) + i.val) := by
  rw [xb0_at, xb2_at]; rfl
/-- The deviation formed from the column tile's blocks. -/
theorem devN_at (c : Dev nD) (t : Fin cfg0.N) (cc : Fin 6) (r : Fin 256) (j : Fin 384) :
    xb1 V c t (ix2 r j) - xb3 V c t (ix2 cc j) = Dn V c cc (256 * (t.val / 36) + r.val) (384 * (t.val / 6 % 6) + j.val) := by
  rw [xb1_at, xb3_at]; rfl

/-! ## One tile's terms appended to a sum over an initial segment -/

theorem range_tile (f : ℕ → EReal) (k : ℕ) :
    ∑ i ∈ Finset.range (384 * k), f i + ∑ i ∈ Finset.range 384, f (384 * k + i) = ∑ i ∈ Finset.range (384 * (k + 1)), f i := by
  rw [Nat.mul_succ, Finset.sum_range_add]

/-- The partial products' update adds the row tile's 384 terms. -/
theorem pay3_tile (c : Dev nD) (t : Fin cfg0.N) (ts : Vec Ideal S6x256x384 .f32) (cc : Fin 6) (r : Fin 256) (j : Fin 384) :
    k0_pay3 (F := Ideal) (xb0 V c t) (xb2 V c t) (xb4 V c t) ts (ix3 cc r j)
      = ts (ix3 cc r j) + ∑ i ∈ Finset.range 384, Dn V c cc (256 * (t.val / 36) + r.val) (384 * (t.val % 6) + i) * Sn V c cc (384 * (t.val % 6) + i) (384 * (t.val / 6 % 6) + j.val) := by
  refine (pay3_at (xb0 V c t) (xb2 V c t) (xb4 V c t) ts cc r j).trans ?_
  rw [← Fin.sum_univ_eq_sum_range (fun i => Dn V c cc (256 * (t.val / 36) + r.val) (384 * (t.val % 6) + i) * Sn V c cc (384 * (t.val % 6) + i) (384 * (t.val / 6 % 6) + j.val)) 384]
  refine congrArg (ts (ix3 cc r j) + ·) (Finset.sum_congr rfl fun i _ => ?_)
  rw [devK_at, xb4_at]

/-- From the first 384·k terms to the first 384·(k+1): the partial products after the update. -/
theorem T_step (c : Dev nD) (t : Fin cfg0.N) (ts : Vec Ideal S6x256x384 .f32) (cc : Fin 6) (r : Fin 256) (j : Fin 384) (k : ℕ)
    (hk : k = t.val % 6)
    (hts : ts (ix3 cc r j) = ∑ i ∈ Finset.range (384 * k), Dn V c cc (256 * (t.val / 36) + r.val) i * Sn V c cc i (384 * (t.val / 6 % 6) + j.val)) :
    k0_pay3 (F := Ideal) (xb0 V c t) (xb2 V c t) (xb4 V c t) ts (ix3 cc r j) = Tn V c t.val cc r j := by
  subst hk
  rw [pay3_tile, hts]
  exact range_tile (fun i => Dn V c cc (256 * (t.val / 36) + r.val) i * Sn V c cc i (384 * (t.val / 6 % 6) + j.val)) (t.val % 6)

/-- After row tile 5 the partial products hold the whole contraction. -/
theorem Tn_full (c : Dev nD) (n : ℕ) (h2 : n % 6 = 5) (cc : Fin 6) (r : Fin 256) (j : Fin 384) :
    Tn V c n cc r j = inner V c cc (256 * (n / 36) + r.val) (384 * (n / 6 % 6) + j.val) := by
  unfold Tn inner
  rw [h2]

/-- The row sums' update adds the column tile's 384 terms. -/
theorem Q_step (c : Dev nD) (t : Fin cfg0.N) (tt : Vec Ideal S6x256x384 .f32) (qq : Vec Ideal S6x256 .f32) (cc : Fin 6) (r : Fin 256)
    (htt : ∀ j : Fin 384, tt (ix3 cc r j) = inner V c cc (256 * (t.val / 36) + r.val) (384 * (t.val / 6 % 6) + j.val))
    (hqq : qq (ix2 cc r) = ∑ j ∈ Finset.range (384 * (t.val / 6 % 6)), inner V c cc (256 * (t.val / 36) + r.val) j * Dn V c cc (256 * (t.val / 36) + r.val) j) :
    k0_pay4 (F := Ideal) (xb1 V c t) (xb3 V c t) tt qq (ix2 cc r)
      = ∑ j ∈ Finset.range (384 * (t.val / 6 % 6 + 1)), inner V c cc (256 * (t.val / 36) + r.val) j * Dn V c cc (256 * (t.val / 36) + r.val) j := by
  refine (pay4_at (xb1 V c t) (xb3 V c t) tt qq cc r).trans ?_
  rw [hqq, ← range_tile (fun j => inner V c cc (256 * (t.val / 36) + r.val) j * Dn V c cc (256 * (t.val / 36) + r.val) j) (t.val / 6 % 6),
    ← Fin.sum_univ_eq_sum_range (fun j => inner V c cc (256 * (t.val / 36) + r.val) (384 * (t.val / 6 % 6) + j) * Dn V c cc (256 * (t.val / 36) + r.val) (384 * (t.val / 6 % 6) + j)) 384]
  refine congrArg (_ + ·) (Finset.sum_congr rfl fun j _ => ?_)
  rw [htt, devN_at]

/-! ## The closed forms from one position to the next -/

/-- Where the row tile is not the first, the partial products before the update hold the first 384·k terms. -/
theorem Tn_prev (c : Dev nD) (p n : ℕ) (hp : p + 1 = n) (h1 : ¬n % 6 = 0) (cc : Fin 6) (r : Fin 256) (j : Fin 384) :
    Tn V c p cc r j = ∑ i ∈ Finset.range (384 * (n % 6)), Dn V c cc (256 * (n / 36) + r.val) i * Sn V c cc i (384 * (n / 6 % 6) + j.val) := by
  have e1 : p % 6 + 1 = n % 6 := by omega
  have e2 : p / 36 = n / 36 := by omega
  have e3 : p / 6 % 6 = n / 6 % 6 := by omega
  unfold Tn
  rw [e1, e2, e3]

/-- Within a batch tile, the row sums before position n hold the terms of the column tiles before n's. -/
theorem Qn_prev (c : Dev nD) (p n : ℕ) (hp : p + 1 = n) (h0 : ¬n % 36 = 0) (cc : Fin 6) (r : Fin 256) :
    Qn V c p cc r = ∑ j ∈ Finset.range (384 * (n / 6 % 6)), inner V c cc (256 * (n / 36) + r.val) j * Dn V c cc (256 * (n / 36) + r.val) j := by
  have e2 : p / 36 = n / 36 := by omega
  unfold Qn
  by_cases h : p % 6 = 5
  · have e3 : p / 6 % 6 + 1 = n / 6 % 6 := by omega
    rw [if_pos h, e2, e3]
  · have e3 : p / 6 % 6 = n / 6 % 6 := by omega
    rw [if_neg h, e2, e3]

theorem Qn_keep (c : Dev nD) (n : ℕ) (h2 : ¬n % 6 = 5) (cc : Fin 6) (r : Fin 256) :
    Qn V c n cc r = ∑ j ∈ Finset.range (384 * (n / 6 % 6)), inner V c cc (256 * (n / 36) + r.val) j * Dn V c cc (256 * (n / 36) + r.val) j := by
  unfold Qn
  rw [if_neg h2]

theorem Qn_add (c : Dev nD) (n : ℕ) (h2 : n % 6 = 5) (cc : Fin 6) (r : Fin 256) :
    Qn V c n cc r = ∑ j ∈ Finset.range (384 * (n / 6 % 6 + 1)), inner V c cc (256 * (n / 36) + r.val) j * Dn V c cc (256 * (n / 36) + r.val) j := by
  unfold Qn
  rw [if_pos h2]

/-- The partial products zeroed, then the first row tile's terms. -/
theorem reset_T (c : Dev nD) (t : Fin cfg0.N) (h1 : t.val % 6 = 0) (cc : Fin 6) (r : Fin 256) (j : Fin 384) :
    k0_pay3 (F := Ideal) (xb0 V c t) (xb2 V c t) (xb4 V c t) (k0_pay2 (F := Ideal)) (ix3 cc r j) = Tn V c t.val cc r j :=
  T_step V c t _ cc r j 0 (by omega) (by rw [pay2_at, Nat.mul_zero, Finset.range_zero, Finset.sum_empty])

/-- The partial products carried in, then the next row tile's terms. -/
theorem next_T (c : Dev nD) (t : Fin cfg0.N) (h1 : ¬t.val % 6 = 0) (p : ℕ) (hp : p + 1 = t.val) (ts : Vec Ideal S6x256x384 .f32)
    (cc : Fin 6) (r : Fin 256) (j : Fin 384) (hts : ts (ix3 cc r j) = Tn V c p cc r j) :
    k0_pay3 (F := Ideal) (xb0 V c t) (xb2 V c t) (xb4 V c t) ts (ix3 cc r j) = Tn V c t.val cc r j :=
  T_step V c t ts cc r j (t.val % 6) rfl (by rw [hts, Tn_prev V c p t.val hp h1])

/-- The row sums zeroed at the first position of a batch tile. -/
theorem reset_Q (c : Dev nD) (t : Fin cfg0.N) (h : t.val % 36 = 0) (cc : Fin 6) (r : Fin 256) :
    k0_pay1 (F := Ideal) (ix2 cc r) = Qn V c t.val cc r := by
  have e : t.val / 6 % 6 = 0 := by omega
  rw [pay1_at, Qn_keep V c t.val (by omega), e, Nat.mul_zero, Finset.range_zero, Finset.sum_empty]

/-- The row sums kept where the row tile is not the last. -/
theorem keep_Q (c : Dev nD) (t : Fin cfg0.N) (h0 : ¬t.val % 36 = 0) (h2 : ¬t.val % 6 = 5) (p : ℕ) (hp : p + 1 = t.val)
    (qq : Vec Ideal S6x256 .f32) (cc : Fin 6) (r : Fin 256) (hqq : qq (ix2 cc r) = Qn V c p cc r) :
    qq (ix2 cc r) = Qn V c t.val cc r :=
  hqq.trans ((Qn_prev V c p t.val hp h0 cc r).trans (Qn_keep V c t.val h2 cc r).symm)

/-- The row sums carried in, then the completed column tile's terms. -/
theorem next_Q (c : Dev nD) (t : Fin cfg0.N) (h2 : t.val % 6 = 5) (p : ℕ) (hp : p + 1 = t.val) (ts : Vec Ideal S6x256x384 .f32)
    (qq : Vec Ideal S6x256 .f32) (cc : Fin 6) (r : Fin 256)
    (hts : ∀ j : Fin 384, ts (ix3 cc r j) = Tn V c p cc r j) (hqq : qq (ix2 cc r) = Qn V c p cc r) :
    k0_pay4 (F := Ideal) (xb1 V c t) (xb3 V c t) (k0_pay3 (F := Ideal) (xb0 V c t) (xb2 V c t) (xb4 V c t) ts) qq (ix2 cc r) = Qn V c t.val cc r := by
  rw [Qn_add V c t.val h2]
  exact Q_step V c t _ qq cc r
    (fun j => (next_T V c t (by omega) p hp ts cc r j (hts j)).trans (Tn_full V c t.val h2 cc r j))
    (hqq.trans (Qn_prev V c p t.val hp (by omega) cc r))

/-! ## Each case's components, named by the kernel's arithmetic -/

theorem stA_T (c : Dev nD) (t : Fin cfg0.N) (h : t.val % 36 = 0) :
    (stA V c t h).2.1 = k0_pay3 (F := Ideal) (xb0 V c t) (xb2 V c t) (xb4 V c t) (k0_pay2 (F := Ideal)) := by
  unfold stA
  dsimp only
  exact piece_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsA t h).1 (condsA t h).2.1 (condsA t h).2.2.1 (condsA t h).2.2.2 (iblk V c 0 t) (iblk V c 1 t) (iblk V c 2 t) (iblk V c 3 t) (iblk V c 4 t)

theorem stA_Q (c : Dev nD) (t : Fin cfg0.N) (h : t.val % 36 = 0) :
    (stA V c t h).2.2 = k0_pay1 (F := Ideal) := by
  unfold stA
  dsimp only
  exact piece_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsA t h).1 (condsA t h).2.1 (condsA t h).2.2.1 (condsA t h).2.2.2 (iblk V c 0 t) (iblk V c 1 t) (iblk V c 2 t) (iblk V c 3 t) (iblk V c 4 t)

theorem stB_T (c : Dev nD) (t : Fin cfg0.N) (h0 : ¬t.val % 36 = 0) (h1 : t.val % 6 = 0) (prev : St Ideal) :
    (stB V c t h0 h1 prev).2.1 = k0_pay3 (F := Ideal) (xb0 V c t) (xb2 V c t) (xb4 V c t) (k0_pay2 (F := Ideal)) := by
  unfold stB
  dsimp only
  exact piece_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsB t h0 h1).1 (condsB t h0 h1).2.1 (condsB t h0 h1).2.2.1 (condsB t h0 h1).2.2.2 (iblk V c 0 t) (iblk V c 1 t) (iblk V c 2 t) (iblk V c 3 t) (iblk V c 4 t)

theorem stB_Q (c : Dev nD) (t : Fin cfg0.N) (h0 : ¬t.val % 36 = 0) (h1 : t.val % 6 = 0) (prev : St Ideal) : (stB V c t h0 h1 prev).2.2 = prev.2.2 := by
  unfold stB
  dsimp only

theorem stC_T (c : Dev nD) (t : Fin cfg0.N) (h1 : ¬t.val % 6 = 0) (h2 : ¬t.val % 6 = 5) (prev : St Ideal) :
    (stC V c t h1 h2 prev).2.1 = k0_pay3 (F := Ideal) (xb0 V c t) (xb2 V c t) (xb4 V c t) prev.2.1 := by
  unfold stC
  dsimp only
  exact piece_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsC t h1 h2).1 (condsC t h1 h2).2.1 (condsC t h1 h2).2.2.1 (condsC t h1 h2).2.2.2 (iblk V c 0 t) (iblk V c 1 t) (iblk V c 2 t) (iblk V c 3 t) (iblk V c 4 t) prev.2.1

theorem stC_Q (c : Dev nD) (t : Fin cfg0.N) (h1 : ¬t.val % 6 = 0) (h2 : ¬t.val % 6 = 5) (prev : St Ideal) : (stC V c t h1 h2 prev).2.2 = prev.2.2 := by
  unfold stC
  dsimp only

theorem stD_T (c : Dev nD) (t : Fin cfg0.N) (h2 : t.val % 6 = 5) (h3 : ¬t.val % 36 = 35) (prev : St Ideal) :
    (stD V c t h2 h3 prev).2.1 = k0_pay3 (F := Ideal) (xb0 V c t) (xb2 V c t) (xb4 V c t) prev.2.1 := by
  unfold stD
  dsimp only
  exact piece_D_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsD t h2 h3).1 (condsD t h2 h3).2.1 (condsD t h2 h3).2.2.1 (condsD t h2 h3).2.2.2 (iblk V c 0 t) (iblk V c 1 t) (iblk V c 2 t) (iblk V c 3 t) (iblk V c 4 t) prev.2.1 prev.2.2

theorem stD_Q (c : Dev nD) (t : Fin cfg0.N) (h2 : t.val % 6 = 5) (h3 : ¬t.val % 36 = 35) (prev : St Ideal) :
    (stD V c t h2 h3 prev).2.2 = k0_pay4 (F := Ideal) (xb1 V c t) (xb3 V c t) (k0_pay3 (F := Ideal) (xb0 V c t) (xb2 V c t) (xb4 V c t) prev.2.1) prev.2.2 := by
  unfold stD
  dsimp only
  exact piece_D_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsD t h2 h3).1 (condsD t h2 h3).2.1 (condsD t h2 h3).2.2.1 (condsD t h2 h3).2.2.2 (iblk V c 0 t) (iblk V c 1 t) (iblk V c 2 t) (iblk V c 3 t) (iblk V c 4 t) prev.2.1 prev.2.2

theorem stE_T (c : Dev nD) (t : Fin cfg0.N) (h3 : t.val % 36 = 35) (prev : St Ideal) :
    (stE V c t h3 prev).2.1 = k0_pay3 (F := Ideal) (xb0 V c t) (xb2 V c t) (xb4 V c t) prev.2.1 := by
  unfold stE
  dsimp only
  exact piece_E_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsE t h3).1 (condsE t h3).2.1 (condsE t h3).2.2.1 (condsE t h3).2.2.2 (iblk V c 0 t) (iblk V c 1 t) (iblk V c 2 t) (iblk V c 3 t) (iblk V c 4 t) prev.2.1 prev.2.2

theorem stE_Q (c : Dev nD) (t : Fin cfg0.N) (h3 : t.val % 36 = 35) (prev : St Ideal) :
    (stE V c t h3 prev).2.2 = k0_pay4 (F := Ideal) (xb1 V c t) (xb3 V c t) (k0_pay3 (F := Ideal) (xb0 V c t) (xb2 V c t) (xb4 V c t) prev.2.1) prev.2.2 := by
  unfold stE
  dsimp only
  exact piece_E_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsE t h3).1 (condsE t h3).2.1 (condsE t h3).2.2.1 (condsE t h3).2.2.2 (iblk V c 0 t) (iblk V c 1 t) (iblk V c 2 t) (iblk V c 3 t) (iblk V c 4 t) prev.2.1 prev.2.2

theorem stE_O (c : Dev nD) (t : Fin cfg0.N) (h3 : t.val % 36 = 35) (prev : St Ideal) :
    (stE V c t h3 prev).1 = k0_pay4 (F := Ideal) (xb1 V c t) (xb3 V c t) (k0_pay3 (F := Ideal) (xb0 V c t) (xb2 V c t) (xb4 V c t) prev.2.1) prev.2.2 := by
  unfold stE
  dsimp only
  exact piece_E_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (condsE t h3).1 (condsE t h3).2.1 (condsE t h3).2.2.1 (condsE t h3).2.2.2 (iblk V c 0 t) (iblk V c 1 t) (iblk V c 2 t) (iblk V c 3 t) (iblk V c 4 t) prev.2.1 prev.2.2

/-! ## The case equations at a successor position -/

theorem outsAt0_succ_A (c : Dev nD) (n : ℕ) (hn : n + 1 < cfg0.N) (h0 : (n + 1) % 36 = 0) :
    outsAt0 V c (n + 1) hn = stA V c ⟨n + 1, hn⟩ h0 :=
  outsAt0_A V c ⟨n + 1, hn⟩ h0
theorem outsAt0_succ_B (c : Dev nD) (n : ℕ) (hn : n + 1 < cfg0.N) (h0 : ¬(n + 1) % 36 = 0) (h1 : (n + 1) % 6 = 0) :
    outsAt0 V c (n + 1) hn = stB V c ⟨n + 1, hn⟩ h0 h1 (outsAt0 V c n (Nat.lt_of_succ_lt hn)) :=
  outsAt0_B V c ⟨n + 1, hn⟩ h0 h1
theorem outsAt0_succ_C (c : Dev nD) (n : ℕ) (hn : n + 1 < cfg0.N) (h1 : ¬(n + 1) % 6 = 0) (h2 : ¬(n + 1) % 6 = 5) :
    outsAt0 V c (n + 1) hn = stC V c ⟨n + 1, hn⟩ h1 h2 (outsAt0 V c n (Nat.lt_of_succ_lt hn)) :=
  outsAt0_C V c ⟨n + 1, hn⟩ h1 h2
theorem outsAt0_succ_D (c : Dev nD) (n : ℕ) (hn : n + 1 < cfg0.N) (h2 : (n + 1) % 6 = 5) (h3 : ¬(n + 1) % 36 = 35) :
    outsAt0 V c (n + 1) hn = stD V c ⟨n + 1, hn⟩ h2 h3 (outsAt0 V c n (Nat.lt_of_succ_lt hn)) :=
  outsAt0_D V c ⟨n + 1, hn⟩ h2 h3
theorem outsAt0_succ_E (c : Dev nD) (n : ℕ) (hn : n + 1 < cfg0.N) (h3 : (n + 1) % 36 = 35) :
    outsAt0 V c (n + 1) hn = stE V c ⟨n + 1, hn⟩ h3 (outsAt0 V c n (Nat.lt_of_succ_lt hn)) :=
  outsAt0_E V c ⟨n + 1, hn⟩ h3

/-! ## The induction over the positions -/

/-- After every position the partial products and the row sums hold their closed forms. -/
theorem state_inv (c : Dev nD) (n : ℕ) (hn : n < cfg0.N) :
    (∀ (cc : Fin 6) (r : Fin 256) (j : Fin 384), (outsAt0 V c n hn).2.1 (ix3 cc r j) = Tn V c n cc r j)
      ∧ (∀ (cc : Fin 6) (r : Fin 256), (outsAt0 V c n hn).2.2 (ix2 cc r) = Qn V c n cc r) := by
  induction n with
  | zero =>
    rw [outsAt0_A V c ⟨0, hn⟩ (Nat.zero_mod 36)]
    refine ⟨fun cc r j => ?_, fun cc r => ?_⟩
    · rw [stA_T]
      exact reset_T V c ⟨0, hn⟩ (Nat.zero_mod 6) cc r j
    · rw [stA_Q]
      exact reset_Q V c ⟨0, hn⟩ (Nat.zero_mod 36) cc r
  | succ n ih =>
    obtain ⟨ihT, ihQ⟩ := ih (Nat.lt_of_succ_lt hn)
    by_cases h0 : (n + 1) % 36 = 0
    · rw [outsAt0_succ_A V c n hn h0]
      refine ⟨fun cc r j => ?_, fun cc r => ?_⟩
      · rw [stA_T]
        exact reset_T V c ⟨n + 1, hn⟩ (show (n + 1) % 6 = 0 by omega) cc r j
      · rw [stA_Q]
        exact reset_Q V c ⟨n + 1, hn⟩ h0 cc r
    · by_cases h1 : (n + 1) % 6 = 0
      · rw [outsAt0_succ_B V c n hn h0 h1]
        refine ⟨fun cc r j => ?_, fun cc r => ?_⟩
        · rw [stB_T]
          exact reset_T V c ⟨n + 1, hn⟩ h1 cc r j
        · rw [stB_Q]
          exact keep_Q V c ⟨n + 1, hn⟩ h0 (show ¬(n + 1) % 6 = 5 by omega) n rfl _ cc r (ihQ cc r)
      · by_cases h2 : (n + 1) % 6 = 5
        · by_cases h3 : (n + 1) % 36 = 35
          · rw [outsAt0_succ_E V c n hn h3]
            refine ⟨fun cc r j => ?_, fun cc r => ?_⟩
            · rw [stE_T]
              exact next_T V c ⟨n + 1, hn⟩ h1 n rfl _ cc r j (ihT cc r j)
            · rw [stE_Q]
              exact next_Q V c ⟨n + 1, hn⟩ h2 n rfl _ _ cc r (ihT cc r) (ihQ cc r)
          · rw [outsAt0_succ_D V c n hn h2 h3]
            refine ⟨fun cc r j => ?_, fun cc r => ?_⟩
            · rw [stD_T]
              exact next_T V c ⟨n + 1, hn⟩ h1 n rfl _ cc r j (ihT cc r j)
            · rw [stD_Q]
              exact next_Q V c ⟨n + 1, hn⟩ h2 n rfl _ _ cc r (ihT cc r) (ihQ cc r)
        · rw [outsAt0_succ_C V c n hn h1 h2]
          refine ⟨fun cc r j => ?_, fun cc r => ?_⟩
          · rw [stC_T]
            exact next_T V c ⟨n + 1, hn⟩ h1 n rfl _ cc r j (ihT cc r j)
          · rw [stC_Q]
            exact keep_Q V c ⟨n + 1, hn⟩ h0 h2 n rfl _ cc r (ihQ cc r)

end StateAt

open StateAt

/-! ## The closed forms, stated outright -/

/-- The partial products after position n, at class c, row r of the batch tile and column j of the column tile. -/
theorem T_at (c : Dev nD) (n : ℕ) (hn : n < cfg0.N) (cc : Fin 6) (r : Fin 256) (j : Fin 384) :
    (outsAt0 V c n hn).2.1 (ix3 cc r j) = ∑ i ∈ Finset.range (384 * (n % 6 + 1)), Dn V c cc (256 * (n / 36) + r.val) i * Sn V c cc i (384 * (n / 6 % 6) + j.val) :=
  (state_inv V c n hn).1 cc r j

/-- The row sums after position n, at class c and row r of the batch tile. -/
theorem Q_at (c : Dev nD) (n : ℕ) (hn : n < cfg0.N) (cc : Fin 6) (r : Fin 256) :
    (outsAt0 V c n hn).2.2 (ix2 cc r) = ∑ j ∈ Finset.range (384 * (if n % 6 = 5 then n / 6 % 6 + 1 else n / 6 % 6)), inner V c cc (256 * (n / 36) + r.val) j * Dn V c cc (256 * (n / 36) + r.val) j :=
  (state_inv V c n hn).2 cc r

/-- At the last position of a batch tile the result window's buffer receives the whole quadratic form of each of the
    tile's rows. -/
theorem out_last (c : Dev nD) (n : ℕ) (hn : n < cfg0.N) (h : n % 36 = 35) (cc : Fin 6) (r : Fin 256) :
    (outsAt0 V c n hn).1 (ix2 cc r) = ∑ j ∈ Finset.range 2304, inner V c cc (256 * (n / 36) + r.val) j * Dn V c cc (256 * (n / 36) + r.val) j := by
  obtain ⟨p, rfl⟩ : ∃ p, n = p + 1 := ⟨n - 1, by omega⟩
  obtain ⟨ihT, ihQ⟩ := state_inv V c p (Nat.lt_of_succ_lt hn)
  rw [outsAt0_succ_E V c p hn h, stE_O]
  refine (next_Q V c ⟨p + 1, hn⟩ (show (p + 1) % 6 = 5 by omega) p rfl _ _ cc r (ihT cc r) (ihQ cc r)).trans ?_
  have e : (p + 1) / 6 % 6 + 1 = 6 := by omega
  rw [Qn_add V c (p + 1) (by omega) cc r, e]

end

end Cert.KernelIdeal.Hand

end
-- ==== Proof.Ideal.EntryAt.lean ====
/-
  The padded arrays as the kernel region finds them, read at an index. Before the region the program runs six
  stretches of host operations: three times the integer constant 0, its conversion to a float, and the padding of one
  argument with that value on the feature axes. So on entry the padded samples hold the samples where the feature
  index is below 2096 and 0 from there on, likewise the padded class means, and the padded precision matrices hold the
  matrices where both feature indices are below 2096 and 0 elsewhere; the class labels are as launched, no host
  operation writing them.
-/
import proofs.«171433_j4939212390990_1_alg».proof.Proof.Gen.KernelIdeal.Launch
import proofs.«171433_j4939212390990_1_alg».proof.Proof.Ideal.PadAt
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The device's buffers after the six host stretches before the region, from the launch contents `m`. -/
abbrev Wentry (c : Dev nD) : Valuation τ sig (Elt Ideal) :=
  StableHlo.after hostOps0_5 (StableHlo.after hostOps0_4 (StableHlo.after hostOps0_3 (StableHlo.after hostOps0_2
    (StableHlo.after hostOps0_1 (StableHlo.after hostOps0 (fun b => m (c, b)))))))

/-! ## Each padded array is the padding of its argument with the converted integer 0 -/

theorem entry_v0_eq (c : Dev nD) :
    (Wentry m c (Proc.devRef .tc main_v0) : S1024x2304.Idx → EReal)
      = pad S1024x2304 ![0, 0] ![0, 208] ![0, 0] (m ((c : Thread nD τ).loc main_arg0) : S1024x2096.Idx → EReal)
          (sitofp (F := Ideal) .f32 (constantI S_ 32 0#32)) pads_S1024x2096_S1024x2304_000_02080 h_S_ := by
  dsimp only [Wentry, hostOps0, hostOps0_1, hostOps0_2, hostOps0_3, hostOps0_4, hostOps0_5]
  after_results
  rfl

theorem entry_v1_eq (c : Dev nD) :
    (Wentry m c (Proc.devRef .tc main_v1) : S6x2304.Idx → EReal)
      = pad S6x2304 ![0, 0] ![0, 208] ![0, 0] (m ((c : Thread nD τ).loc main_arg1) : S6x2096.Idx → EReal)
          (sitofp (F := Ideal) .f32 (constantI S_ 32 0#32)) pads_S6x2096_S6x2304_000_02080 h_S_ := by
  dsimp only [Wentry, hostOps0, hostOps0_1, hostOps0_2, hostOps0_3, hostOps0_4, hostOps0_5]
  after_results
  rfl

theorem entry_v2_eq (c : Dev nD) :
    (Wentry m c (Proc.devRef .tc main_v2) : S6x2304x2304.Idx → EReal)
      = pad S6x2304x2304 ![0, 0, 0] ![0, 208, 208] ![0, 0, 0]
          (m ((c : Thread nD τ).loc main_arg2) : S6x2096x2096.Idx → EReal)
          (sitofp (F := Ideal) .f32 (constantI S_ 32 0#32)) pads_S6x2096x2096_S6x2304x2304_000_02080_02080 h_S_ := by
  dsimp only [Wentry, hostOps0, hostOps0_1, hostOps0_2, hostOps0_3, hostOps0_4, hostOps0_5]
  after_results
  rfl

/-! ## The padded arrays at an index -/

/-- The padded samples on entry. -/
theorem entry_v0_at (c : Dev nD) (b : Fin 1024) (i : Fin 2304) :
    (Wentry m c (Proc.devRef .tc main_v0) : S1024x2304.Idx → EReal) (ix2 b i)
      = if h : i.val < 2096 then (m ((c : Thread nD τ).loc main_arg0) : S1024x2096.Idx → EReal) (ix2 b ⟨i.val, h⟩)
        else (0 : EReal) := by
  rw [entry_v0_eq, padX_at, padval_zero]

/-- The padded class means on entry. -/
theorem entry_v1_at (c : Dev nD) (cc : Fin 6) (i : Fin 2304) :
    (Wentry m c (Proc.devRef .tc main_v1) : S6x2304.Idx → EReal) (ix2 cc i)
      = if h : i.val < 2096 then (m ((c : Thread nD τ).loc main_arg1) : S6x2096.Idx → EReal) (ix2 cc ⟨i.val, h⟩)
        else (0 : EReal) := by
  rw [entry_v1_eq, padM_at, padval_zero]

/-- The padded precision matrices on entry. -/
theorem entry_v2_at (c : Dev nD) (cc : Fin 6) (i j : Fin 2304) :
    (Wentry m c (Proc.devRef .tc main_v2) : S6x2304x2304.Idx → EReal) (ix3 cc i j)
      = if h : i.val < 2096 ∧ j.val < 2096 then
          (m ((c : Thread nD τ).loc main_arg2) : S6x2096x2096.Idx → EReal) (ix3 cc ⟨i.val, h.1⟩ ⟨j.val, h.2⟩)
        else (0 : EReal) := by
  rw [entry_v2_eq, padS_at, padval_zero]

/-- The class labels on entry are the launch's: no host stretch writes them. -/
theorem entry_arg3 (c : Dev nD) : Wentry m c (Proc.devRef .tc main_arg3) = m ((c : Thread nD τ).loc main_arg3) := by
  dsimp only [Wentry, hostOps0, hostOps0_1, hostOps0_2, hostOps0_3, hostOps0_4, hostOps0_5]
  after_results

end Cert.KernelIdeal.Hand

end
-- ==== Proof.Ideal.Bridge.lean ====
/-
  The two programs compute one function. After the region the kernel's 6 × 1024 result holds, at class c and sample b,
  what the last grid point of b's batch tile left at row b mod 256: the sum over all 2304 padded columns j of
  (∑ over all 2304 padded rows i of δ[c,b,i]·Σ[c,i,j])·δ[c,b,j], δ the deviation of the padded sample from the padded
  class mean. The padding is zero on both factors' feature axes, so the terms beyond 2096 vanish and the sum is the
  reference's q[c,b] = ∑ j, (∑ i, δ[c,b,i]·Σ[c,i,j])·δ[c,b,j] over the 2096 features. Both programs then pick each
  sample's own class out of q by the same operations.
-/
import proofs.«171433_j4939212390990_1_alg».proof.Proof.Ideal.OutAt
import proofs.«171433_j4939212390990_1_alg».proof.Proof.Ideal.StateAt
import proofs.«171433_j4939212390990_1_alg».proof.Proof.Ideal.EntryAt
import proofs.«171433_j4939212390990_1_alg».proof.Proof.Ideal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Bridge
variable (m : (ℓ : Loc nD τ sig) → Buf (Elt Ideal) ℓ)

/-- The argument arrays as functions of their indices. -/
abbrev aX (c : Dev nD) : S1024x2096.Idx → EReal := m ((c : Thread nD τ).loc main_arg0)
abbrev aM (c : Dev nD) : S6x2096.Idx → EReal := m ((c : Thread nD τ).loc main_arg1)
abbrev aS (c : Dev nD) : S6x2096x2096.Idx → EReal := m ((c : Thread nD τ).loc main_arg2)

/-- The padded deviation at the region's entry: the deviation inside the 2096 features, -/
theorem Dn_inside (c : Dev nD) (cc : Fin 6) (b : Fin 1024) (i : ℕ) (h : i < 2096) :
    Dn (Vin (F := Ideal) m) c cc b.val i = aX m c (ix2 b ⟨i, h⟩) - aM m c (ix2 cc ⟨i, h⟩) := by
  have h' : i < 2304 := by omega
  unfold Dn Xn Mn
  rw [dif_pos ⟨b.isLt, h'⟩, dif_pos h']
  rw [show (Vin (F := Ideal) m c main_v0 : S1024x2304.Idx → EReal) (ix2 ⟨b.val, b.isLt⟩ ⟨i, h'⟩) = _ from entry_v0_at m c b ⟨i, h'⟩,
    show (Vin (F := Ideal) m c main_v1 : S6x2304.Idx → EReal) (ix2 cc ⟨i, h'⟩) = _ from entry_v1_at m c cc ⟨i, h'⟩]
  rw [dif_pos h, dif_pos h]
/-- zero in the padding. -/
theorem Dn_outside (c : Dev nD) (cc : Fin 6) (b : Fin 1024) (i : ℕ) (h : 2096 ≤ i) :
    Dn (Vin (F := Ideal) m) c cc b.val i = 0 := by
  unfold Dn Xn Mn
  by_cases h' : i < 2304
  · rw [dif_pos ⟨b.isLt, h'⟩, dif_pos h']
    rw [show (Vin (F := Ideal) m c main_v0 : S1024x2304.Idx → EReal) (ix2 ⟨b.val, b.isLt⟩ ⟨i, h'⟩) = _ from entry_v0_at m c b ⟨i, h'⟩,
      show (Vin (F := Ideal) m c main_v1 : S6x2304.Idx → EReal) (ix2 cc ⟨i, h'⟩) = _ from entry_v1_at m c cc ⟨i, h'⟩]
    rw [dif_neg (by dsimp only; omega), dif_neg (by dsimp only; omega)]; simp
  · rw [dif_neg (fun hh => h' hh.2), dif_neg h']; simp
/-- The padded precision matrices inside the features. -/
theorem Sn_inside (c : Dev nD) (cc : Fin 6) (i j : ℕ) (hi : i < 2096) (hj : j < 2096) :
    Sn (Vin (F := Ideal) m) c cc i j = aS m c (ix3 cc ⟨i, hi⟩ ⟨j, hj⟩) := by
  have hi' : i < 2304 := by omega
  have hj' : j < 2304 := by omega
  unfold Sn
  rw [dif_pos ⟨hi', hj'⟩]
  rw [show (Vin (F := Ideal) m c main_v2 : S6x2304x2304.Idx → EReal) (ix3 cc ⟨i, hi'⟩ ⟨j, hj'⟩) = _ from entry_v2_at m c cc ⟨i, hi'⟩ ⟨j, hj'⟩]
  rw [dif_pos ⟨hi, hj⟩]

/-- THE BRIDGE: the kernel's result array after the region is the reference's q. -/
theorem q_eq (c : Dev nD) (cc : Fin 6) (b : Fin 1024) :
    ((dats (Vin (F := Ideal) m) c).arrAt 5 cfg0.N : S6x1024.Idx → EReal) (ix2 cc b)
      = ∑ j : Fin 2096, (∑ i : Fin 2096, (aX m c (ix2 b i) - aM m c (ix2 cc i)) * aS m c (ix3 cc i j)) * (aX m c (ix2 b j) - aM m c (ix2 cc j)) := by
  have hn : 36 * (b.val / 256) + 35 < cfg0.N := by have := b.isLt; have : cfg0.N = 144 := N_0; omega
  rw [arrAt5_eq (Vin (F := Ideal) m) c]
  rw [Gq_apply (Vin (F := Ideal) m) c (ix2 cc b) (36 * (b.val / 256) + 35) hn (ix2 cc ⟨b.val % 256, Nat.mod_lt _ (by decide)⟩) rfl rfl rfl]
  rw [out_last (Vin (F := Ideal) m) c _ hn (by omega) cc ⟨b.val % 256, Nat.mod_lt _ (by decide)⟩]
  have hb : 256 * ((36 * (b.val / 256) + 35) / 36) + b.val % 256 = b.val := by omega
  dsimp only
  rw [hb]
  unfold inner
  exact quad_pad (fun i => aX m c (ix2 b i) - aM m c (ix2 cc i)) (fun i j => aS m c (ix3 cc i j))
    (Dn (Vin (F := Ideal) m) c cc b.val) (Sn (Vin (F := Ideal) m) c cc)
    (fun i h => Dn_inside m c cc b i h) (fun i h => Dn_outside m c cc b i h) (fun i j hi hj => Sn_inside m c cc i j hi hj)

end Bridge

end Cert.KernelIdeal.Hand

end
-- ==== Proof.Ideal.Result.lean ====
/-
  The idealized kernel program's run with its result named, and that result as the reference's own term: the shared
  last operations applied to the reference's row sums and the labels.
-/
import proofs.«171433_j4939212390990_1_alg».proof.Proof.Ideal.TailAt
import proofs.«171433_j4939212390990_1_alg».proof.Proof.Ideal.Bridge

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Result
variable (m : (ℓ : Loc nD τ sig) → Buf (Elt Ideal) ℓ) (ρ : Dev nD → PrngReg)

/-- Every weakly fair execution of the idealized kernel program terminates with its result at the last valuation's
    and its arguments unchanged. -/
theorem run_result : θ_run defs (onTc (τ := τ) (main (F := Ideal))) ⟨m, fun _ => 0, ρ⟩ (fun r => ∀ c : Dev nD,
      r.2.mem ((c.tc : Thread nD τ).loc main_v18) = W8 (F := Ideal) m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v18 (by decide)),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c)⟩) (run_main (F := Ideal) m ρ)

/-- The kernel's result is the shared last operations applied to the REFERENCE's row sums of the same arguments. -/
theorem result_eq_ref (c : Dev nD) :
    W8 (F := Ideal) m c main_v18
      = Cert.ReferenceIdeal.RefAt.tail
          (Cert.ReferenceIdeal.Read.val_main_v7 (F := Ideal) (m ((c : Thread nD τ).loc main_arg0)) (m ((c : Thread nD τ).loc main_arg1)) (m ((c : Thread nD τ).loc main_arg2)))
          (m ((c : Thread nD τ).loc main_arg3)) := by
  rw [result_at m c]
  refine congrArg (fun q => Cert.ReferenceIdeal.RefAt.tail q _) (funext fun y => ?_)
  obtain ⟨cc, b, rfl⟩ : ∃ (cc : Fin 6) (b : Fin 1024), y = ix2 cc b := ⟨y 0, y 1, eq_ix2 y⟩
  rw [Cert.ReferenceIdeal.RefAt.q_at]
  exact q_eq m c cc b

end Result

end Cert.KernelIdeal.Hand

end
-- ==== Proof.lean ====
/-
  A Mahalanobis-type quadratic form per class: for 6 classes, 1024 samples and 2096 features,
  q[c,b] = ∑ j, (∑ i, δ[c,b,i]·Σ[c,i,j])·δ[c,b,j] with δ[c,b,i] = X[b,i] − mean[c,i], and the result picks each sample's
  own class out of q. The kernel pads the features with zeros to 2304 = 6·384, walks a 4 × 6 × 6 grid (batch tile,
  column tile, row tile), accumulates the inner sums row tile by row tile in one scratch buffer and the outer sum
  column tile by column tile in another, and writes a batch tile's 6 × 256 row sums out at its last point; the
  reference computes the two sums whole. Over the extended reals the two are one function: a sum may be regrouped by
  tiles, and every padded term is a product with zero.
  The three frames: the kernel's two (the word-level program and its idealization are one text) by the launch of a
  pipeline whose padded samples and padded class means are each read through two windows, the proof data tracking what
  the two scratch buffers hold after each grid point; the reference's by its run. The idealization rewrote nothing.
-/
import proofs.«171433_j4939212390990_1_alg».proof.Defs
import proofs.«171433_j4939212390990_1_alg».proof.Proof.Gen.Kernel
import proofs.«171433_j4939212390990_1_alg».proof.Proof.Gen.Kernel.Skeleton
import proofs.«171433_j4939212390990_1_alg».proof.Proof.Gen.Kernel.Launch
import proofs.«171433_j4939212390990_1_alg».proof.Proof.Gen.Kernel.Points
import proofs.«171433_j4939212390990_1_alg».proof.Proof.Gen.KernelIdeal
import proofs.«171433_j4939212390990_1_alg».proof.Proof.Gen.KernelIdeal.Skeleton
import proofs.«171433_j4939212390990_1_alg».proof.Proof.Gen.KernelIdeal.Launch
import proofs.«171433_j4939212390990_1_alg».proof.Proof.Gen.KernelIdeal.Points
import proofs.«171433_j4939212390990_1_alg».proof.Proof.Gen.ReferenceIdeal
import proofs.«171433_j4939212390990_1_alg».proof.Proof.Gen.ReferenceIdeal.Run
import proofs.«171433_j4939212390990_1_alg».proof.Proof.Gen.ReferenceIdeal.Read
import proofs.«171433_j4939212390990_1_alg».proof.Proof.Gen.Pre_finite_inputs
import proofs.«171433_j4939212390990_1_alg».proof.Proof.Bits.Launch
import proofs.«171433_j4939212390990_1_alg».proof.Proof.Ideal.Launch
import proofs.«171433_j4939212390990_1_alg».proof.Proof.Ideal.Result
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel program runs and leaves its arguments unchanged. -/
theorem frame_k : Cert.frame_Kernel := fun m ρ _ => Cert.Kernel.Hand.frame (F := Bits) m ρ
/-- So does its idealization (the same text). -/
theorem frame_ki : Cert.frame_KernelIdeal := fun m ρ _ => Cert.KernelIdeal.Hand.frame (F := Ideal) m ρ
/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result is the reference's: the 6 × 1024 row sums agree entry by entry, and
    both programs pick each sample's own class out of them by the same operations. -/
theorem algebraic : Cert.algebraic_KernelIdeal_ReferenceIdeal := by
  intro m g m' g' _ hagree
  refine ⟨fun c => Cert.KernelIdeal.Hand.W8 (F := Ideal) m c Cert.KernelIdeal.main_v18, Cert.KernelIdeal.Hand.run_result m g, ?_⟩
  refine (θ_run Cert.ReferenceIdeal.defs _ _).mono (fun _ h c => ⟨(h c).1.trans ?_, (h c).2⟩)
    (Cert.ReferenceIdeal.Value.run (F := Ideal) m' g')
  rw [(hagree c).1, (hagree c).2.1, (hagree c).2.2.1, (hagree c).2.2.2]
  exact (Cert.ReferenceIdeal.RefAt.result_eq _ _ _ _).trans (Cert.KernelIdeal.Hand.result_eq_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
